-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x512 : Shape := ⟨2, ![256, 512]⟩
abbrev S_ : Shape := ⟨0, ![]⟩
abbrev S4096 : Shape := ⟨1, ![4096]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x512 : S_.BroadcastsInDim S256x512 (![] : Fin 0 → Fin S256x512.rank)
  reducesTo_S256x512_S_d0_1 : S256x512.ReducesTo [0, 1] S_
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_

variable [Facts]

def fn_part1 {F : FTy → Type} [FloatOps F] (main_arg0 : FVec F S4096x4096 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_cst_6 : FVec F S_ .f32 := constant S_ .f32 0x00000000#32
  let main_v19 : FVec F S4096 .f32 := (fun x v => Host.reduceAdd x v reducesTo_S4096x4096_S4096_d1 h_S_) main_arg0 main_cst_6
  let main_cst_7 : FVec F S_ .f32 := constant S_ .f32 0x3F800000#32
  let main_v20 : FVec F S4096 .f32 := broadcastInDim S4096 ![] bcast_S_S4096 main_cst_7
  let main_v21 : FVec F S4096 .f32 := addf main_v19 main_v20
  let main_cst_8 : FVec F S_ .f32 := constant S_ .f32 0x00000000#32
  let main_v22 : FVec F S4096 .f32 := broadcastInDim S4096 ![] bcast_S_S4096 main_cst_8
  let main_v23 : IVec S4096 1 := cmpf .une main_v21 main_v22
  let main_c_9 : IVec S_ 1 := constantI S_ 1 1#1
  let main_v24 : IVec S_ 1 := (fun x v => Host.reduce IntOp.andi x v reducesTo_S4096_S_d0 h_S_) main_v23 main_c_9
  let main_v25 : IVec S_ 1 := andi main_v18 main_v24
  main_v25

def fn {F : FTy → Type} [FloatOps F] (main_arg0 : FVec F S4096x4096 .f32) (main_arg1 : FVec F S4096x256 .f32) (main_arg2 : FVec F S256x512 .f32) (main_arg3 : FVec F S256x512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg0 main_v13 main_v16
-- ==== Kernel.lean ====
abbrev S4096x4096 : Shape := ⟨2, ![4096, 4096]⟩
abbrev S4096x256 : Shape := ⟨2, ![4096, 256]⟩
abbrev S256x512 : Shape := ⟨2, ![256, 512]⟩
abbrev S256x256 : Shape := ⟨2, ![256, 256]⟩
abbrev S1024x4096 : Shape := ⟨2, ![1024, 4096]⟩
abbrev S1024x256 : Shape := ⟨2, ![1024, 256]⟩
abbrev S4096x1 : Shape := ⟨2, ![4096, 1]⟩
abbrev S1024 : Shape := ⟨1, ![1024]⟩
abbrev S1024x1 : Shape := ⟨2, ![1024, 1]⟩

abbrev nBuf : Space → Nat
  | .hbm => 18
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x512, .f32⟩
  | .hbm, ⟨3, _⟩ => ⟨S256x512, .f32⟩
  | .hbm, ⟨4, _⟩ => ⟨S4096x256, .bf16⟩
  | .hbm, ⟨5, _⟩ => ⟨S256x256, .f32⟩
  | .hbm, ⟨6, _⟩ => ⟨S256x256, .f32⟩
  | .hbm, ⟨7, _⟩ => ⟨S256x256, .bf16⟩
  | .hbm, ⟨8, _⟩ => ⟨S256x256, .f32⟩
  | .hbm, ⟨9, _⟩ => ⟨S256x256, .f32⟩
  | .hbm, ⟨10, _⟩ => ⟨S256x256, .bf16⟩
  | .hbm, ⟨11, _⟩ => ⟨S256x256, .f32⟩
  | .hbm, ⟨12, _⟩ => ⟨S256x256, .f32⟩
  | .hbm, ⟨13, _⟩ => ⟨S256x256, .bf16⟩
  | .hbm, ⟨14, _⟩ => ⟨S256x256, .f32⟩
  | .hbm, ⟨15, _⟩ => ⟨S256x256, .f32⟩
  | .hbm, ⟨16, _⟩ => ⟨S256x256, .bf16⟩
  | .hbm, ⟨17, _⟩ => ⟨S4096x256, .f32⟩
  | .local _ .vmem, ⟨0, _⟩ => ⟨S1024x4096, .f32⟩
  | .local _ .vmem, ⟨1, _⟩ => ⟨S1024x4096, .f32⟩
  | .local _ .vmem, ⟨2, _⟩ => ⟨S4096x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S1024x256, .f32⟩
  | .local _ .vmem, ⟨8, _⟩ => ⟨S1024x256, .f32⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg0 : BitVec 32 := BitVec.ofNat 32 (i 0).val
  let c0_i32_7 : BitVec 32 := 0#32
  let v14 : BitVec 1 := Scalar.cmpi .eq arg0 c0_i32_7
  let v15 : BitVec 32 := Scalar.extui v14
  let c0_i32_8 : BitVec 32 := 0#32
  let v16 : BitVec 1 := Scalar.cmpi .ne v15 c0_i32_8
  v16

def k0_off1 (i : grid0.Coords) : Fin 2 → Nat :=
  let arg1 : BitVec 32 := BitVec.ofNat 32 (i 1).val
  let c1024_i32_21 : BitVec 32 := 1024#32
  let v41 : BitVec 32 := Scalar.muli arg1 c1024_i32_21
  let v42 : Index := Scalar.indexCast v41
  let c0_22 : Index := 0#32
  ![v42.toNat, 0]
def k0_off2 (i : grid0.Coords) : Fin 2 → Nat :=
  let arg1 : BitVec 32 := BitVec.ofNat 32 (i 1).val
  let c1024_i32 : BitVec 32 := 1024#32
  let v17 : BitVec 32 := Scalar.muli arg1 c1024_i32
  let v18 : Index := Scalar.indexCast v17
  let c0_9 : Index := 0#32
  ![v18.toNat, 0]
def k0_off3 (i : grid0.Coords) : Fin 2 → Nat :=
  let arg1 : BitVec 32 := BitVec.ofNat 32 (i 1).val
  let c1024_i32_10 : BitVec 32 := 1024#32
  let v20 : BitVec 32 := Scalar.muli arg1 c1024_i32_10
  let v21 : Index := Scalar.indexCast v20
  let c0_11 : Index := 0#32
  ![v21.toNat, 0]
def k0_cond4 (i : grid0.Coords) : BitVec 1 :=
  let arg0 : BitVec 32 := BitVec.ofNat 32 (i 0).val
  let c0_i32_15 : BitVec 32 := 0#32
  let v33 : BitVec 1 := Scalar.cmpi .eq arg0 c0_i32_15
  let v34 : BitVec 32 := Scalar.extui v33
  let c0_i32_16 : BitVec 32 := 0#32
  let v35 : BitVec 1 := Scalar.cmpi .ne v34 c0_i32_16
  v35

def k0_off4 (i : grid0.Coords) : Fin 2 → Nat :=
  let arg1 : BitVec 32 := BitVec.ofNat 32 (i 1).val
  let c1024_i32_19 : BitVec 32 := 1024#32
  let v38 : BitVec 32 := Scalar.muli arg1 c1024_i32_19
  let v39 : Index := Scalar.indexCast v38
  let c0_20 : Index := 0#32
  ![v39.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  slices_S256x512_S256x256_0_0 : S256x512.Slices ![0, 0] S256x256
  transposes_S256x256_S256x256_1_0 : S256x256.Transposes [1, 0] S256x256
  slices_S256x512_S256x256_0_256 : S256x512.Slices ![0, 256] S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S4096x256_S4096x256_0_0 : (Rect.unit (s := S4096x256) ![0, 0] S4096x256.size inb_S4096x256_S4096x256_0_0).PackedRows (EltTy.packing .bf16)
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  h_S1024x1 : 0 < S1024x1.numel
  shapeCasts_S1024x1_S1024x1 : S1024x1.ShapeCasts S1024x1
  h_S1024x256 : 0 < S1024x256.numel
  broadcasts_S1024x1_S1024x256 : S1024x1.Broadcasts S1024x256
  shapeCasts_S1024x256_S1024x256 : S1024x256.ShapeCasts S1024x256
  inb_S1024x256_S1024x256_0_0 : ∀ a, (![0, 0] : Fin 2 → Nat) a + S1024x256.size a ≤ S1024x256.size a
  dot_S4096x256_S256x256_S4096x256_1_0_0_1_n_n_wf : DotDims.WF S4096x256 S256x256 S4096x256 [1] [0] [0] [1] [] []
  dot_S1024x4096_S4096x256_S1024x256_1_0_0_1_n_n_wf : DotDims.WF S1024x4096 S4096x256 S1024x256 [1] [0] [0] [1] [] []
  hrank0 : 0 < grid0.rank
  k0_off1_inb : ∀ i : grid0.Coords, ∀ (k0_h3 : k0_cond3 i = 1#1), ∀ a, (k0_off1 i) a + S1024x1.size a ≤ S4096x1.size a
  k0_off2_inb : ∀ i : grid0.Coords, ∀ a, (k0_off2 i) a + S1024x1.size a ≤ S4096x1.size a
  k0_off3_inb : ∀ i : grid0.Coords, ∀ a, (k0_off3 i) a + S1024x256.size a ≤ S4096x256.size a
  k0_off4_inb : ∀ i : grid0.Coords, ∀ (k0_h4 : k0_cond4 i = 1#1), ∀ a, (k0_off4 i) a + S1024x256.size a ≤ S4096x256.size a
  k0_off4_packedbf16 : ∀ i : grid0.Coords, ∀ (k0_h4 : k0_cond4 i = 1#1), (Rect.unit (s := S4096x256) (k0_off4 i) S1024x256.size (k0_off4_inb i k0_h4)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x256.size a
  hwx0_6 : ∀ i : grid0.Coords, EltTy.bits .f32 = 32 ∨ (Rect.block (s := S4096x256) S1024x256.size (cc0_transform_6 i) (hinb0_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x256 : Shape := ⟨2, ![4096, 256]⟩
abbrev S256x512 : Shape := ⟨2, ![256, 512]⟩
abbrev S_ : Shape := ⟨0, ![]⟩
abbrev S4096 : Shape := ⟨1, ![4096]⟩
abbrev S4096x1 : Shape := ⟨2, ![4096, 1]⟩
abbrev S4096x512 : Shape := ⟨2, ![4096, 512]⟩
abbrev S512x256 : Shape := ⟨2, ![512, 256]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x512, .f32⟩
  | .hbm, ⟨14, _⟩ => ⟨S512x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x512, .f32⟩
  | .hbm, ⟨29, _⟩ => ⟨S512x256, .f32⟩
  | .hbm, ⟨30, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  shapeCasts_S4096_S4096x1 : S4096.ShapeCasts S4096x1
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S4096x512_d1 : Shape.Concatenates [S4096x256, S4096x256] S4096x512 1
  transposes_S256x512_S512x256_1_0 : S256x512.Transposes [1, 0] S512x256
  bcast_S_S4096x256 : S_.BroadcastsInDim S4096x256 (![] : Fin 0 → Fin S4096x256.rank)
  dot_S4096x4096_S4096x256_S4096x256_1_0_0_1_n_n_wf : DotDims.WF S4096x4096 S4096x256 S4096x256 [1] [0] [0] [1] [] []
  dot_S4096x512_S512x256_S4096x256_1_0_0_1_n_n_wf : DotDims.WF S4096x512 S512x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.K.Runs.lean ====
/-
  What the four control cases of the fused two-layer body share.  The body branches on the grid point (l, i) of the
  2 × 4 grid (point t = 4 l + i): the projections z = x · Wb and sx = x · Wa are recomputed at the first point of each
  layer (t = 0 from the inputs, t = 4 from the hidden activations), and the degree column and the hidden activations are
  stored, one block of 1024 rows per point, during layer 0 only (t < 4).  Here: the four branch conditions in closed form
  over the grid, the staging and scratch memrefs the pipeline calls the body with, and the region invariant opened into
  the four scratch buffers.
-/
import proofs.«148510_g32856499814675_cont_sun_m_926_20_alg».proof.Proof.Gen.Kernel.Frame
import proofs.«148510_g32856499814675_cont_sun_m_926_20_alg».proof.Proof.Gen.Kernel.Skeleton

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The first branch (layer 0, first row block): `l = 0 ∧ i = 0`, as the body's scalar chain. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The second branch (layer 1, first row block): `l = 1 ∧ i = 0`. -/
abbrev cond0_1 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- It holds at point 4 only. -/
theorem hcond0_1 : ∀ t : Fin cfg0.N, cond0_1 (grid0.coords t) ↔ t.val = 4 :=
  (by decide +kernel : ∀ t : Fin grid0.N, cond0_1 (grid0.coords t) ↔ t.val = 4)

/-- The third branch (the degree column's block is stored): `l = 0`. -/
abbrev cond0_2 (i : grid0.Coords) : Prop := k0_cond3 i = 1#1
/-- It holds at the points of layer 0. -/
theorem hcond0_2 : ∀ t : Fin cfg0.N, cond0_2 (grid0.coords t) ↔ t.val < 4 :=
  (by decide +kernel : ∀ t : Fin grid0.N, cond0_2 (grid0.coords t) ↔ t.val < 4)

/-- The fourth branch (the hidden activations' block is stored): `l = 0`. -/
abbrev cond0_3 (i : grid0.Coords) : Prop := k0_cond4 i = 1#1
/-- It holds at the points of layer 0. -/
theorem hcond0_3 : ∀ t : Fin cfg0.N, cond0_3 (grid0.coords t) ↔ t.val < 4 :=
  (by decide +kernel : ∀ t : Fin grid0.N, cond0_3 (grid0.coords t) ↔ t.val < 4)

/-! ## The memrefs the body is called with -/

abbrev ms0_0 (t : Fin cfg0.N) : Memref sig .tc .vmem S1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)

/-- The scratch operands: z (neighbour projection), sx (self projection), h (hidden activations), deg (degree column). -/
abbrev scM0_0 : Memref sig .tc .vmem S4096x256 .bf16 := Memref.whole cc0_scratch0
abbrev scM0_1 : Memref sig .tc .vmem S4096x256 .bf16 := Memref.whole cc0_scratch1
abbrev scM0_2 : Memref sig .tc .vmem S4096x256 .bf16 := Memref.whole cc0_scratch2
abbrev scM0_3 : Memref sig .tc .vmem S4096x1 .f32 := Memref.whole cc0_scratch3

/-- One staging buffer of the output window, through which its contents are stated. -/
abbrev VO0_6 : View sig .tc .vmem S1024x256 .f32 := (Memref.whole cc0_stg6_0 : Memref sig .tc .vmem S1024x256 .f32).view

/-- The region invariant of the class, with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Track

end
-- ==== Proof.K.State.lean ====
/-
  What the scratch buffers and the output block hold, point by point, as terms over the arguments' blocks.

  Layer 0 (points t = 0 … 3, row block b = t): z and sx are the projections of the input features, computed at t = 0;
  the degree block is the row sums of the adjacency's row block plus one; the output block is
  max(sx_blk + (a_blk · z) · (1 / deg_blk), 0), and its narrowing is stored as row block b of the hidden activations.
  Layer 1 (points t = 4 … 7, row block b = t - 4): z and sx are the projections of the whole hidden activations,
  computed at t = 4; the degree block is read back; the output block is sx_blk + (a_blk · z) · (1 / deg_blk).
-/
import proofs.«148510_g32856499814675_cont_sun_m_926_20_alg».proof.Proof.K.Runs
import Idealize.ShloMosaic.Lib.Pipeline.Value
import Idealize.ShloMosaic.Lib.ValueIdx

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Point `n` of the grid of eight. -/
abbrev pt (n : ℕ) (h : n < 8) : Fin cfg0.N := ⟨n, lt_of_lt_of_eq h N_0.symm⟩

/-! ## The arguments' blocks at a point, at their literal types -/

/-- The adjacency's row block. -/
abbrev adjB (c : Dev nD) (t : Fin cfg0.N) : Vec F S1024x4096 .f32 := iblk m c 0 t
/-- The input features, narrowed (the whole array at every point). -/
abbrev xin (c : Dev nD) (t : Fin cfg0.N) : Vec F S4096x256 .bf16 := iblk m c 1 t
/-- The four weight halves, transposed and narrowed: self and neighbour half of layer 0, then of layer 1. -/
abbrev wa0 (c : Dev nD) (t : Fin cfg0.N) : Vec F S256x256 .bf16 := iblk m c 2 t
abbrev wb0 (c : Dev nD) (t : Fin cfg0.N) : Vec F S256x256 .bf16 := iblk m c 3 t
abbrev wa1 (c : Dev nD) (t : Fin cfg0.N) : Vec F S256x256 .bf16 := iblk m c 4 t
abbrev wb1 (c : Dev nD) (t : Fin cfg0.N) : Vec F S256x256 .bf16 := iblk m c 5 t

/-- The point's 1024 rows of a 4096-row projection. -/
abbrev sxBlk (sx : Vec F S4096x256 .bf16) (i : grid0.Coords) : Vec F S1024x256 .bf16 :=
  View.ld sx (Rect.unit (s := S4096x256) (k0_off3 i) S1024x256.size (k0_off3_inb i))
/-- The point's 1024 rows of the degree column. -/
abbrev dgBlk (dg : Vec F S4096x1 .f32) (i : grid0.Coords) : Vec F S1024x1 .f32 :=
  View.ld dg (Rect.unit (s := S4096x1) (k0_off2 i) S1024x1.size (k0_off2_inb i))

/-! ## Layer 0 -/

/-- z of layer 0: the features times the neighbour half. -/
def Z0 (c : Dev nD) : Vec F S4096x256 .bf16 := k0_pay2 (xin m c (pt 0 (by omega))) (wb0 m c (pt 0 (by omega)))
/-- sx of layer 0: the features times the self half. -/
def SX0 (c : Dev nD) : Vec F S4096x256 .bf16 := k0_pay3 (xin m c (pt 0 (by omega))) (wa0 m c (pt 0 (by omega)))
/-- Row block `b` of the degree column: the row sums of the adjacency's block plus one. -/
def DB (c : Dev nD) (b : Fin 4) : Vec F S1024x1 .f32 := k0_pay6 (adjB m c (pt b.val (by omega)))
/-- The output block of layer 0 at row block `b`. -/
def Out0 (c : Dev nD) (b : Fin 4) : Vec F S1024x256 .f32 :=
  k0_pay7 (grid0.coords (pt b.val (by omega))) (adjB m c (pt b.val (by omega))) (Z0 m c) (DB m c b)
    (sxBlk (SX0 m c) (grid0.coords (pt b.val (by omega))))
/-- Row block `b` of the hidden activations. -/
def HB (c : Dev nD) (b : Fin 4) : Vec F S1024x256 .bf16 := k0_pay1 (Out0 m c b)

/-- The hidden activations whole: row `r` is row `r % 1024` of block `r / 1024`. -/
def Hfull (c : Dev nD) : Vec F S4096x256 .bf16 := fun y =>
  HB m c ⟨(y 0).val / 1024, by have h : (y 0).val < 4096 := (y 0).isLt; omega⟩
    (ValueIdx.ix2 (⟨(y 0).val % 1024, by omega⟩ : Fin 1024) (⟨(y 1).val, (y 1).isLt⟩ : Fin 256))
/-- The degree column whole. -/
def Dfull (c : Dev nD) : Vec F S4096x1 .f32 := fun y =>
  DB m c ⟨(y 0).val / 1024, by have h : (y 0).val < 4096 := (y 0).isLt; omega⟩
    (ValueIdx.ix2 (⟨(y 0).val % 1024, by omega⟩ : Fin 1024) (⟨(y 1).val, (y 1).isLt⟩ : Fin 1))

/-! ## Layer 1 -/

/-- z of layer 1: the hidden activations times the neighbour half. -/
def Z1 (c : Dev nD) : Vec F S4096x256 .bf16 := k0_pay4 (Hfull m c) (wb1 m c (pt 4 (by omega)))
/-- sx of layer 1: the hidden activations times the self half. -/
def SX1 (c : Dev nD) : Vec F S4096x256 .bf16 := k0_pay5 (Hfull m c) (wa1 m c (pt 4 (by omega)))
/-- The output block of layer 1 at row block `b`. -/
def Out1 (c : Dev nD) (b : Fin 4) : Vec F S1024x256 .f32 :=
  k0_pay7 (grid0.coords (pt (4 + b.val) (by omega))) (adjB m c (pt (4 + b.val) (by omega))) (Z1 m c)
    (dgBlk (Dfull m c) (grid0.coords (pt (4 + b.val) (by omega)))) (sxBlk (SX1 m c) (grid0.coords (pt (4 + b.val) (by omega))))

/-! ## Point by point -/

/-- What the body leaves in the output block at point `t`. -/
def OutAt (c : Dev nD) (t : Fin cfg0.N) : Vec F S1024x256 .f32 :=
  if h : t.val < 4 then Out0 m c ⟨t.val, h⟩
  else Out1 m c ⟨t.val - 4, by have := lt_of_lt_of_eq t.isLt N_0; omega⟩

/-- z after point `n`. -/
def Zat (c : Dev nD) (n : ℕ) : Vec F S4096x256 .bf16 := if n < 4 then Z0 m c else Z1 m c
/-- sx after point `n`. -/
def SXat (c : Dev nD) (n : ℕ) : Vec F S4096x256 .bf16 := if n < 4 then SX0 m c else SX1 m c

/-- After point `n` the rows stored so far (all of them from point 3 on) of the hidden activations and of the degree
    column are the named ones. -/
def Rows (c : Dev nD) (n : ℕ) (h : Vec F S4096x256 .bf16) (dg : Vec F S4096x1 .f32) : Prop :=
  (∀ y : S4096x256.Idx, (y 0).val < 1024 * (n + 1) → h y = Hfull m c y)
    ∧ (∀ y : S4096x1.Idx, (y 0).val < 1024 * (n + 1) → dg y = Dfull m c y)

/-- From point 3 on, that is all rows. -/
theorem Rows.eq_full {c : Dev nD} {n : ℕ} (hn : 3 ≤ n) {h : Vec F S4096x256 .bf16} {dg : Vec F S4096x1 .f32}
    (hr : Rows m c n h dg) : h = Hfull m c ∧ dg = Dfull m c :=
  ⟨funext fun y => hr.1 y (by have : (y 0).val < 4096 := (y 0).isLt; omega),
   funext fun y => hr.2 y (by have : (y 0).val < 4096 := (y 0).isLt; omega)⟩

end Cert.Kernel.Track

end
-- ==== Proof.K.RunD.lean ====
/-
  The body at a point of the second layer past its first row block (l = 1, i > 0): no branch is taken.  It reads the
  adjacency's row block, the neighbour projection z, and the point's 1024 rows of the degree column and of the self
  projection sx, and stores one output block: sx_blk + (a_blk · z) · (1 / deg_blk).  Every scratch buffer is left as found.
-/
import proofs.«148510_g32856499814675_cont_sun_m_926_20_alg».proof.Proof.K.Runs
import Idealize.ShloMosaic.Lib.Pipeline.Value

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

-- (the run's proof term is large)
set_option maxHeartbeats 1000000 in
/-- The output block's stores, as pieces, with the body's triple on whole memrefs: the inputs at their contents, the
    output buffer at anything, the four scratch buffers at contents `xs·` handed back untouched. -/
noncomputable def kernelRun0_D (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : ¬cond0_2 i) (hc3 : ¬cond0_3 i)
    (x0 : Vec F S1024x4096 .f32) (x1 : Vec F S4096x256 .bf16) (x2 x3 x4 x5 : Vec F S256x256 .bf16) (xs0 xs1 xs2 : Vec F S4096x256 .bf16) (xs3 : Vec F S4096x1 .f32) :
    { L6 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ owns (c : Thread nD τ) arg10 fullShare xs1 ∗ owns (c : Thread nD τ) arg11 fullShare xs2 ∗ owns (c : Thread nD τ) arg12 fullShare xs3) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_body_eq_skeleton]; unfold cc0__fused_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2; obtain rfl := harg12.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    iexists _; isplitr; · ipureintro; exact harg12.read_unread _
    iexact HS3

/-- The one piece covers the output block. -/
theorem cover0_D_6 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : ¬cond0_2 i) (hc3 : ¬cond0_3 i)
    (x0 : Vec F S1024x4096 .f32) (x1 : Vec F S4096x256 .bf16) (x2 x3 x4 x5 : Vec F S256x256 .bf16) (xs0 xs1 xs2 : Vec F S4096x256 .bf16) (xs3 : Vec F S4096x1 .f32) (y : S1024x256.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1 S1024x256.size (by sl_kernel_rfl) y

/-- What the case leaves in the output block, whatever the buffer held: the block's payload of the adjacency block, z,
    and the point's rows of the degree column and of sx. -/
theorem out0_D_eq {sg : RefSig} {κ : Kind} {sp : Space} (v : View sg κ sp S1024x256 .f32) (f : v.ty.Contents (Elt F))
    (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : ¬cond0_2 i) (hc3 : ¬cond0_3 i)
    (x0 : Vec F S1024x4096 .f32) (x1 : Vec F S4096x256 .bf16) (x2 x3 x4 x5 : Vec F S256x256 .bf16) (xs0 xs1 xs2 : Vec F S4096x256 .bf16) (xs3 : Vec F S4096x1 .f32) :
    v.read (Elt F) (v.writes (Elt F) f (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1)
      = k0_pay7 i x0 xs0 (View.ld xs3 (Rect.unit (s := S4096x1) (k0_off2 i) S1024x1.size (k0_off2_inb i)))
          (View.ld xs1 (Rect.unit (s := S4096x256) (k0_off3 i) S1024x256.size (k0_off3_inb i))) := by
  rw [View.read_writes_eq_canon _ _ _ (cover0_D_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3)]
  unfold kernelRun0_D
  dsimp only
  sl_unfold_words
  rw [View.canon_unit_zero hz2]
  simp only [View.readAt_eq_ld, harg2.read_unread, harg9.read_unread, harg10.read_unread, harg12.read_unread,
    View.ld_unit_zero (S := S1024x4096) hz2, View.ld_unit_zero (S := S4096x256) hz2]

end Cert.Kernel.Track

end
-- ==== Proof.K.RunA.lean ====
/-
  The body at the first point of the grid (layer 0, first row block), run on whole memrefs, and what each buffer it
  stores into reads afterwards: z and sx whole, the degree column and the hidden activations on the point's row block,
  the output block whole.
-/
import proofs.«148510_g32856499814675_cont_sun_m_926_20_alg».proof.Proof.K.State
import proofs.«148510_g32856499814675_cont_sun_m_926_20_alg».proof.Proof.K.RunD
import Idealize.ShloMosaic.Lib.WritesUnit

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 2000000 in
/-- The body at the first point (l = 0, i = 0): z and sx are computed from the input features and stored whole; the degree block and the hidden activations' block are stored over what the buffers held; the output block is stored whole. Pieces last first, with the body's triple on whole memrefs. -/
noncomputable def kernelRun0_A (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) :
    Σ' (L6 : List (View.Piece (Elt F) S1024x256 .f32)) (LS0 LS1 LS2 : List (View.Piece (Elt F) S4096x256 .bf16)), { LS3 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)
                ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__fused_body_eq_skeleton]; unfold cc0__fused_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg11.eq_unread hfs2; obtain rfl := harg12.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexact HS2
    iexact HS3

/-- The newest piece covers the output block. -/
theorem cover0_A_6 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1 S1024x256.size (by sl_kernel_rfl) y

/-- The one piece covers z. -/
theorem cover0_A_S0 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1 S4096x256.size (by sl_kernel_rfl) y

/-- The one piece covers sx. -/
theorem cover0_A_S1 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1 S4096x256.size (by sl_kernel_rfl) y

/-- The rows stored into the hidden activations start at row `k0_off4 i 0`, column 0. -/
theorem off4_rows (i : grid0.Coords) : k0_off4 i = ![k0_off4 i 0, 0] := funext fun a => by fin_cases a <;> rfl

/-- The rows stored into the degree column start at row `k0_off1 i 0`, column 0. -/
theorem off1_rows (i : grid0.Coords) : k0_off1 i = ![k0_off1 i 0, 0] := funext fun a => by fin_cases a <;> rfl

/-- A load of the degree block through the rectangle it was just stored through (the two offset chains are the same
    word) reads the stored payload. -/
theorem dg_readback (i : grid0.Coords) (hc2 : cond0_2 i) (v12 : View sig .tc .vmem S4096x1 .f32) (w : Vec F S1024x1 .f32) :
    v12.readCov [(⟨Rect.unit (s := S4096x1) (k0_off1 i) S1024x1.size (k0_off1_inb i hc2), w⟩ : View.Piece (Elt F) S4096x1 .f32)]
        (Rect.unit (s := S4096x1) (k0_off2 i) S1024x1.size (k0_off2_inb i)).toLoadRect = w :=
  View.readCov_cons_toLoadRect v12 (Rect.unit (s := S4096x1) (k0_off1 i) S1024x1.size (k0_off1_inb i hc2)) w []

/-- The output block's payload over the case's own loads is its payload over the inputs: the adjacency block is read
    whole; z is read back whole after its store; the degree block is read back through the rectangle it was just
    stored through; the point's rows of sx are read after sx was stored whole. -/
theorem pay7_A_eq (i : grid0.Coords) (hc2 : cond0_2 i) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole)
    (v9 v10 : View sig .tc .vmem S4096x256 .bf16) (v12 : View sig .tc .vmem S4096x1 .f32)
    (x0 : Vec F S1024x4096 .f32) (x1 : Vec F S4096x256 .bf16) (x2 x3 : Vec F S256x256 .bf16) :
    k0_pay7 i (View.readAt (Elt F) arg2.view (Rect.unit (s := S1024x4096) ![0, 0] S1024x4096.size inb_S1024x4096_S1024x4096_0_0).toLoadRect (harg2.unread x0))
        (v9.readCov [(⟨(Rect.unit (s := S4096x256) ![0, 0] S4096x256.size inb_S4096x256_S4096x256_0_0), k0_pay2 (View.readAt (Elt F) arg3.view (Rect.unit (s := S4096x256) ![0, 0] S4096x256.size inb_S4096x256_S4096x256_0_0).toLoadRect (harg3.unread x1)) (View.readAt (Elt F) arg5.view (Rect.unit (s := S256x256) ![0, 0] S256x256.size inb_S256x256_S256x256_0_0).toLoadRect (harg5.unread x3))⟩ : View.Piece (Elt F) S4096x256 .bf16)] (Rect.unit (s := S4096x256) ![0, 0] S4096x256.size inb_S4096x256_S4096x256_0_0).toLoadRect)
        (v12.readCov [(⟨Rect.unit (s := S4096x1) (k0_off1 i) S1024x1.size (k0_off1_inb i hc2), k0_pay6 (View.readAt (Elt F) arg2.view (Rect.unit (s := S1024x4096) ![0, 0] S1024x4096.size inb_S1024x4096_S1024x4096_0_0).toLoadRect (harg2.unread x0))⟩ : View.Piece (Elt F) S4096x1 .f32)]
          (Rect.unit (s := S4096x1) (k0_off2 i) S1024x1.size (k0_off2_inb i)).toLoadRect)
        (View.readAt (Elt F) v10 (Rect.unit (s := S4096x256) (k0_off3 i) S1024x256.size (k0_off3_inb i)).toLoadRect
          (v10.writes (Elt F) v10.junk [(⟨(Rect.unit (s := S4096x256) ![0, 0] S4096x256.size inb_S4096x256_S4096x256_0_0), k0_pay3 (View.readAt (Elt F) arg3.view (Rect.unit (s := S4096x256) ![0, 0] S4096x256.size inb_S4096x256_S4096x256_0_0).toLoadRect (harg3.unread x1)) (View.readAt (Elt F) arg4.view (Rect.unit (s := S256x256) ![0, 0] S256x256.size inb_S256x256_S256x256_0_0).toLoadRect (harg4.unread x2))⟩ : View.Piece (Elt F) S4096x256 .bf16)]))
      = k0_pay7 i x0 (k0_pay2 x1 x3) (k0_pay6 x0) (sxBlk (k0_pay3 x1 x2) i) := by
  rw [View.readCov_unit_zero (S := S4096x256) _ hz2, dg_readback i hc2]
  simp only [View.readAt_eq_ld, harg2.read_unread, harg3.read_unread, harg4.read_unread, harg5.read_unread,
    View.ld_unit_zero (S := S1024x4096) hz2, View.ld_unit_zero (S := S4096x256) hz2, View.ld_unit_zero (S := S256x256) hz2,
    View.read_writes_junk_eq_canon, View.canon_unit_zero (S := S4096x256) hz2]

/-- The output block after the case, whatever the buffer held. -/
theorem out0_A_eq {sg : RefSig} {κ : Kind} {sp : Space} (v : View sg κ sp S1024x256 .f32) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1) = k0_pay7 i x0 (k0_pay2 x1 x3) (k0_pay6 x0) (sxBlk (k0_pay3 x1 x2) i) := by
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  unfold kernelRun0_A
  dsimp only
  sl_unfold_words
  rw [View.canon_unit_zero hz2]
  exact pay7_A_eq i hc2 arg2 harg2 arg3 harg3 arg4 harg4 arg5 harg5 arg9.view arg10.view arg12.view x0 x1 x2 x3

/-- z after the case: the projection by the neighbour half, whatever the buffer held. -/
theorem z_A_eq {sg : RefSig} {κ : Kind} {sp : Space} (v : View sg κ sp S4096x256 .bf16) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1) = k0_pay2 x1 x3 := by
  rw [View.read_writes_eq_canon _ _ _ (cover0_A_S0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  unfold kernelRun0_A
  dsimp only
  sl_unfold_words
  rw [View.canon_unit_zero hz2]
  simp only [View.readAt_eq_ld, harg2.read_unread, harg3.read_unread, harg4.read_unread, harg5.read_unread,
    View.ld_unit_zero (S := S1024x4096) hz2, View.ld_unit_zero (S := S4096x256) hz2, View.ld_unit_zero (S := S256x256) hz2]

/-- sx after the case: the projection by the self half, whatever the buffer held. -/
theorem sx_A_eq {sg : RefSig} {κ : Kind} {sp : Space} (v : View sg κ sp S4096x256 .bf16) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1) = k0_pay3 x1 x2 := by
  rw [View.read_writes_eq_canon _ _ _ (cover0_A_S1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  unfold kernelRun0_A
  dsimp only
  sl_unfold_words
  rw [View.canon_unit_zero hz2]
  simp only [View.readAt_eq_ld, harg2.read_unread, harg3.read_unread, harg4.read_unread, harg5.read_unread,
    View.ld_unit_zero (S := S1024x4096) hz2, View.ld_unit_zero (S := S4096x256) hz2, View.ld_unit_zero (S := S256x256) hz2]

/-- Inside the point's row block the hidden activations read the narrowed output block; -/
theorem h0_A_in (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx) (p : Fin 1024) (q : Fin 256)
    (hy0 : (y 0).val = k0_off4 i 0 + p.val) (hy1 : (y 1).val = q.val) :
    arg11.view.read (Elt F) (arg11.view.writes (Elt F) (harg11.unread xs2) (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.2.1) y
      = k0_pay1 (k0_pay7 i x0 (k0_pay2 x1 x3) (k0_pay6 x0) (sxBlk (k0_pay3 x1 x2) i)) (ValueIdx.ix2 p q) := by
  unfold kernelRun0_A
  dsimp only
  sl_unfold_words
  refine Eq.trans (View.read_writes_cons_rows_of_mem arg11.view _ _ _ [] y (ValueIdx.ix2 p q) (off4_rows i) hy0 hy1) ?_
  exact congrFun (congrArg k0_pay1 (pay7_A_eq i hc2 arg2 harg2 arg3 harg3 arg4 harg4 arg5 harg5 arg9.view arg10.view arg12.view x0 x1 x2 x3)) _

/-- outside it, what the buffer held. -/
theorem h0_A_out (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx)
    (hy : (y 0).val < k0_off4 i 0 ∨ k0_off4 i 0 + 1024 ≤ (y 0).val) :
    arg11.view.read (Elt F) (arg11.view.writes (Elt F) (harg11.unread xs2) (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.2.1) y = xs2 y := by
  unfold kernelRun0_A
  dsimp only
  sl_unfold_words
  refine Eq.trans (View.read_writes_cons_rows_of_not_mem arg11.view _ _ _ [] y (off4_rows i) rfl hy) ?_
  rw [View.writes_nil, harg11.read_unread]

/-- Inside the point's row block the degree column reads the block's row sums plus one; -/
theorem dg0_A_in (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x1.Idx) (p : Fin 1024) (q : Fin 1)
    (hy0 : (y 0).val = k0_off1 i 0 + p.val) (hy1 : (y 1).val = q.val) :
    arg12.view.read (Elt F) (arg12.view.writes (Elt F) (harg12.unread xs3) (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.2.2.1) y
      = k0_pay6 x0 (ValueIdx.ix2 p q) := by
  unfold kernelRun0_A
  dsimp only
  sl_unfold_words
  refine Eq.trans (View.read_writes_cons_rows_of_mem arg12.view _ _ _ [] y (ValueIdx.ix2 p q) (off1_rows i) hy0 hy1) ?_
  simp only [View.readAt_eq_ld, harg2.read_unread, harg3.read_unread, harg4.read_unread, harg5.read_unread,
    View.ld_unit_zero (S := S1024x4096) hz2, View.ld_unit_zero (S := S4096x256) hz2, View.ld_unit_zero (S := S256x256) hz2]

/-- outside it, what the buffer held. -/
theorem dg0_A_out (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x1.Idx)
    (hy : (y 0).val < k0_off1 i 0 ∨ k0_off1 i 0 + 1024 ≤ (y 0).val) :
    arg12.view.read (Elt F) (arg12.view.writes (Elt F) (harg12.unread xs3) (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.2.2.1) y = xs3 y := by
  unfold kernelRun0_A
  dsimp only
  sl_unfold_words
  refine Eq.trans (View.read_writes_cons_rows_of_not_mem arg12.view _ _ _ [] y (off1_rows i) rfl hy) ?_
  rw [View.writes_nil, harg12.read_unread]

end Cert.Kernel.Track

end
-- ==== Proof.K.RunB.lean ====
/-
  The body at the later points of layer 0 (row blocks 1 to 3), run on whole memrefs, and what each buffer it stores
  into reads afterwards: the degree column and the hidden activations on the point's row block, the output block whole.
-/
import proofs.«148510_g32856499814675_cont_sun_m_926_20_alg».proof.Proof.K.State
import proofs.«148510_g32856499814675_cont_sun_m_926_20_alg».proof.Proof.K.RunD
import Idealize.ShloMosaic.Lib.WritesUnit

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 2000000 in
/-- The body at a later point of layer 0 (l = 0, i > 0): z and sx are read as found; the degree block and the hidden activations' block are stored over what the buffers held; the output block is stored whole. -/
noncomputable def kernelRun0_B (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) :
    Σ' (L6 : List (View.Piece (Elt F) S1024x256 .f32)) (LS2 : List (View.Piece (Elt F) S4096x256 .bf16)), { LS3 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ owns (c : Thread nD τ) arg9 fullShare xs0 ∗ owns (c : Thread nD τ) arg10 fullShare xs1
                ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2; obtain rfl := harg12.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    isplitl [HS2]; · iexact HS2
    iexact HS3

/-- The one piece covers the output block. -/
theorem cover0_B_6 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1 S1024x256.size (by sl_kernel_rfl) y

/-- The point's rows of the degree column, loaded right after they were stored, read what was stored: the load's
    rectangle is the store's. -/
theorem dgRead0_B {sg : RefSig} {κ : Kind} {sp : Space} (v : View sg κ sp S4096x1 .f32) (i : grid0.Coords)
    (h3 : k0_cond3 i = 1#1) (w : FVec F S1024x1 .f32) :
    v.readCov [(⟨Rect.unit (s := S4096x1) (k0_off1 i) S1024x1.size (k0_off1_inb i h3), w⟩ : View.Piece (Elt F) S4096x1 .f32)]
        (Rect.unit (s := S4096x1) (k0_off2 i) S1024x1.size (k0_off2_inb i)).toLoadRect = w :=
  View.readCov_cons_toLoadRect (Val := Elt F) (e := .f32) v (Rect.unit (s := S4096x1) (k0_off1 i) S1024x1.size (k0_off1_inb i h3)) w []

/-- The row offsets of the hidden activations' block, and of the degree column's, are a row and column zero. -/
theorem k0_off4_rows (i : grid0.Coords) : k0_off4 i = ![k0_off4 i 0, 0] := funext fun a => by fin_cases a <;> rfl
theorem k0_off1_rows (i : grid0.Coords) : k0_off1 i = ![k0_off1 i 0, 0] := funext fun a => by fin_cases a <;> rfl

/-- The output block after the case, whatever the buffer held. -/
theorem out0_B_eq {sg : RefSig} {κ : Kind} {sp : Space} (v : View sg κ sp S1024x256 .f32) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) :
    v.read (Elt F) (v.writes (Elt F) f (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1) = k0_pay7 i x0 xs0 (k0_pay6 x0) (sxBlk xs1 i) := by
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3)]
  unfold kernelRun0_B
  dsimp only
  sl_unfold_words
  rw [View.canon_unit_zero hz2]
  simp only [View.readAt_eq_ld, harg2.read_unread, harg9.read_unread, harg10.read_unread,
    View.ld_unit_zero (S := S1024x4096) hz2, View.ld_unit_zero (S := S4096x256) hz2]
  exact congrArg (fun d => k0_pay7 i x0 xs0 d (sxBlk xs1 i)) (dgRead0_B arg12.view i hc2 (k0_pay6 x0))

/-- Inside the point's row block the hidden activations read the narrowed output block; -/
theorem h0_B_in (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) (y : S4096x256.Idx) (p : Fin 1024) (q : Fin 256)
    (hy0 : (y 0).val = k0_off4 i 0 + p.val) (hy1 : (y 1).val = q.val) :
    arg11.view.read (Elt F) (arg11.view.writes (Elt F) (harg11.unread xs2) (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).2.1) y
      = k0_pay1 (k0_pay7 i x0 xs0 (k0_pay6 x0) (sxBlk xs1 i)) (ValueIdx.ix2 p q) := by
  unfold kernelRun0_B
  dsimp only
  sl_unfold_words
  refine (View.read_writes_cons_rows_of_mem arg11.view (harg11.unread xs2) _ _ [] y (ValueIdx.ix2 p q) (o := k0_off4 i 0)
    (k0_off4_rows i) hy0 hy1).trans ?_
  simp only [View.readAt_eq_ld, harg2.read_unread, harg9.read_unread, harg10.read_unread,
    View.ld_unit_zero (S := S1024x4096) hz2, View.ld_unit_zero (S := S4096x256) hz2]
  exact congrArg (fun d => k0_pay1 (k0_pay7 i x0 xs0 d (sxBlk xs1 i)) (ValueIdx.ix2 p q)) (dgRead0_B arg12.view i hc2 (k0_pay6 x0))

/-- outside it, what the buffer held. -/
theorem h0_B_out (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) (y : S4096x256.Idx)
    (hy : (y 0).val < k0_off4 i 0 ∨ k0_off4 i 0 + 1024 ≤ (y 0).val) :
    arg11.view.read (Elt F) (arg11.view.writes (Elt F) (harg11.unread xs2) (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).2.1) y = xs2 y := by
  unfold kernelRun0_B
  dsimp only
  sl_unfold_words
  refine (View.read_writes_cons_rows_of_not_mem arg11.view (harg11.unread xs2) _ _ [] y (o := k0_off4 i 0) (W := 1024)
    (k0_off4_rows i) rfl hy).trans ?_
  rw [View.writes_nil]
  exact congrFun (harg11.read_unread xs2) y

/-- Inside the point's row block the degree column reads the block's row sums plus one; -/
theorem dg0_B_in (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) (y : S4096x1.Idx) (p : Fin 1024) (q : Fin 1)
    (hy0 : (y 0).val = k0_off1 i 0 + p.val) (hy1 : (y 1).val = q.val) :
    arg12.view.read (Elt F) (arg12.view.writes (Elt F) (harg12.unread xs3) (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).2.2.1) y
      = k0_pay6 x0 (ValueIdx.ix2 p q) := by
  unfold kernelRun0_B
  dsimp only
  sl_unfold_words
  refine (View.read_writes_cons_rows_of_mem arg12.view (harg12.unread xs3) _ _ [] y (ValueIdx.ix2 p q) (o := k0_off1 i 0)
    (k0_off1_rows i) hy0 hy1).trans ?_
  simp only [View.readAt_eq_ld, harg2.read_unread, harg9.read_unread, harg10.read_unread,
    View.ld_unit_zero (S := S1024x4096) hz2, View.ld_unit_zero (S := S4096x256) hz2]

/-- outside it, what the buffer held. -/
theorem dg0_B_out (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) (y : S4096x1.Idx)
    (hy : (y 0).val < k0_off1 i 0 ∨ k0_off1 i 0 + 1024 ≤ (y 0).val) :
    arg12.view.read (Elt F) (arg12.view.writes (Elt F) (harg12.unread xs3) (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).2.2.1) y = xs3 y := by
  unfold kernelRun0_B
  dsimp only
  sl_unfold_words
  refine (View.read_writes_cons_rows_of_not_mem arg12.view (harg12.unread xs3) _ _ [] y (o := k0_off1 i 0) (W := 1024)
    (k0_off1_rows i) rfl hy).trans ?_
  rw [View.writes_nil]
  exact congrFun (harg12.read_unread xs3) y

end Cert.Kernel.Track

end
-- ==== Proof.K.RunC.lean ====
/-
  The body at the first point of layer 1, run on whole memrefs, and what each buffer it stores into reads afterwards:
  z and sx whole (the projections of the hidden activations), the output block whole.
-/
import proofs.«148510_g32856499814675_cont_sun_m_926_20_alg».proof.Proof.K.State
import proofs.«148510_g32856499814675_cont_sun_m_926_20_alg».proof.Proof.K.RunD
import Idealize.ShloMosaic.Lib.WritesUnit

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 2000000 in
/-- The body at the first point of layer 1 (l = 1, i = 0): z and sx are computed from the whole hidden activations and stored whole; the degree column and the hidden activations are read as found; the output block is stored whole. -/
noncomputable def kernelRun0_C (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) :
    Σ' (L6 : List (View.Piece (Elt F) S1024x256 .f32)) (LS0 : List (View.Piece (Elt F) S4096x256 .bf16)), { LS1 : List (View.Piece (Elt F) S4096x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)
                ∗ owns (c : Thread nD τ) arg11 fullShare xs2 ∗ owns (c : Thread nD τ) arg12 fullShare xs3) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg11.eq_unread hfs2; obtain rfl := harg12.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]
    · iexists _; isplitr; · ipureintro; exact harg11.read_unread _
      iexact HS2
    iexists _; isplitr; · ipureintro; exact harg12.read_unread _
    iexact HS3

/-- The one piece covers the output block. -/
theorem cover0_C_6 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1 S1024x256.size (by sl_kernel_rfl) y

/-- The one piece covers z. -/
theorem cover0_C_S0 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1 S4096x256.size (by sl_kernel_rfl) y

/-- The one piece covers sx. -/
theorem cover0_C_S1 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1 S4096x256.size (by sl_kernel_rfl) y

/-- The output block after the case, whatever the buffer held. -/
theorem out0_C_eq {sg : RefSig} {κ : Kind} {sp : Space} (v : View sg κ sp S1024x256 .f32) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1) = k0_pay7 i x0 (k0_pay4 xs2 x5) (dgBlk xs3 i) (sxBlk (k0_pay5 xs2 x4) i) := by
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  show _ = k0_pay7 i x0 (k0_pay4 xs2 x5)
      (View.ld xs3 (Rect.unit (s := S4096x1) (k0_off2 i) S1024x1.size (k0_off2_inb i)))
      (View.ld (k0_pay5 xs2 x4) (Rect.unit (s := S4096x256) (k0_off3 i) S1024x256.size (k0_off3_inb i)))
  unfold kernelRun0_C
  dsimp only
  sl_unfold_words
  rw [View.canon_unit_zero hz2, View.readCov_unit_zero (S := S4096x256) _ hz2]
  simp only [View.readAt_eq_ld, harg2.read_unread, harg6.read_unread, harg7.read_unread, harg11.read_unread,
    harg12.read_unread, View.read_writes_junk_eq_canon, View.canon_unit_zero (S := S4096x256) hz2,
    View.ld_unit_zero (S := S1024x4096) hz2, View.ld_unit_zero (S := S4096x256) hz2,
    View.ld_unit_zero (S := S256x256) hz2]

/-- z after the case: the projection by the neighbour half, whatever the buffer held. -/
theorem z_C_eq {sg : RefSig} {κ : Kind} {sp : Space} (v : View sg κ sp S4096x256 .bf16) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1) = k0_pay4 xs2 x5 := by
  rw [View.read_writes_eq_canon _ _ _ (cover0_C_S0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  unfold kernelRun0_C
  dsimp only
  sl_unfold_words
  rw [View.canon_unit_zero hz2]
  simp only [View.readAt_eq_ld, harg7.read_unread, harg11.read_unread,
    View.ld_unit_zero (S := S4096x256) hz2, View.ld_unit_zero (S := S256x256) hz2]

/-- sx after the case: the projection by the self half, whatever the buffer held. -/
theorem sx_C_eq {sg : RefSig} {κ : Kind} {sp : Space} (v : View sg κ sp S4096x256 .bf16) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1) = k0_pay5 xs2 x4 := by
  rw [View.read_writes_eq_canon _ _ _ (cover0_C_S1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  unfold kernelRun0_C
  dsimp only
  sl_unfold_words
  rw [View.canon_unit_zero hz2]
  simp only [View.readAt_eq_ld, harg6.read_unread, harg11.read_unread,
    View.ld_unit_zero (S := S4096x256) hz2, View.ld_unit_zero (S := S256x256) hz2]

end Cert.Kernel.Track

end
-- ==== Proof.K.RowsStep.lean ====
/-
  One more row block.  At a point t of layer 0 the body stores rows [1024 t, 1024 t + 1024) of the hidden activations
  and of the degree column and leaves the other rows as they were; so if the rows below 1024 t held the named contents
  before, the rows below 1024 (t + 1) hold them after.  Also: the row offsets the body computes at a point, in closed form,
  and the output block's term at the points of each layer.
-/
import proofs.«148510_g32856499814675_cont_sun_m_926_20_alg».proof.Proof.K.State

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The hidden activations' store at a point of layer 0 starts at row 1024 t. -/
theorem off4_eq : ∀ t : Fin cfg0.N, t.val < 4 → k0_off4 (grid0.coords t) 0 = 1024 * t.val :=
  (by decide +kernel : ∀ t : Fin grid0.N, t.val < 4 → k0_off4 (grid0.coords t) 0 = 1024 * t.val)
/-- The degree column's store at a point of layer 0 starts at row 1024 t. -/
theorem off1_eq : ∀ t : Fin cfg0.N, t.val < 4 → k0_off1 (grid0.coords t) 0 = 1024 * t.val :=
  (by decide +kernel : ∀ t : Fin grid0.N, t.val < 4 → k0_off1 (grid0.coords t) 0 = 1024 * t.val)

theorem Rows_step (c : Dev nD) (n : ℕ) (hn : n < 4) (h dg : Vec F S4096x256 .bf16) (h' : Vec F S4096x256 .bf16)
    (d d' : Vec F S4096x1 .f32)
    (hprev : n = 0 ∨ Rows m c (n - 1) h d)
    (hin : ∀ (y : S4096x256.Idx) (p : Fin 1024) (q : Fin 256), (y 0).val = 1024 * n + p.val → (y 1).val = q.val →
      h' y = HB m c ⟨n, hn⟩ (ValueIdx.ix2 p q))
    (hout : ∀ y : S4096x256.Idx, ((y 0).val < 1024 * n ∨ 1024 * n + 1024 ≤ (y 0).val) → h' y = h y)
    (din : ∀ (y : S4096x1.Idx) (p : Fin 1024) (q : Fin 1), (y 0).val = 1024 * n + p.val → (y 1).val = q.val →
      d' y = DB m c ⟨n, hn⟩ (ValueIdx.ix2 p q))
    (dout : ∀ y : S4096x1.Idx, ((y 0).val < 1024 * n ∨ 1024 * n + 1024 ≤ (y 0).val) → d' y = d y) :
    Rows m c n h' d' := by
  constructor
  · intro y hy
    by_cases hlo : 1024 * n ≤ (y 0).val
    · have hq : (y 1).val < 256 := (y 1).isLt
      rw [hin y ⟨(y 0).val - 1024 * n, by omega⟩ ⟨(y 1).val, hq⟩ (by simp only []; omega) rfl]
      unfold Hfull
      have e1 : (⟨(y 0).val / 1024, by have h : (y 0).val < 4096 := (y 0).isLt; omega⟩ : Fin 4) = ⟨n, hn⟩ := Fin.ext (by simp only []; omega)
      have e2 : (⟨(y 0).val % 1024, by omega⟩ : Fin 1024) = ⟨(y 0).val - 1024 * n, by omega⟩ := Fin.ext (by simp only []; omega)
      rw [e1, e2]
    · rcases hprev with h0 | hp
      · omega
      · rw [hout y (Or.inl (by omega))]
        exact hp.1 y (by omega)
  · intro y hy
    by_cases hlo : 1024 * n ≤ (y 0).val
    · have hq : (y 1).val < 1 := (y 1).isLt
      rw [din y ⟨(y 0).val - 1024 * n, by omega⟩ ⟨(y 1).val, hq⟩ (by simp only []; omega) rfl]
      unfold Dfull
      have e1 : (⟨(y 0).val / 1024, by have h : (y 0).val < 4096 := (y 0).isLt; omega⟩ : Fin 4) = ⟨n, hn⟩ := Fin.ext (by simp only []; omega)
      have e2 : (⟨(y 0).val % 1024, by omega⟩ : Fin 1024) = ⟨(y 0).val - 1024 * n, by omega⟩ := Fin.ext (by simp only []; omega)
      rw [e1, e2]
    · rcases hprev with h0 | hp
      · omega
      · rw [dout y (Or.inl (by omega))]
        exact hp.2 y (by omega)

/-- The output block's term at a point of layer 0. -/
theorem OutAt_lo (c : Dev nD) (t : Fin cfg0.N) (ht : t.val < 4) :
    OutAt m c t = k0_pay7 (grid0.coords t) (adjB m c t) (Z0 m c) (k0_pay6 (adjB m c t)) (sxBlk (SX0 m c) (grid0.coords t)) := by
  unfold OutAt; rw [dif_pos ht]; rfl

/-- The output block's term at a point of layer 1. -/
theorem OutAt_hi (c : Dev nD) (t : Fin cfg0.N) (ht : 4 ≤ t.val) :
    OutAt m c t = k0_pay7 (grid0.coords t) (adjB m c t) (Z1 m c) (dgBlk (Dfull m c) (grid0.coords t)) (sxBlk (SX1 m c) (grid0.coords t)) := by
  have hN : t.val < 8 := lt_of_lt_of_eq t.isLt N_0
  unfold OutAt; rw [dif_neg (by omega)]; unfold Out1
  have e : pt (4 + (t.val - 4)) (by omega) = t := Fin.ext (by simp only []; omega)
  simp only [e]

/-- Row block `n` of the hidden activations, as the narrowing of the layer-0 output block at point `t`. -/
theorem HB_eq (c : Dev nD) (t : Fin cfg0.N) (ht : t.val < 4) :
    HB m c ⟨t.val, ht⟩ = k0_pay1 (k0_pay7 (grid0.coords t) (adjB m c t) (Z0 m c) (k0_pay6 (adjB m c t)) (sxBlk (SX0 m c) (grid0.coords t))) := rfl

/-- Row block `n` of the degree column, as the row sums of the adjacency's block at point `t`. -/
theorem DB_eq (c : Dev nD) (t : Fin cfg0.N) (ht : t.val < 4) : DB m c ⟨t.val, ht⟩ = k0_pay6 (adjB m c t) := rfl

end Cert.Kernel.Track

end
-- ==== Proof.K.Body.lean ====
/-
  The tracked frame of the fused two-layer kernel.  The proof data name, at every point of the grid, what the body leaves
  in each staging buffer (an input's block again; the output block's term) and what the four scratch buffers hold between
  points: z and sx at the current layer's projections, the hidden activations and the degree column at their named rows
  as far as layer 0 has stored them.  The body obligation runs the point's control case on those contents; the region is
  entered with the scratch buffers at anything and left forgetting them.
-/
import proofs.«148510_g32856499814675_cont_sun_m_926_20_alg».proof.Proof.K.RunA
import proofs.«148510_g32856499814675_cont_sun_m_926_20_alg».proof.Proof.K.RunB
import proofs.«148510_g32856499814675_cont_sun_m_926_20_alg».proof.Proof.K.RunC
import proofs.«148510_g32856499814675_cont_sun_m_926_20_alg».proof.Proof.K.RunD
import proofs.«148510_g32856499814675_cont_sun_m_926_20_alg».proof.Proof.K.RowsStep

set_option maxRecDepth 16384

noncomputable section

namespace Cert.Kernel.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No window is ever idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-! ## The region invariant, point by point -/

/-- Before point 0 the scratch buffers hold anything; after point `n`, z and sx hold the current layer's projections and
    the hidden activations and the degree column hold their named rows as far as stored. -/
def PhiS (c : Dev nD) : (n : ℕ) → n ≤ cfg0.N → sProp 𝕄
  | 0, _ => Pipeline.ΦA spec0 c
  | n + 1, _ => iprop((∃ h dg, owns (c : Thread nD τ) scM0_0 fullShare (Zat m c n) ∗ owns (c : Thread nD τ) scM0_1 fullShare (SXat m c n)
      ∗ owns (c : Thread nD τ) scM0_2 fullShare h ∗ owns (c : Thread nD τ) scM0_3 fullShare dg ∗ ⌜Rows m c n h dg⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop((∃ h dg, owns (c : Thread nD τ) scM0_0 fullShare (Zat m c n) ∗ owns (c : Thread nD τ) scM0_1 fullShare (SXat m c n)
      ∗ owns (c : Thread nD τ) scM0_2 fullShare h ∗ owns (c : Thread nD τ) scM0_3 fullShare dg ∗ ⌜Rows m c n h dg⌝) ∗ (∃ r, prngReg c r)) := rfl

theorem PhiS_pos (c : Dev nD) (n : ℕ) (h : n ≤ cfg0.N) (hz : n ≠ 0) :
    PhiS m c n h = iprop((∃ h dg, owns (c : Thread nD τ) scM0_0 fullShare (Zat m c (n - 1)) ∗ owns (c : Thread nD τ) scM0_1 fullShare (SXat m c (n - 1))
      ∗ owns (c : Thread nD τ) scM0_2 fullShare h ∗ owns (c : Thread nD τ) scM0_3 fullShare dg ∗ ⌜Rows m c (n - 1) h dg⌝) ∗ (∃ r, prngReg c r)) := by
  cases n with
  | zero => exact absurd rfl hz
  | succ n => rfl

/-! ## The proof data -/

/-- The arrays as the region finds them; after the body each input's buffer at its block, the output's at the point's
    output term; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OutAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OutAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_6 (c : Dev nD) (t : Fin cfg0.N) :
    (dats m 0 c).leavesExact 6 t = owns (c : Thread nD τ) (ms0_6 t) fullShare (OutAt m c t) := by
  rw [show (dats m 0 c).leavesExact 6 t = owns (c : Thread nD τ) (ms0_6 t) fullShare ((dats m 0 c).after 6 t) from by
    unfold Dat.leavesExact; rw [liveAt0_6 t], after0_6]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' memrefs hold their blocks; the point's position selects the control case; the
    invariant hands the run the scratch buffers at the contents the point before left (at anything at the first point)
    and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6]
  have hN : t.val < 8 := lt_of_lt_of_eq t.isLt N_0
  by_cases h0 : t.val = 0
  · -- the first point: z and sx from the inputs, first row block of h and deg
    have hc0 : cond0_0 (grid0.coords t) := (hcond0_0 t).mpr h0
    have hc1 : ¬cond0_1 (grid0.coords t) := fun h => by have := (hcond0_1 t).mp h; omega
    have hc2 : cond0_2 (grid0.coords t) := (hcond0_2 t).mpr (by omega)
    have hc3 : cond0_3 (grid0.coords t) := (hcond0_3 t).mpr (by omega)
    have ht : t = pt 0 (by decide) := Fin.ext h0
    rw [PhiS_castSucc m c t, PhiS_zero m c _ _ h0, PhiA0_eq]
    iintro ⟨⟨⟨HS0, HS1, ⟨%d2, HS2⟩, ⟨%d3, HS3⟩⟩, Hg⟩, Ho, ⟨%e0, H0⟩, ⟨%e1, H1⟩, ⟨%e2, H2⟩, ⟨%e3, H3⟩, ⟨%e4, H4⟩, ⟨%e5, H5⟩, ⟨%e6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 hc2 hc3 (iblk m c 0 t) (iblk m c 1 t) (iblk m c 2 t) (iblk m c 3 t) (iblk m c 4 t) (iblk m c 5 t) d2 d3).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%f6, H6⟩, ⟨%f9, HS0⟩, ⟨%f10, HS1⟩, HS2, HS3⟩
    isplitl [HS0 HS1 HS2 HS3 Hg]
    · isplitl [HS0 HS1 HS2 HS3]
      · iexists _; iexists _
        isplitl [HS0]
        · unfold owns; iexists _; isplitr; swap
          · iexact HS0
          · ipureintro; rw [z_A_eq, h0]; subst ht; rfl
        isplitl [HS1]
        · unfold owns; iexists _; isplitr; swap
          · iexact HS1
          · ipureintro; rw [sx_A_eq, h0]; subst ht; rfl
        isplitl [HS2]
        · unfold owns; iexists _; isplitr; swap
          · iexact HS2
          · ipureintro; rfl
        isplitl [HS3]
        · unfold owns; iexists _; isplitr; swap
          · iexact HS3
          · ipureintro; rfl
        ipureintro
        rw [h0]
        refine Rows_step m c 0 (by omega) d2 d2 _ d3 _ (Or.inl rfl) ?_ ?_ ?_ ?_
        · intro y p q hy0 hy1
          rw [h0_A_in _ _ _ _ _ _ _ _ _ _ _ _ _ _ _ _ _ _ _ _ _ _ _ _ hc0 hc1 hc2 hc3 _ _ _ _ _ _ d2 d3 y p q (by rw [off4_eq t (by omega), h0]; exact hy0) hy1]
          subst ht; rfl
        · intro y hy
          exact h0_A_out _ _ _ _ _ _ _ _ _ _ _ _ _ _ _ _ _ _ _ _ _ _ _ _ hc0 hc1 hc2 hc3 _ _ _ _ _ _ d2 d3 y (by rw [off4_eq t (by omega), h0]; exact hy)
        · intro y p q hy0 hy1
          rw [dg0_A_in _ _ _ _ _ _ _ _ _ _ _ _ _ _ _ _ _ _ _ _ _ _ _ _ hc0 hc1 hc2 hc3 _ _ _ _ _ _ d2 d3 y p q (by rw [off1_eq t (by omega), h0]; exact hy0) hy1]
          subst ht; rfl
        · intro y hy
          exact dg0_A_out _ _ _ _ _ _ _ _ _ _ _ _ _ _ _ _ _ _ _ _ _ _ _ _ hc0 hc1 hc2 hc3 _ _ _ _ _ _ d2 d3 y (by rw [off1_eq t (by omega), h0]; exact hy)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap
    · iexact H6
    · ipureintro; rw [out0_A_eq, OutAt_lo m c t (by omega)]; subst ht; rfl
  · by_cases h4 : t.val < 4
    · -- a later point of layer 0: z and sx as found, one more row block of h and deg
      have hc0 : ¬cond0_0 (grid0.coords t) := fun h => h0 ((hcond0_0 t).mp h)
      have hc1 : ¬cond0_1 (grid0.coords t) := fun h => by have := (hcond0_1 t).mp h; omega
      have hc2 : cond0_2 (grid0.coords t) := (hcond0_2 t).mpr h4
      have hc3 : cond0_3 (grid0.coords t) := (hcond0_3 t).mpr h4
      have hz : Zat m c t.val = Z0 m c := by unfold Zat; rw [if_pos h4]
      have hz1 : Zat m c (t.val - 1) = Z0 m c := by unfold Zat; rw [if_pos (by omega)]
      have hs : SXat m c t.val = SX0 m c := by unfold SXat; rw [if_pos h4]
      have hs1 : SXat m c (t.val - 1) = SX0 m c := by unfold SXat; rw [if_pos (by omega)]
      rw [PhiS_castSucc m c t, PhiS_pos m c _ _ h0]
      simp only [hz, hz1, hs, hs1]
      iintro ⟨⟨⟨%h, %dg, HS0, HS1, HS2, HS3, %hR⟩, Hg⟩, Ho, ⟨%e0, H0⟩, ⟨%e1, H1⟩, ⟨%e2, H2⟩, ⟨%e3, H3⟩, ⟨%e4, H4⟩, ⟨%e5, H5⟩, ⟨%e6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 hc2 hc3 (iblk m c 0 t) (iblk m c 1 t) (iblk m c 2 t) (iblk m c 3 t) (iblk m c 4 t) (iblk m c 5 t) (Z0 m c) (SX0 m c) h dg).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%f6, H6⟩, HS0, HS1, HS2, HS3⟩
      isplitl [HS0 HS1 HS2 HS3 Hg]
      · isplitl [HS0 HS1 HS2 HS3]
        · iexists _; iexists _
          isplitl [HS0]; · iexact HS0
          isplitl [HS1]; · iexact HS1
          isplitl [HS2]
          · unfold owns; iexists _; isplitr; swap
            · iexact HS2
            · ipureintro; rfl
          isplitl [HS3]
          · unfold owns; iexists _; isplitr; swap
            · iexact HS3
            · ipureintro; rfl
          ipureintro
          refine Rows_step m c t.val h4 h h _ dg _ (Or.inr hR) ?_ ?_ ?_ ?_
          · intro y p q hy0 hy1
            rw [h0_B_in c (grid0.coords t) _ _ _ _ _ _ _ _ _ _ _ _ _ _ _ _ _ _ _ _ _ _ hc0 hc1 hc2 hc3 _ _ _ _ _ _ (Z0 m c) (SX0 m c) h dg y p q (by rw [off4_eq t h4]; exact hy0) hy1]
            rfl
          · intro y hy
            exact h0_B_out c (grid0.coords t) _ _ _ _ _ _ _ _ _ _ _ _ _ _ _ _ _ _ _ _ _ _ hc0 hc1 hc2 hc3 _ _ _ _ _ _ (Z0 m c) (SX0 m c) h dg y (by rw [off4_eq t h4]; exact hy)
          · intro y p q hy0 hy1
            rw [dg0_B_in c (grid0.coords t) _ _ _ _ _ _ _ _ _ _ _ _ _ _ _ _ _ _ _ _ _ _ hc0 hc1 hc2 hc3 _ _ _ _ _ _ (Z0 m c) (SX0 m c) h dg y p q (by rw [off1_eq t h4]; exact hy0) hy1]
            rfl
          · intro y hy
            exact dg0_B_out c (grid0.coords t) _ _ _ _ _ _ _ _ _ _ _ _ _ _ _ _ _ _ _ _ _ _ hc0 hc1 hc2 hc3 _ _ _ _ _ _ (Z0 m c) (SX0 m c) h dg y (by rw [off1_eq t h4]; exact hy)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr; swap
      · iexact H6
      · ipureintro; rw [out0_B_eq, OutAt_lo m c t h4]
    · by_cases h44 : t.val = 4
      · -- the first point of layer 1: z and sx from the whole hidden activations
        have hc0 : ¬cond0_0 (grid0.coords t) := fun h => h0 ((hcond0_0 t).mp h)
        have hc1 : cond0_1 (grid0.coords t) := (hcond0_1 t).mpr h44
        have hc2 : ¬cond0_2 (grid0.coords t) := fun h => h4 ((hcond0_2 t).mp h)
        have hc3 : ¬cond0_3 (grid0.coords t) := fun h => h4 ((hcond0_3 t).mp h)
        have ht : t = pt 4 (by decide) := Fin.ext h44
        have hz : Zat m c t.val = Z1 m c := by unfold Zat; rw [if_neg h4]
        have hz1 : Zat m c (t.val - 1) = Z0 m c := by unfold Zat; rw [if_pos (by omega)]
        have hs : SXat m c t.val = SX1 m c := by unfold SXat; rw [if_neg h4]
        have hs1 : SXat m c (t.val - 1) = SX0 m c := by unfold SXat; rw [if_pos (by omega)]
        rw [PhiS_castSucc m c t, PhiS_pos m c _ _ h0]
        simp only [hz, hz1, hs, hs1]
        iintro ⟨⟨⟨%h, %dg, HS0, HS1, HS2, HS3, %hR⟩, Hg⟩, Ho, ⟨%e0, H0⟩, ⟨%e1, H1⟩, ⟨%e2, H2⟩, ⟨%e3, H3⟩, ⟨%e4, H4⟩, ⟨%e5, H5⟩, ⟨%e6, H6⟩⟩
        obtain ⟨rfl, rfl⟩ := Rows.eq_full m (show 3 ≤ t.val - 1 by omega) hR
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 hc2 hc3 (iblk m c 0 t) (iblk m c 1 t) (iblk m c 2 t) (iblk m c 3 t) (iblk m c 4 t) (iblk m c 5 t) (Hfull m c) (Dfull m c)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        isplitl [HS1]; · iexists _; iexact HS1
        isplitl [HS2]; · iexact HS2
        isplitl [HS3]; · iexact HS3
        iintro ⟨H0, H1, H2, H3, H4, H5, ⟨%f6, H6⟩, ⟨%f9, HS0⟩, ⟨%f10, HS1⟩, HS2, HS3⟩
        isplitl [HS0 HS1 HS2 HS3 Hg]
        · isplitl [HS0 HS1 HS2 HS3]
          · iexists _; iexists _
            isplitl [HS0]
            · unfold owns; iexists _; isplitr; swap
              · iexact HS0
              · ipureintro; rw [z_C_eq]; subst ht; rfl
            isplitl [HS1]
            · unfold owns; iexists _; isplitr; swap
              · iexact HS1
              · ipureintro; rw [sx_C_eq]; subst ht; rfl
            isplitl [HS2]; · iexact HS2
            isplitl [HS3]; · iexact HS3
            ipureintro
            exact ⟨fun y _ => rfl, fun y _ => rfl⟩
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr; swap
        · iexact H6
        · ipureintro; rw [out0_C_eq, OutAt_hi m c t (by omega)]; subst ht; rfl
      · -- a later point of layer 1: every scratch buffer as found
        have hc0 : ¬cond0_0 (grid0.coords t) := fun h => h0 ((hcond0_0 t).mp h)
        have hc1 : ¬cond0_1 (grid0.coords t) := fun h => h44 ((hcond0_1 t).mp h)
        have hc2 : ¬cond0_2 (grid0.coords t) := fun h => h4 ((hcond0_2 t).mp h)
        have hc3 : ¬cond0_3 (grid0.coords t) := fun h => h4 ((hcond0_3 t).mp h)
        have hz : Zat m c t.val = Z1 m c := by unfold Zat; rw [if_neg h4]
        have hz1 : Zat m c (t.val - 1) = Z1 m c := by unfold Zat; rw [if_neg (by omega)]
        have hs : SXat m c t.val = SX1 m c := by unfold SXat; rw [if_neg h4]
        have hs1 : SXat m c (t.val - 1) = SX1 m c := by unfold SXat; rw [if_neg (by omega)]
        rw [PhiS_castSucc m c t, PhiS_pos m c _ _ h0]
        simp only [hz, hz1, hs, hs1]
        iintro ⟨⟨⟨%h, %dg, HS0, HS1, HS2, HS3, %hR⟩, Hg⟩, Ho, ⟨%e0, H0⟩, ⟨%e1, H1⟩, ⟨%e2, H2⟩, ⟨%e3, H3⟩, ⟨%e4, H4⟩, ⟨%e5, H5⟩, ⟨%e6, H6⟩⟩
        obtain ⟨rfl, rfl⟩ := Rows.eq_full m (show 3 ≤ t.val - 1 by omega) hR
        iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 hc2 hc3 (iblk m c 0 t) (iblk m c 1 t) (iblk m c 2 t) (iblk m c 3 t) (iblk m c 4 t) (iblk m c 5 t) (Z1 m c) (SX1 m c) (Hfull m c) (Dfull m c)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexact HS3
        iintro ⟨H0, H1, H2, H3, H4, H5, ⟨%f6, H6⟩, HS0, HS1, HS2, HS3⟩
        isplitl [HS0 HS1 HS2 HS3 Hg]
        · isplitl [HS0 HS1 HS2 HS3]
          · iexists _; iexists _
            isplitl [HS0]; · iexact HS0
            isplitl [HS1]; · iexact HS1
            isplitl [HS2]; · iexact HS2
            isplitl [HS3]; · iexact HS3
            ipureintro
            exact ⟨fun y _ => rfl, fun y _ => rfl⟩
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr; swap
        · iexact H6
        · ipureintro; rw [out0_D_eq, OutAt_hi m c t (by omega)]

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%h, %dg, HS0, HS1, HS2, HS3, -⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of @main terminates, with every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Track

end
-- ==== Proof.KI.Runs.lean ====
/-
  What the four control cases of the fused two-layer body share.  The body branches on the grid point (l, i) of the
  2 × 4 grid (point t = 4 l + i): the projections z = x · Wb and sx = x · Wa are recomputed at the first point of each
  layer (t = 0 from the inputs, t = 4 from the hidden activations), and the degree column and the hidden activations are
  stored, one block of 1024 rows per point, during layer 0 only (t < 4).  Here: the four branch conditions in closed form
  over the grid, the staging and scratch memrefs the pipeline calls the body with, and the region invariant opened into
  the four scratch buffers.
-/
import proofs.«148510_g32856499814675_cont_sun_m_926_20_alg».proof.Proof.Gen.KernelIdeal.Frame
import proofs.«148510_g32856499814675_cont_sun_m_926_20_alg».proof.Proof.Gen.KernelIdeal.Skeleton

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The first branch (layer 0, first row block): `l = 0 ∧ i = 0`, as the body's scalar chain. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The second branch (layer 1, first row block): `l = 1 ∧ i = 0`. -/
abbrev cond0_1 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- It holds at point 4 only. -/
theorem hcond0_1 : ∀ t : Fin cfg0.N, cond0_1 (grid0.coords t) ↔ t.val = 4 :=
  (by decide +kernel : ∀ t : Fin grid0.N, cond0_1 (grid0.coords t) ↔ t.val = 4)

/-- The third branch (the degree column's block is stored): `l = 0`. -/
abbrev cond0_2 (i : grid0.Coords) : Prop := k0_cond3 i = 1#1
/-- It holds at the points of layer 0. -/
theorem hcond0_2 : ∀ t : Fin cfg0.N, cond0_2 (grid0.coords t) ↔ t.val < 4 :=
  (by decide +kernel : ∀ t : Fin grid0.N, cond0_2 (grid0.coords t) ↔ t.val < 4)

/-- The fourth branch (the hidden activations' block is stored): `l = 0`. -/
abbrev cond0_3 (i : grid0.Coords) : Prop := k0_cond4 i = 1#1
/-- It holds at the points of layer 0. -/
theorem hcond0_3 : ∀ t : Fin cfg0.N, cond0_3 (grid0.coords t) ↔ t.val < 4 :=
  (by decide +kernel : ∀ t : Fin grid0.N, cond0_3 (grid0.coords t) ↔ t.val < 4)

/-! ## The memrefs the body is called with -/

abbrev ms0_0 (t : Fin cfg0.N) : Memref sig .tc .vmem S1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)

/-- The scratch operands: z (neighbour projection), sx (self projection), h (hidden activations), deg (degree column). -/
abbrev scM0_0 : Memref sig .tc .vmem S4096x256 .bf16 := Memref.whole cc0_scratch0
abbrev scM0_1 : Memref sig .tc .vmem S4096x256 .bf16 := Memref.whole cc0_scratch1
abbrev scM0_2 : Memref sig .tc .vmem S4096x256 .bf16 := Memref.whole cc0_scratch2
abbrev scM0_3 : Memref sig .tc .vmem S4096x1 .f32 := Memref.whole cc0_scratch3

/-- One staging buffer of the output window, through which its contents are stated. -/
abbrev VO0_6 : View sig .tc .vmem S1024x256 .f32 := (Memref.whole cc0_stg6_0 : Memref sig .tc .vmem S1024x256 .f32).view

/-- The region invariant of the class, with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Track

end
-- ==== Proof.KI.State.lean ====
/-
  What the scratch buffers and the output block hold, point by point, as terms over the arguments' blocks.

  Layer 0 (points t = 0 … 3, row block b = t): z and sx are the projections of the input features, computed at t = 0;
  the degree block is the row sums of the adjacency's row block plus one; the output block is
  max(sx_blk + (a_blk · z) · (1 / deg_blk), 0), and its narrowing is stored as row block b of the hidden activations.
  Layer 1 (points t = 4 … 7, row block b = t - 4): z and sx are the projections of the whole hidden activations,
  computed at t = 4; the degree block is read back; the output block is sx_blk + (a_blk · z) · (1 / deg_blk).
-/
import proofs.«148510_g32856499814675_cont_sun_m_926_20_alg».proof.Proof.KI.Runs
import Idealize.ShloMosaic.Lib.Pipeline.Value
import Idealize.ShloMosaic.Lib.ValueIdx

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Point `n` of the grid of eight. -/
abbrev pt (n : ℕ) (h : n < 8) : Fin cfg0.N := ⟨n, lt_of_lt_of_eq h N_0.symm⟩

/-! ## The arguments' blocks at a point, at their literal types -/

/-- The adjacency's row block. -/
abbrev adjB (c : Dev nD) (t : Fin cfg0.N) : Vec F S1024x4096 .f32 := iblk m c 0 t
/-- The input features, narrowed (the whole array at every point). -/
abbrev xin (c : Dev nD) (t : Fin cfg0.N) : Vec F S4096x256 .bf16 := iblk m c 1 t
/-- The four weight halves, transposed and narrowed: self and neighbour half of layer 0, then of layer 1. -/
abbrev wa0 (c : Dev nD) (t : Fin cfg0.N) : Vec F S256x256 .bf16 := iblk m c 2 t
abbrev wb0 (c : Dev nD) (t : Fin cfg0.N) : Vec F S256x256 .bf16 := iblk m c 3 t
abbrev wa1 (c : Dev nD) (t : Fin cfg0.N) : Vec F S256x256 .bf16 := iblk m c 4 t
abbrev wb1 (c : Dev nD) (t : Fin cfg0.N) : Vec F S256x256 .bf16 := iblk m c 5 t

/-- The point's 1024 rows of a 4096-row projection. -/
abbrev sxBlk (sx : Vec F S4096x256 .bf16) (i : grid0.Coords) : Vec F S1024x256 .bf16 :=
  View.ld sx (Rect.unit (s := S4096x256) (k0_off3 i) S1024x256.size (k0_off3_inb i))
/-- The point's 1024 rows of the degree column. -/
abbrev dgBlk (dg : Vec F S4096x1 .f32) (i : grid0.Coords) : Vec F S1024x1 .f32 :=
  View.ld dg (Rect.unit (s := S4096x1) (k0_off2 i) S1024x1.size (k0_off2_inb i))

/-! ## Layer 0 -/

/-- z of layer 0: the features times the neighbour half. -/
def Z0 (c : Dev nD) : Vec F S4096x256 .bf16 := k0_pay2 (xin m c (pt 0 (by omega))) (wb0 m c (pt 0 (by omega)))
/-- sx of layer 0: the features times the self half. -/
def SX0 (c : Dev nD) : Vec F S4096x256 .bf16 := k0_pay3 (xin m c (pt 0 (by omega))) (wa0 m c (pt 0 (by omega)))
/-- Row block `b` of the degree column: the row sums of the adjacency's block plus one. -/
def DB (c : Dev nD) (b : Fin 4) : Vec F S1024x1 .f32 := k0_pay6 (adjB m c (pt b.val (by omega)))
/-- The output block of layer 0 at row block `b`. -/
def Out0 (c : Dev nD) (b : Fin 4) : Vec F S1024x256 .f32 :=
  k0_pay7 (grid0.coords (pt b.val (by omega))) (adjB m c (pt b.val (by omega))) (Z0 m c) (DB m c b)
    (sxBlk (SX0 m c) (grid0.coords (pt b.val (by omega))))
/-- Row block `b` of the hidden activations. -/
def HB (c : Dev nD) (b : Fin 4) : Vec F S1024x256 .bf16 := k0_pay1 (Out0 m c b)

/-- The hidden activations whole: row `r` is row `r % 1024` of block `r / 1024`. -/
def Hfull (c : Dev nD) : Vec F S4096x256 .bf16 := fun y =>
  HB m c ⟨(y 0).val / 1024, by have h : (y 0).val < 4096 := (y 0).isLt; omega⟩
    (ValueIdx.ix2 (⟨(y 0).val % 1024, by omega⟩ : Fin 1024) (⟨(y 1).val, (y 1).isLt⟩ : Fin 256))
/-- The degree column whole. -/
def Dfull (c : Dev nD) : Vec F S4096x1 .f32 := fun y =>
  DB m c ⟨(y 0).val / 1024, by have h : (y 0).val < 4096 := (y 0).isLt; omega⟩
    (ValueIdx.ix2 (⟨(y 0).val % 1024, by omega⟩ : Fin 1024) (⟨(y 1).val, (y 1).isLt⟩ : Fin 1))

/-! ## Layer 1 -/

/-- z of layer 1: the hidden activations times the neighbour half. -/
def Z1 (c : Dev nD) : Vec F S4096x256 .bf16 := k0_pay4 (Hfull m c) (wb1 m c (pt 4 (by omega)))
/-- sx of layer 1: the hidden activations times the self half. -/
def SX1 (c : Dev nD) : Vec F S4096x256 .bf16 := k0_pay5 (Hfull m c) (wa1 m c (pt 4 (by omega)))
/-- The output block of layer 1 at row block `b`. -/
def Out1 (c : Dev nD) (b : Fin 4) : Vec F S1024x256 .f32 :=
  k0_pay7 (grid0.coords (pt (4 + b.val) (by omega))) (adjB m c (pt (4 + b.val) (by omega))) (Z1 m c)
    (dgBlk (Dfull m c) (grid0.coords (pt (4 + b.val) (by omega)))) (sxBlk (SX1 m c) (grid0.coords (pt (4 + b.val) (by omega))))

/-! ## Point by point -/

/-- What the body leaves in the output block at point `t`. -/
def OutAt (c : Dev nD) (t : Fin cfg0.N) : Vec F S1024x256 .f32 :=
  if h : t.val < 4 then Out0 m c ⟨t.val, h⟩
  else Out1 m c ⟨t.val - 4, by have := lt_of_lt_of_eq t.isLt N_0; omega⟩

/-- z after point `n`. -/
def Zat (c : Dev nD) (n : ℕ) : Vec F S4096x256 .bf16 := if n < 4 then Z0 m c else Z1 m c
/-- sx after point `n`. -/
def SXat (c : Dev nD) (n : ℕ) : Vec F S4096x256 .bf16 := if n < 4 then SX0 m c else SX1 m c

/-- After point `n` the rows stored so far (all of them from point 3 on) of the hidden activations and of the degree
    column are the named ones. -/
def Rows (c : Dev nD) (n : ℕ) (h : Vec F S4096x256 .bf16) (dg : Vec F S4096x1 .f32) : Prop :=
  (∀ y : S4096x256.Idx, (y 0).val < 1024 * (n + 1) → h y = Hfull m c y)
    ∧ (∀ y : S4096x1.Idx, (y 0).val < 1024 * (n + 1) → dg y = Dfull m c y)

/-- From point 3 on, that is all rows. -/
theorem Rows.eq_full {c : Dev nD} {n : ℕ} (hn : 3 ≤ n) {h : Vec F S4096x256 .bf16} {dg : Vec F S4096x1 .f32}
    (hr : Rows m c n h dg) : h = Hfull m c ∧ dg = Dfull m c :=
  ⟨funext fun y => hr.1 y (by have : (y 0).val < 4096 := (y 0).isLt; omega),
   funext fun y => hr.2 y (by have : (y 0).val < 4096 := (y 0).isLt; omega)⟩

end Cert.KernelIdeal.Track

end
-- ==== Proof.KI.RunD.lean ====
/-
  The body at a point of the second layer past its first row block (l = 1, i > 0): no branch is taken.  It reads the
  adjacency's row block, the neighbour projection z, and the point's 1024 rows of the degree column and of the self
  projection sx, and stores one output block: sx_blk + (a_blk · z) · (1 / deg_blk).  Every scratch buffer is left as found.
-/
import proofs.«148510_g32856499814675_cont_sun_m_926_20_alg».proof.Proof.KI.Runs
import Idealize.ShloMosaic.Lib.Pipeline.Value

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

-- (the run's proof term is large)
set_option maxHeartbeats 1000000 in
/-- The output block's stores, as pieces, with the body's triple on whole memrefs: the inputs at their contents, the
    output buffer at anything, the four scratch buffers at contents `xs·` handed back untouched. -/
noncomputable def kernelRun0_D (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : ¬cond0_2 i) (hc3 : ¬cond0_3 i)
    (x0 : Vec F S1024x4096 .f32) (x1 : Vec F S4096x256 .bf16) (x2 x3 x4 x5 : Vec F S256x256 .bf16) (xs0 xs1 xs2 : Vec F S4096x256 .bf16) (xs3 : Vec F S4096x1 .f32) :
    { L6 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ owns (c : Thread nD τ) arg10 fullShare xs1 ∗ owns (c : Thread nD τ) arg11 fullShare xs2 ∗ owns (c : Thread nD τ) arg12 fullShare xs3) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_body_eq_skeleton]; unfold cc0__fused_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2; obtain rfl := harg12.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    iexists _; isplitr; · ipureintro; exact harg12.read_unread _
    iexact HS3

/-- The one piece covers the output block. -/
theorem cover0_D_6 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : ¬cond0_2 i) (hc3 : ¬cond0_3 i)
    (x0 : Vec F S1024x4096 .f32) (x1 : Vec F S4096x256 .bf16) (x2 x3 x4 x5 : Vec F S256x256 .bf16) (xs0 xs1 xs2 : Vec F S4096x256 .bf16) (xs3 : Vec F S4096x1 .f32) (y : S1024x256.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1 S1024x256.size (by sl_kernel_rfl) y

/-- What the case leaves in the output block, whatever the buffer held: the block's payload of the adjacency block, z,
    and the point's rows of the degree column and of sx. -/
theorem out0_D_eq {sg : RefSig} {κ : Kind} {sp : Space} (v : View sg κ sp S1024x256 .f32) (f : v.ty.Contents (Elt F))
    (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : ¬cond0_2 i) (hc3 : ¬cond0_3 i)
    (x0 : Vec F S1024x4096 .f32) (x1 : Vec F S4096x256 .bf16) (x2 x3 x4 x5 : Vec F S256x256 .bf16) (xs0 xs1 xs2 : Vec F S4096x256 .bf16) (xs3 : Vec F S4096x1 .f32) :
    v.read (Elt F) (v.writes (Elt F) f (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1)
      = k0_pay7 i x0 xs0 (View.ld xs3 (Rect.unit (s := S4096x1) (k0_off2 i) S1024x1.size (k0_off2_inb i)))
          (View.ld xs1 (Rect.unit (s := S4096x256) (k0_off3 i) S1024x256.size (k0_off3_inb i))) := by
  rw [View.read_writes_eq_canon _ _ _ (cover0_D_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3)]
  unfold kernelRun0_D
  dsimp only
  sl_unfold_words
  rw [View.canon_unit_zero hz2]
  simp only [View.readAt_eq_ld, harg2.read_unread, harg9.read_unread, harg10.read_unread, harg12.read_unread,
    View.ld_unit_zero (S := S1024x4096) hz2, View.ld_unit_zero (S := S4096x256) hz2]

end Cert.KernelIdeal.Track

end
-- ==== Proof.KI.RunA.lean ====
/-
  The body at the first point of the grid (layer 0, first row block), run on whole memrefs, and what each buffer it
  stores into reads afterwards: z and sx whole, the degree column and the hidden activations on the point's row block,
  the output block whole.
-/
import proofs.«148510_g32856499814675_cont_sun_m_926_20_alg».proof.Proof.KI.State
import proofs.«148510_g32856499814675_cont_sun_m_926_20_alg».proof.Proof.KI.RunD
import Idealize.ShloMosaic.Lib.WritesUnit

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 2000000 in
/-- The body at the first point (l = 0, i = 0): z and sx are computed from the input features and stored whole; the degree block and the hidden activations' block are stored over what the buffers held; the output block is stored whole. Pieces last first, with the body's triple on whole memrefs. -/
noncomputable def kernelRun0_A (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) :
    Σ' (L6 : List (View.Piece (Elt F) S1024x256 .f32)) (LS0 LS1 LS2 : List (View.Piece (Elt F) S4096x256 .bf16)), { LS3 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)
                ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__fused_body_eq_skeleton]; unfold cc0__fused_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg11.eq_unread hfs2; obtain rfl := harg12.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexact HS2
    iexact HS3

/-- The newest piece covers the output block. -/
theorem cover0_A_6 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1 S1024x256.size (by sl_kernel_rfl) y

/-- The one piece covers z. -/
theorem cover0_A_S0 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1 S4096x256.size (by sl_kernel_rfl) y

/-- The one piece covers sx. -/
theorem cover0_A_S1 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1 S4096x256.size (by sl_kernel_rfl) y

/-- The rows stored into the hidden activations start at row `k0_off4 i 0`, column 0. -/
theorem off4_rows (i : grid0.Coords) : k0_off4 i = ![k0_off4 i 0, 0] := funext fun a => by fin_cases a <;> rfl

/-- The rows stored into the degree column start at row `k0_off1 i 0`, column 0. -/
theorem off1_rows (i : grid0.Coords) : k0_off1 i = ![k0_off1 i 0, 0] := funext fun a => by fin_cases a <;> rfl

/-- A load of the degree block through the rectangle it was just stored through (the two offset chains are the same
    word) reads the stored payload. -/
theorem dg_readback (i : grid0.Coords) (hc2 : cond0_2 i) (v12 : View sig .tc .vmem S4096x1 .f32) (w : Vec F S1024x1 .f32) :
    v12.readCov [(⟨Rect.unit (s := S4096x1) (k0_off1 i) S1024x1.size (k0_off1_inb i hc2), w⟩ : View.Piece (Elt F) S4096x1 .f32)]
        (Rect.unit (s := S4096x1) (k0_off2 i) S1024x1.size (k0_off2_inb i)).toLoadRect = w :=
  View.readCov_cons_toLoadRect v12 (Rect.unit (s := S4096x1) (k0_off1 i) S1024x1.size (k0_off1_inb i hc2)) w []

/-- The output block's payload over the case's own loads is its payload over the inputs: the adjacency block is read
    whole; z is read back whole after its store; the degree block is read back through the rectangle it was just
    stored through; the point's rows of sx are read after sx was stored whole. -/
theorem pay7_A_eq (i : grid0.Coords) (hc2 : cond0_2 i) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole)
    (v9 v10 : View sig .tc .vmem S4096x256 .bf16) (v12 : View sig .tc .vmem S4096x1 .f32)
    (x0 : Vec F S1024x4096 .f32) (x1 : Vec F S4096x256 .bf16) (x2 x3 : Vec F S256x256 .bf16) :
    k0_pay7 i (View.readAt (Elt F) arg2.view (Rect.unit (s := S1024x4096) ![0, 0] S1024x4096.size inb_S1024x4096_S1024x4096_0_0).toLoadRect (harg2.unread x0))
        (v9.readCov [(⟨(Rect.unit (s := S4096x256) ![0, 0] S4096x256.size inb_S4096x256_S4096x256_0_0), k0_pay2 (View.readAt (Elt F) arg3.view (Rect.unit (s := S4096x256) ![0, 0] S4096x256.size inb_S4096x256_S4096x256_0_0).toLoadRect (harg3.unread x1)) (View.readAt (Elt F) arg5.view (Rect.unit (s := S256x256) ![0, 0] S256x256.size inb_S256x256_S256x256_0_0).toLoadRect (harg5.unread x3))⟩ : View.Piece (Elt F) S4096x256 .bf16)] (Rect.unit (s := S4096x256) ![0, 0] S4096x256.size inb_S4096x256_S4096x256_0_0).toLoadRect)
        (v12.readCov [(⟨Rect.unit (s := S4096x1) (k0_off1 i) S1024x1.size (k0_off1_inb i hc2), k0_pay6 (View.readAt (Elt F) arg2.view (Rect.unit (s := S1024x4096) ![0, 0] S1024x4096.size inb_S1024x4096_S1024x4096_0_0).toLoadRect (harg2.unread x0))⟩ : View.Piece (Elt F) S4096x1 .f32)]
          (Rect.unit (s := S4096x1) (k0_off2 i) S1024x1.size (k0_off2_inb i)).toLoadRect)
        (View.readAt (Elt F) v10 (Rect.unit (s := S4096x256) (k0_off3 i) S1024x256.size (k0_off3_inb i)).toLoadRect
          (v10.writes (Elt F) v10.junk [(⟨(Rect.unit (s := S4096x256) ![0, 0] S4096x256.size inb_S4096x256_S4096x256_0_0), k0_pay3 (View.readAt (Elt F) arg3.view (Rect.unit (s := S4096x256) ![0, 0] S4096x256.size inb_S4096x256_S4096x256_0_0).toLoadRect (harg3.unread x1)) (View.readAt (Elt F) arg4.view (Rect.unit (s := S256x256) ![0, 0] S256x256.size inb_S256x256_S256x256_0_0).toLoadRect (harg4.unread x2))⟩ : View.Piece (Elt F) S4096x256 .bf16)]))
      = k0_pay7 i x0 (k0_pay2 x1 x3) (k0_pay6 x0) (sxBlk (k0_pay3 x1 x2) i) := by
  rw [View.readCov_unit_zero (S := S4096x256) _ hz2, dg_readback i hc2]
  simp only [View.readAt_eq_ld, harg2.read_unread, harg3.read_unread, harg4.read_unread, harg5.read_unread,
    View.ld_unit_zero (S := S1024x4096) hz2, View.ld_unit_zero (S := S4096x256) hz2, View.ld_unit_zero (S := S256x256) hz2,
    View.read_writes_junk_eq_canon, View.canon_unit_zero (S := S4096x256) hz2]

/-- The output block after the case, whatever the buffer held. -/
theorem out0_A_eq {sg : RefSig} {κ : Kind} {sp : Space} (v : View sg κ sp S1024x256 .f32) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1) = k0_pay7 i x0 (k0_pay2 x1 x3) (k0_pay6 x0) (sxBlk (k0_pay3 x1 x2) i) := by
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  unfold kernelRun0_A
  dsimp only
  sl_unfold_words
  rw [View.canon_unit_zero hz2]
  exact pay7_A_eq i hc2 arg2 harg2 arg3 harg3 arg4 harg4 arg5 harg5 arg9.view arg10.view arg12.view x0 x1 x2 x3

/-- z after the case: the projection by the neighbour half, whatever the buffer held. -/
theorem z_A_eq {sg : RefSig} {κ : Kind} {sp : Space} (v : View sg κ sp S4096x256 .bf16) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1) = k0_pay2 x1 x3 := by
  rw [View.read_writes_eq_canon _ _ _ (cover0_A_S0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  unfold kernelRun0_A
  dsimp only
  sl_unfold_words
  rw [View.canon_unit_zero hz2]
  simp only [View.readAt_eq_ld, harg2.read_unread, harg3.read_unread, harg4.read_unread, harg5.read_unread,
    View.ld_unit_zero (S := S1024x4096) hz2, View.ld_unit_zero (S := S4096x256) hz2, View.ld_unit_zero (S := S256x256) hz2]

/-- sx after the case: the projection by the self half, whatever the buffer held. -/
theorem sx_A_eq {sg : RefSig} {κ : Kind} {sp : Space} (v : View sg κ sp S4096x256 .bf16) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1) = k0_pay3 x1 x2 := by
  rw [View.read_writes_eq_canon _ _ _ (cover0_A_S1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  unfold kernelRun0_A
  dsimp only
  sl_unfold_words
  rw [View.canon_unit_zero hz2]
  simp only [View.readAt_eq_ld, harg2.read_unread, harg3.read_unread, harg4.read_unread, harg5.read_unread,
    View.ld_unit_zero (S := S1024x4096) hz2, View.ld_unit_zero (S := S4096x256) hz2, View.ld_unit_zero (S := S256x256) hz2]

/-- Inside the point's row block the hidden activations read the narrowed output block; -/
theorem h0_A_in (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx) (p : Fin 1024) (q : Fin 256)
    (hy0 : (y 0).val = k0_off4 i 0 + p.val) (hy1 : (y 1).val = q.val) :
    arg11.view.read (Elt F) (arg11.view.writes (Elt F) (harg11.unread xs2) (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.2.1) y
      = k0_pay1 (k0_pay7 i x0 (k0_pay2 x1 x3) (k0_pay6 x0) (sxBlk (k0_pay3 x1 x2) i)) (ValueIdx.ix2 p q) := by
  unfold kernelRun0_A
  dsimp only
  sl_unfold_words
  refine Eq.trans (View.read_writes_cons_rows_of_mem arg11.view _ _ _ [] y (ValueIdx.ix2 p q) (off4_rows i) hy0 hy1) ?_
  exact congrFun (congrArg k0_pay1 (pay7_A_eq i hc2 arg2 harg2 arg3 harg3 arg4 harg4 arg5 harg5 arg9.view arg10.view arg12.view x0 x1 x2 x3)) _

/-- outside it, what the buffer held. -/
theorem h0_A_out (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx)
    (hy : (y 0).val < k0_off4 i 0 ∨ k0_off4 i 0 + 1024 ≤ (y 0).val) :
    arg11.view.read (Elt F) (arg11.view.writes (Elt F) (harg11.unread xs2) (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.2.1) y = xs2 y := by
  unfold kernelRun0_A
  dsimp only
  sl_unfold_words
  refine Eq.trans (View.read_writes_cons_rows_of_not_mem arg11.view _ _ _ [] y (off4_rows i) rfl hy) ?_
  rw [View.writes_nil, harg11.read_unread]

/-- Inside the point's row block the degree column reads the block's row sums plus one; -/
theorem dg0_A_in (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x1.Idx) (p : Fin 1024) (q : Fin 1)
    (hy0 : (y 0).val = k0_off1 i 0 + p.val) (hy1 : (y 1).val = q.val) :
    arg12.view.read (Elt F) (arg12.view.writes (Elt F) (harg12.unread xs3) (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.2.2.1) y
      = k0_pay6 x0 (ValueIdx.ix2 p q) := by
  unfold kernelRun0_A
  dsimp only
  sl_unfold_words
  refine Eq.trans (View.read_writes_cons_rows_of_mem arg12.view _ _ _ [] y (ValueIdx.ix2 p q) (off1_rows i) hy0 hy1) ?_
  simp only [View.readAt_eq_ld, harg2.read_unread, harg3.read_unread, harg4.read_unread, harg5.read_unread,
    View.ld_unit_zero (S := S1024x4096) hz2, View.ld_unit_zero (S := S4096x256) hz2, View.ld_unit_zero (S := S256x256) hz2]

/-- outside it, what the buffer held. -/
theorem dg0_A_out (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x1.Idx)
    (hy : (y 0).val < k0_off1 i 0 ∨ k0_off1 i 0 + 1024 ≤ (y 0).val) :
    arg12.view.read (Elt F) (arg12.view.writes (Elt F) (harg12.unread xs3) (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.2.2.1) y = xs3 y := by
  unfold kernelRun0_A
  dsimp only
  sl_unfold_words
  refine Eq.trans (View.read_writes_cons_rows_of_not_mem arg12.view _ _ _ [] y (off1_rows i) rfl hy) ?_
  rw [View.writes_nil, harg12.read_unread]

end Cert.KernelIdeal.Track

end
-- ==== Proof.KI.RunB.lean ====
/-
  The body at the later points of layer 0 (row blocks 1 to 3), run on whole memrefs, and what each buffer it stores
  into reads afterwards: the degree column and the hidden activations on the point's row block, the output block whole.
-/
import proofs.«148510_g32856499814675_cont_sun_m_926_20_alg».proof.Proof.KI.State
import proofs.«148510_g32856499814675_cont_sun_m_926_20_alg».proof.Proof.KI.RunD
import Idealize.ShloMosaic.Lib.WritesUnit

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 2000000 in
/-- The body at a later point of layer 0 (l = 0, i > 0): z and sx are read as found; the degree block and the hidden activations' block are stored over what the buffers held; the output block is stored whole. -/
noncomputable def kernelRun0_B (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) :
    Σ' (L6 : List (View.Piece (Elt F) S1024x256 .f32)) (LS2 : List (View.Piece (Elt F) S4096x256 .bf16)), { LS3 : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ owns (c : Thread nD τ) arg9 fullShare xs0 ∗ owns (c : Thread nD τ) arg10 fullShare xs1
                ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2; obtain rfl := harg12.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    isplitl [HS2]; · iexact HS2
    iexact HS3

/-- The one piece covers the output block. -/
theorem cover0_B_6 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1 S1024x256.size (by sl_kernel_rfl) y

/-- The point's rows of the degree column, loaded right after they were stored, read what was stored: the load's
    rectangle is the store's. -/
theorem dgRead0_B {sg : RefSig} {κ : Kind} {sp : Space} (v : View sg κ sp S4096x1 .f32) (i : grid0.Coords)
    (h3 : k0_cond3 i = 1#1) (w : FVec F S1024x1 .f32) :
    v.readCov [(⟨Rect.unit (s := S4096x1) (k0_off1 i) S1024x1.size (k0_off1_inb i h3), w⟩ : View.Piece (Elt F) S4096x1 .f32)]
        (Rect.unit (s := S4096x1) (k0_off2 i) S1024x1.size (k0_off2_inb i)).toLoadRect = w :=
  View.readCov_cons_toLoadRect (Val := Elt F) (e := .f32) v (Rect.unit (s := S4096x1) (k0_off1 i) S1024x1.size (k0_off1_inb i h3)) w []

/-- The row offsets of the hidden activations' block, and of the degree column's, are a row and column zero. -/
theorem k0_off4_rows (i : grid0.Coords) : k0_off4 i = ![k0_off4 i 0, 0] := funext fun a => by fin_cases a <;> rfl
theorem k0_off1_rows (i : grid0.Coords) : k0_off1 i = ![k0_off1 i 0, 0] := funext fun a => by fin_cases a <;> rfl

/-- The output block after the case, whatever the buffer held. -/
theorem out0_B_eq {sg : RefSig} {κ : Kind} {sp : Space} (v : View sg κ sp S1024x256 .f32) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) :
    v.read (Elt F) (v.writes (Elt F) f (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).1) = k0_pay7 i x0 xs0 (k0_pay6 x0) (sxBlk xs1 i) := by
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3)]
  unfold kernelRun0_B
  dsimp only
  sl_unfold_words
  rw [View.canon_unit_zero hz2]
  simp only [View.readAt_eq_ld, harg2.read_unread, harg9.read_unread, harg10.read_unread,
    View.ld_unit_zero (S := S1024x4096) hz2, View.ld_unit_zero (S := S4096x256) hz2]
  exact congrArg (fun d => k0_pay7 i x0 xs0 d (sxBlk xs1 i)) (dgRead0_B arg12.view i hc2 (k0_pay6 x0))

/-- Inside the point's row block the hidden activations read the narrowed output block; -/
theorem h0_B_in (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) (y : S4096x256.Idx) (p : Fin 1024) (q : Fin 256)
    (hy0 : (y 0).val = k0_off4 i 0 + p.val) (hy1 : (y 1).val = q.val) :
    arg11.view.read (Elt F) (arg11.view.writes (Elt F) (harg11.unread xs2) (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).2.1) y
      = k0_pay1 (k0_pay7 i x0 xs0 (k0_pay6 x0) (sxBlk xs1 i)) (ValueIdx.ix2 p q) := by
  unfold kernelRun0_B
  dsimp only
  sl_unfold_words
  refine (View.read_writes_cons_rows_of_mem arg11.view (harg11.unread xs2) _ _ [] y (ValueIdx.ix2 p q) (o := k0_off4 i 0)
    (k0_off4_rows i) hy0 hy1).trans ?_
  simp only [View.readAt_eq_ld, harg2.read_unread, harg9.read_unread, harg10.read_unread,
    View.ld_unit_zero (S := S1024x4096) hz2, View.ld_unit_zero (S := S4096x256) hz2]
  exact congrArg (fun d => k0_pay1 (k0_pay7 i x0 xs0 d (sxBlk xs1 i)) (ValueIdx.ix2 p q)) (dgRead0_B arg12.view i hc2 (k0_pay6 x0))

/-- outside it, what the buffer held. -/
theorem h0_B_out (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) (y : S4096x256.Idx)
    (hy : (y 0).val < k0_off4 i 0 ∨ k0_off4 i 0 + 1024 ≤ (y 0).val) :
    arg11.view.read (Elt F) (arg11.view.writes (Elt F) (harg11.unread xs2) (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).2.1) y = xs2 y := by
  unfold kernelRun0_B
  dsimp only
  sl_unfold_words
  refine (View.read_writes_cons_rows_of_not_mem arg11.view (harg11.unread xs2) _ _ [] y (o := k0_off4 i 0) (W := 1024)
    (k0_off4_rows i) rfl hy).trans ?_
  rw [View.writes_nil]
  exact congrFun (harg11.read_unread xs2) y

/-- Inside the point's row block the degree column reads the block's row sums plus one; -/
theorem dg0_B_in (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) (y : S4096x1.Idx) (p : Fin 1024) (q : Fin 1)
    (hy0 : (y 0).val = k0_off1 i 0 + p.val) (hy1 : (y 1).val = q.val) :
    arg12.view.read (Elt F) (arg12.view.writes (Elt F) (harg12.unread xs3) (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).2.2.1) y
      = k0_pay6 x0 (ValueIdx.ix2 p q) := by
  unfold kernelRun0_B
  dsimp only
  sl_unfold_words
  refine (View.read_writes_cons_rows_of_mem arg12.view (harg12.unread xs3) _ _ [] y (ValueIdx.ix2 p q) (o := k0_off1 i 0)
    (k0_off1_rows i) hy0 hy1).trans ?_
  simp only [View.readAt_eq_ld, harg2.read_unread, harg9.read_unread, harg10.read_unread,
    View.ld_unit_zero (S := S1024x4096) hz2, View.ld_unit_zero (S := S4096x256) hz2]

/-- outside it, what the buffer held. -/
theorem dg0_B_out (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : ¬cond0_1 i) (hc2 : cond0_2 i) (hc3 : cond0_3 i)
    (x0 : Vec F S1024x4096 .f32) (x1 : Vec F S4096x256 .bf16) (x2 x3 x4 x5 : Vec F S256x256 .bf16) (xs0 xs1 : Vec F S4096x256 .bf16) (xs2 : Vec F S4096x256 .bf16) (xs3 : Vec F S4096x1 .f32) (y : S4096x1.Idx)
    (hy : (y 0).val < k0_off1 i 0 ∨ k0_off1 i 0 + 1024 ≤ (y 0).val) :
    arg12.view.read (Elt F) (arg12.view.writes (Elt F) (harg12.unread xs3) (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 xs3).2.2.1) y = xs3 y := by
  unfold kernelRun0_B
  dsimp only
  sl_unfold_words
  refine (View.read_writes_cons_rows_of_not_mem arg12.view (harg12.unread xs3) _ _ [] y (o := k0_off1 i 0) (W := 1024)
    (k0_off1_rows i) rfl hy).trans ?_
  rw [View.writes_nil]
  exact congrFun (harg12.read_unread xs3) y

end Cert.KernelIdeal.Track

end
-- ==== Proof.KI.RunC.lean ====
/-
  The body at the first point of layer 1, run on whole memrefs, and what each buffer it stores into reads afterwards:
  z and sx whole (the projections of the hidden activations), the output block whole.
-/
import proofs.«148510_g32856499814675_cont_sun_m_926_20_alg».proof.Proof.KI.State
import proofs.«148510_g32856499814675_cont_sun_m_926_20_alg».proof.Proof.KI.RunD
import Idealize.ShloMosaic.Lib.WritesUnit

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 2000000 in
/-- The body at the first point of layer 1 (l = 1, i = 0): z and sx are computed from the whole hidden activations and stored whole; the degree column and the hidden activations are read as found; the output block is stored whole. -/
noncomputable def kernelRun0_C (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) :
    Σ' (L6 : List (View.Piece (Elt F) S1024x256 .f32)) (LS0 : List (View.Piece (Elt F) S4096x256 .bf16)), { LS1 : List (View.Piece (Elt F) S4096x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)
                ∗ owns (c : Thread nD τ) arg11 fullShare xs2 ∗ owns (c : Thread nD τ) arg12 fullShare xs3) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg11.eq_unread hfs2; obtain rfl := harg12.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]
    · iexists _; isplitr; · ipureintro; exact harg11.read_unread _
      iexact HS2
    iexists _; isplitr; · ipureintro; exact harg12.read_unread _
    iexact HS3

/-- The one piece covers the output block. -/
theorem cover0_C_6 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1 S1024x256.size (by sl_kernel_rfl) y

/-- The one piece covers z. -/
theorem cover0_C_S0 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1 S4096x256.size (by sl_kernel_rfl) y

/-- The one piece covers sx. -/
theorem cover0_C_S1 (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) (y : S4096x256.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1 S4096x256.size (by sl_kernel_rfl) y

/-- The output block after the case, whatever the buffer held. -/
theorem out0_C_eq {sg : RefSig} {κ : Kind} {sp : Space} (v : View sg κ sp S1024x256 .f32) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).1) = k0_pay7 i x0 (k0_pay4 xs2 x5) (dgBlk xs3 i) (sxBlk (k0_pay5 xs2 x4) i) := by
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  show _ = k0_pay7 i x0 (k0_pay4 xs2 x5)
      (View.ld xs3 (Rect.unit (s := S4096x1) (k0_off2 i) S1024x1.size (k0_off2_inb i)))
      (View.ld (k0_pay5 xs2 x4) (Rect.unit (s := S4096x256) (k0_off3 i) S1024x256.size (k0_off3_inb i)))
  unfold kernelRun0_C
  dsimp only
  sl_unfold_words
  rw [View.canon_unit_zero hz2, View.readCov_unit_zero (S := S4096x256) _ hz2]
  simp only [View.readAt_eq_ld, harg2.read_unread, harg6.read_unread, harg7.read_unread, harg11.read_unread,
    harg12.read_unread, View.read_writes_junk_eq_canon, View.canon_unit_zero (S := S4096x256) hz2,
    View.ld_unit_zero (S := S1024x4096) hz2, View.ld_unit_zero (S := S4096x256) hz2,
    View.ld_unit_zero (S := S256x256) hz2]

/-- z after the case: the projection by the neighbour half, whatever the buffer held. -/
theorem z_C_eq {sg : RefSig} {κ : Kind} {sp : Space} (v : View sg κ sp S4096x256 .bf16) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.1) = k0_pay4 xs2 x5 := by
  rw [View.read_writes_eq_canon _ _ _ (cover0_C_S0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  unfold kernelRun0_C
  dsimp only
  sl_unfold_words
  rw [View.canon_unit_zero hz2]
  simp only [View.readAt_eq_ld, harg7.read_unread, harg11.read_unread,
    View.ld_unit_zero (S := S4096x256) hz2, View.ld_unit_zero (S := S256x256) hz2]

/-- sx after the case: the projection by the self half, whatever the buffer held. -/
theorem sx_C_eq {sg : RefSig} {κ : Kind} {sp : Space} (v : View sg κ sp S4096x256 .bf16) (f : v.ty.Contents (Elt F)) (c : Dev nD) (i : grid0.Coords) (arg2 : Memref sig .tc .vmem S1024x4096 .f32) (harg2 : arg2.IsWhole) (arg3 : Memref sig .tc .vmem S4096x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S1024x256 .f32) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x1 .f32) (harg12 : arg12.IsWhole)
    (hc0 : ¬cond0_0 i) (hc1 : cond0_1 i) (hc2 : ¬cond0_2 i) (hc3 : ¬cond0_3 i)
    (x0 : Vec F S1024x4096 .f32) (x1 : Vec F S4096x256 .bf16) (x2 x3 x4 x5 : Vec F S256x256 .bf16) (xs2 : Vec F S4096x256 .bf16) (xs3 : Vec F S4096x1 .f32) :
    v.read (Elt F) (v.writes (Elt F) f (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3).2.2.1) = k0_pay5 xs2 x4 := by
  rw [View.read_writes_eq_canon _ _ _ (cover0_C_S1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs2 xs3)]
  unfold kernelRun0_C
  dsimp only
  sl_unfold_words
  rw [View.canon_unit_zero hz2]
  simp only [View.readAt_eq_ld, harg6.read_unread, harg11.read_unread,
    View.ld_unit_zero (S := S4096x256) hz2, View.ld_unit_zero (S := S256x256) hz2]

end Cert.KernelIdeal.Track

end
-- ==== Proof.KI.RowsStep.lean ====
/-
  One more row block.  At a point t of layer 0 the body stores rows [1024 t, 1024 t + 1024) of the hidden activations
  and of the degree column and leaves the other rows as they were; so if the rows below 1024 t held the named contents
  before, the rows below 1024 (t + 1) hold them after.  Also: the row offsets the body computes at a point, in closed form,
  and the output block's term at the points of each layer.
-/
import proofs.«148510_g32856499814675_cont_sun_m_926_20_alg».proof.Proof.KI.State

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The hidden activations' store at a point of layer 0 starts at row 1024 t. -/
theorem off4_eq : ∀ t : Fin cfg0.N, t.val < 4 → k0_off4 (grid0.coords t) 0 = 1024 * t.val :=
  (by decide +kernel : ∀ t : Fin grid0.N, t.val < 4 → k0_off4 (grid0.coords t) 0 = 1024 * t.val)
/-- The degree column's store at a point of layer 0 starts at row 1024 t. -/
theorem off1_eq : ∀ t : Fin cfg0.N, t.val < 4 → k0_off1 (grid0.coords t) 0 = 1024 * t.val :=
  (by decide +kernel : ∀ t : Fin grid0.N, t.val < 4 → k0_off1 (grid0.coords t) 0 = 1024 * t.val)

theorem Rows_step (c : Dev nD) (n : ℕ) (hn : n < 4) (h dg : Vec F S4096x256 .bf16) (h' : Vec F S4096x256 .bf16)
    (d d' : Vec F S4096x1 .f32)
    (hprev : n = 0 ∨ Rows m c (n - 1) h d)
    (hin : ∀ (y : S4096x256.Idx) (p : Fin 1024) (q : Fin 256), (y 0).val = 1024 * n + p.val → (y 1).val = q.val →
      h' y = HB m c ⟨n, hn⟩ (ValueIdx.ix2 p q))
    (hout : ∀ y : S4096x256.Idx, ((y 0).val < 1024 * n ∨ 1024 * n + 1024 ≤ (y 0).val) → h' y = h y)
    (din : ∀ (y : S4096x1.Idx) (p : Fin 1024) (q : Fin 1), (y 0).val = 1024 * n + p.val → (y 1).val = q.val →
      d' y = DB m c ⟨n, hn⟩ (ValueIdx.ix2 p q))
    (dout : ∀ y : S4096x1.Idx, ((y 0).val < 1024 * n ∨ 1024 * n + 1024 ≤ (y 0).val) → d' y = d y) :
    Rows m c n h' d' := by
  constructor
  · intro y hy
    by_cases hlo : 1024 * n ≤ (y 0).val
    · have hq : (y 1).val < 256 := (y 1).isLt
      rw [hin y ⟨(y 0).val - 1024 * n, by omega⟩ ⟨(y 1).val, hq⟩ (by simp only []; omega) rfl]
      unfold Hfull
      have e1 : (⟨(y 0).val / 1024, by have h : (y 0).val < 4096 := (y 0).isLt; omega⟩ : Fin 4) = ⟨n, hn⟩ := Fin.ext (by simp only []; omega)
      have e2 : (⟨(y 0).val % 1024, by omega⟩ : Fin 1024) = ⟨(y 0).val - 1024 * n, by omega⟩ := Fin.ext (by simp only []; omega)
      rw [e1, e2]
    · rcases hprev with h0 | hp
      · omega
      · rw [hout y (Or.inl (by omega))]
        exact hp.1 y (by omega)
  · intro y hy
    by_cases hlo : 1024 * n ≤ (y 0).val
    · have hq : (y 1).val < 1 := (y 1).isLt
      rw [din y ⟨(y 0).val - 1024 * n, by omega⟩ ⟨(y 1).val, hq⟩ (by simp only []; omega) rfl]
      unfold Dfull
      have e1 : (⟨(y 0).val / 1024, by have h : (y 0).val < 4096 := (y 0).isLt; omega⟩ : Fin 4) = ⟨n, hn⟩ := Fin.ext (by simp only []; omega)
      have e2 : (⟨(y 0).val % 1024, by omega⟩ : Fin 1024) = ⟨(y 0).val - 1024 * n, by omega⟩ := Fin.ext (by simp only []; omega)
      rw [e1, e2]
    · rcases hprev with h0 | hp
      · omega
      · rw [dout y (Or.inl (by omega))]
        exact hp.2 y (by omega)

/-- The output block's term at a point of layer 0. -/
theorem OutAt_lo (c : Dev nD) (t : Fin cfg0.N) (ht : t.val < 4) :
    OutAt m c t = k0_pay7 (grid0.coords t) (adjB m c t) (Z0 m c) (k0_pay6 (adjB m c t)) (sxBlk (SX0 m c) (grid0.coords t)) := by
  unfold OutAt; rw [dif_pos ht]; rfl

/-- The output block's term at a point of layer 1. -/
theorem OutAt_hi (c : Dev nD) (t : Fin cfg0.N) (ht : 4 ≤ t.val) :
    OutAt m c t = k0_pay7 (grid0.coords t) (adjB m c t) (Z1 m c) (dgBlk (Dfull m c) (grid0.coords t)) (sxBlk (SX1 m c) (grid0.coords t)) := by
  have hN : t.val < 8 := lt_of_lt_of_eq t.isLt N_0
  unfold OutAt; rw [dif_neg (by omega)]; unfold Out1
  have e : pt (4 + (t.val - 4)) (by omega) = t := Fin.ext (by simp only []; omega)
  simp only [e]

/-- Row block `n` of the hidden activations, as the narrowing of the layer-0 output block at point `t`. -/
theorem HB_eq (c : Dev nD) (t : Fin cfg0.N) (ht : t.val < 4) :
    HB m c ⟨t.val, ht⟩ = k0_pay1 (k0_pay7 (grid0.coords t) (adjB m c t) (Z0 m c) (k0_pay6 (adjB m c t)) (sxBlk (SX0 m c) (grid0.coords t))) := rfl

/-- Row block `n` of the degree column, as the row sums of the adjacency's block at point `t`. -/
theorem DB_eq (c : Dev nD) (t : Fin cfg0.N) (ht : t.val < 4) : DB m c ⟨t.val, ht⟩ = k0_pay6 (adjB m c t) := rfl

end Cert.KernelIdeal.Track

end
-- ==== Proof.KI.Body.lean ====
/-
  The tracked frame of the fused two-layer kernel.  The proof data name, at every point of the grid, what the body leaves
  in each staging buffer (an input's block again; the output block's term) and what the four scratch buffers hold between
  points: z and sx at the current layer's projections, the hidden activations and the degree column at their named rows
  as far as layer 0 has stored them.  The body obligation runs the point's control case on those contents; the region is
  entered with the scratch buffers at anything and left forgetting them.
-/
import proofs.«148510_g32856499814675_cont_sun_m_926_20_alg».proof.Proof.KI.RunA
import proofs.«148510_g32856499814675_cont_sun_m_926_20_alg».proof.Proof.KI.RunB
import proofs.«148510_g32856499814675_cont_sun_m_926_20_alg».proof.Proof.KI.RunC
import proofs.«148510_g32856499814675_cont_sun_m_926_20_alg».proof.Proof.KI.RunD
import proofs.«148510_g32856499814675_cont_sun_m_926_20_alg».proof.Proof.KI.RowsStep

set_option maxRecDepth 16384

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No window is ever idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-! ## The region invariant, point by point -/

/-- Before point 0 the scratch buffers hold anything; after point `n`, z and sx hold the current layer's projections and
    the hidden activations and the degree column hold their named rows as far as stored. -/
def PhiS (c : Dev nD) : (n : ℕ) → n ≤ cfg0.N → sProp 𝕄
  | 0, _ => Pipeline.ΦA spec0 c
  | n + 1, _ => iprop((∃ h dg, owns (c : Thread nD τ) scM0_0 fullShare (Zat m c n) ∗ owns (c : Thread nD τ) scM0_1 fullShare (SXat m c n)
      ∗ owns (c : Thread nD τ) scM0_2 fullShare h ∗ owns (c : Thread nD τ) scM0_3 fullShare dg ∗ ⌜Rows m c n h dg⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop((∃ h dg, owns (c : Thread nD τ) scM0_0 fullShare (Zat m c n) ∗ owns (c : Thread nD τ) scM0_1 fullShare (SXat m c n)
      ∗ owns (c : Thread nD τ) scM0_2 fullShare h ∗ owns (c : Thread nD τ) scM0_3 fullShare dg ∗ ⌜Rows m c n h dg⌝) ∗ (∃ r, prngReg c r)) := rfl

theorem PhiS_pos (c : Dev nD) (n : ℕ) (h : n ≤ cfg0.N) (hz : n ≠ 0) :
    PhiS m c n h = iprop((∃ h dg, owns (c : Thread nD τ) scM0_0 fullShare (Zat m c (n - 1)) ∗ owns (c : Thread nD τ) scM0_1 fullShare (SXat m c (n - 1))
      ∗ owns (c : Thread nD τ) scM0_2 fullShare h ∗ owns (c : Thread nD τ) scM0_3 fullShare dg ∗ ⌜Rows m c (n - 1) h dg⌝) ∗ (∃ r, prngReg c r)) := by
  cases n with
  | zero => exact absurd rfl hz
  | succ n => rfl

/-! ## The proof data -/

/-- The arrays as the region finds them; after the body each input's buffer at its block, the output's at the point's
    output term; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OutAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OutAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_6 (c : Dev nD) (t : Fin cfg0.N) :
    (dats m 0 c).leavesExact 6 t = owns (c : Thread nD τ) (ms0_6 t) fullShare (OutAt m c t) := by
  rw [show (dats m 0 c).leavesExact 6 t = owns (c : Thread nD τ) (ms0_6 t) fullShare ((dats m 0 c).after 6 t) from by
    unfold Dat.leavesExact; rw [liveAt0_6 t], after0_6]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' memrefs hold their blocks; the point's position selects the control case; the
    invariant hands the run the scratch buffers at the contents the point before left (at anything at the first point)
    and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6]
  have hN : t.val < 8 := lt_of_lt_of_eq t.isLt N_0
  by_cases h0 : t.val = 0
  · -- the first point: z and sx from the inputs, first row block of h and deg
    have hc0 : cond0_0 (grid0.coords t) := (hcond0_0 t).mpr h0
    have hc1 : ¬cond0_1 (grid0.coords t) := fun h => by have := (hcond0_1 t).mp h; omega
    have hc2 : cond0_2 (grid0.coords t) := (hcond0_2 t).mpr (by omega)
    have hc3 : cond0_3 (grid0.coords t) := (hcond0_3 t).mpr (by omega)
    have ht : t = pt 0 (by decide) := Fin.ext h0
    rw [PhiS_castSucc m c t, PhiS_zero m c _ _ h0, PhiA0_eq]
    iintro ⟨⟨⟨HS0, HS1, ⟨%d2, HS2⟩, ⟨%d3, HS3⟩⟩, Hg⟩, Ho, ⟨%e0, H0⟩, ⟨%e1, H1⟩, ⟨%e2, H2⟩, ⟨%e3, H3⟩, ⟨%e4, H4⟩, ⟨%e5, H5⟩, ⟨%e6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 hc2 hc3 (iblk m c 0 t) (iblk m c 1 t) (iblk m c 2 t) (iblk m c 3 t) (iblk m c 4 t) (iblk m c 5 t) d2 d3).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%f6, H6⟩, ⟨%f9, HS0⟩, ⟨%f10, HS1⟩, HS2, HS3⟩
    isplitl [HS0 HS1 HS2 HS3 Hg]
    · isplitl [HS0 HS1 HS2 HS3]
      · iexists _; iexists _
        isplitl [HS0]
        · unfold owns; iexists _; isplitr; swap
          · iexact HS0
          · ipureintro; rw [z_A_eq, h0]; subst ht; rfl
        isplitl [HS1]
        · unfold owns; iexists _; isplitr; swap
          · iexact HS1
          · ipureintro; rw [sx_A_eq, h0]; subst ht; rfl
        isplitl [HS2]
        · unfold owns; iexists _; isplitr; swap
          · iexact HS2
          · ipureintro; rfl
        isplitl [HS3]
        · unfold owns; iexists _; isplitr; swap
          · iexact HS3
          · ipureintro; rfl
        ipureintro
        rw [h0]
        refine Rows_step m c 0 (by omega) d2 d2 _ d3 _ (Or.inl rfl) ?_ ?_ ?_ ?_
        · intro y p q hy0 hy1
          rw [h0_A_in _ _ _ _ _ _ _ _ _ _ _ _ _ _ _ _ _ _ _ _ _ _ _ _ hc0 hc1 hc2 hc3 _ _ _ _ _ _ d2 d3 y p q (by rw [off4_eq t (by omega), h0]; exact hy0) hy1]
          subst ht; rfl
        · intro y hy
          exact h0_A_out _ _ _ _ _ _ _ _ _ _ _ _ _ _ _ _ _ _ _ _ _ _ _ _ hc0 hc1 hc2 hc3 _ _ _ _ _ _ d2 d3 y (by rw [off4_eq t (by omega), h0]; exact hy)
        · intro y p q hy0 hy1
          rw [dg0_A_in _ _ _ _ _ _ _ _ _ _ _ _ _ _ _ _ _ _ _ _ _ _ _ _ hc0 hc1 hc2 hc3 _ _ _ _ _ _ d2 d3 y p q (by rw [off1_eq t (by omega), h0]; exact hy0) hy1]
          subst ht; rfl
        · intro y hy
          exact dg0_A_out _ _ _ _ _ _ _ _ _ _ _ _ _ _ _ _ _ _ _ _ _ _ _ _ hc0 hc1 hc2 hc3 _ _ _ _ _ _ d2 d3 y (by rw [off1_eq t (by omega), h0]; exact hy)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap
    · iexact H6
    · ipureintro; rw [out0_A_eq, OutAt_lo m c t (by omega)]; subst ht; rfl
  · by_cases h4 : t.val < 4
    · -- a later point of layer 0: z and sx as found, one more row block of h and deg
      have hc0 : ¬cond0_0 (grid0.coords t) := fun h => h0 ((hcond0_0 t).mp h)
      have hc1 : ¬cond0_1 (grid0.coords t) := fun h => by have := (hcond0_1 t).mp h; omega
      have hc2 : cond0_2 (grid0.coords t) := (hcond0_2 t).mpr h4
      have hc3 : cond0_3 (grid0.coords t) := (hcond0_3 t).mpr h4
      have hz : Zat m c t.val = Z0 m c := by unfold Zat; rw [if_pos h4]
      have hz1 : Zat m c (t.val - 1) = Z0 m c := by unfold Zat; rw [if_pos (by omega)]
      have hs : SXat m c t.val = SX0 m c := by unfold SXat; rw [if_pos h4]
      have hs1 : SXat m c (t.val - 1) = SX0 m c := by unfold SXat; rw [if_pos (by omega)]
      rw [PhiS_castSucc m c t, PhiS_pos m c _ _ h0]
      simp only [hz, hz1, hs, hs1]
      iintro ⟨⟨⟨%h, %dg, HS0, HS1, HS2, HS3, %hR⟩, Hg⟩, Ho, ⟨%e0, H0⟩, ⟨%e1, H1⟩, ⟨%e2, H2⟩, ⟨%e3, H3⟩, ⟨%e4, H4⟩, ⟨%e5, H5⟩, ⟨%e6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 hc2 hc3 (iblk m c 0 t) (iblk m c 1 t) (iblk m c 2 t) (iblk m c 3 t) (iblk m c 4 t) (iblk m c 5 t) (Z0 m c) (SX0 m c) h dg).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%f6, H6⟩, HS0, HS1, HS2, HS3⟩
      isplitl [HS0 HS1 HS2 HS3 Hg]
      · isplitl [HS0 HS1 HS2 HS3]
        · iexists _; iexists _
          isplitl [HS0]; · iexact HS0
          isplitl [HS1]; · iexact HS1
          isplitl [HS2]
          · unfold owns; iexists _; isplitr; swap
            · iexact HS2
            · ipureintro; rfl
          isplitl [HS3]
          · unfold owns; iexists _; isplitr; swap
            · iexact HS3
            · ipureintro; rfl
          ipureintro
          refine Rows_step m c t.val h4 h h _ dg _ (Or.inr hR) ?_ ?_ ?_ ?_
          · intro y p q hy0 hy1
            rw [h0_B_in c (grid0.coords t) _ _ _ _ _ _ _ _ _ _ _ _ _ _ _ _ _ _ _ _ _ _ hc0 hc1 hc2 hc3 _ _ _ _ _ _ (Z0 m c) (SX0 m c) h dg y p q (by rw [off4_eq t h4]; exact hy0) hy1]
            rfl
          · intro y hy
            exact h0_B_out c (grid0.coords t) _ _ _ _ _ _ _ _ _ _ _ _ _ _ _ _ _ _ _ _ _ _ hc0 hc1 hc2 hc3 _ _ _ _ _ _ (Z0 m c) (SX0 m c) h dg y (by rw [off4_eq t h4]; exact hy)
          · intro y p q hy0 hy1
            rw [dg0_B_in c (grid0.coords t) _ _ _ _ _ _ _ _ _ _ _ _ _ _ _ _ _ _ _ _ _ _ hc0 hc1 hc2 hc3 _ _ _ _ _ _ (Z0 m c) (SX0 m c) h dg y p q (by rw [off1_eq t h4]; exact hy0) hy1]
            rfl
          · intro y hy
            exact dg0_B_out c (grid0.coords t) _ _ _ _ _ _ _ _ _ _ _ _ _ _ _ _ _ _ _ _ _ _ hc0 hc1 hc2 hc3 _ _ _ _ _ _ (Z0 m c) (SX0 m c) h dg y (by rw [off1_eq t h4]; exact hy)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr; swap
      · iexact H6
      · ipureintro; rw [out0_B_eq, OutAt_lo m c t h4]
    · by_cases h44 : t.val = 4
      · -- the first point of layer 1: z and sx from the whole hidden activations
        have hc0 : ¬cond0_0 (grid0.coords t) := fun h => h0 ((hcond0_0 t).mp h)
        have hc1 : cond0_1 (grid0.coords t) := (hcond0_1 t).mpr h44
        have hc2 : ¬cond0_2 (grid0.coords t) := fun h => h4 ((hcond0_2 t).mp h)
        have hc3 : ¬cond0_3 (grid0.coords t) := fun h => h4 ((hcond0_3 t).mp h)
        have ht : t = pt 4 (by decide) := Fin.ext h44
        have hz : Zat m c t.val = Z1 m c := by unfold Zat; rw [if_neg h4]
        have hz1 : Zat m c (t.val - 1) = Z0 m c := by unfold Zat; rw [if_pos (by omega)]
        have hs : SXat m c t.val = SX1 m c := by unfold SXat; rw [if_neg h4]
        have hs1 : SXat m c (t.val - 1) = SX0 m c := by unfold SXat; rw [if_pos (by omega)]
        rw [PhiS_castSucc m c t, PhiS_pos m c _ _ h0]
        simp only [hz, hz1, hs, hs1]
        iintro ⟨⟨⟨%h, %dg, HS0, HS1, HS2, HS3, %hR⟩, Hg⟩, Ho, ⟨%e0, H0⟩, ⟨%e1, H1⟩, ⟨%e2, H2⟩, ⟨%e3, H3⟩, ⟨%e4, H4⟩, ⟨%e5, H5⟩, ⟨%e6, H6⟩⟩
        obtain ⟨rfl, rfl⟩ := Rows.eq_full m (show 3 ≤ t.val - 1 by omega) hR
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 hc2 hc3 (iblk m c 0 t) (iblk m c 1 t) (iblk m c 2 t) (iblk m c 3 t) (iblk m c 4 t) (iblk m c 5 t) (Hfull m c) (Dfull m c)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        isplitl [HS1]; · iexists _; iexact HS1
        isplitl [HS2]; · iexact HS2
        isplitl [HS3]; · iexact HS3
        iintro ⟨H0, H1, H2, H3, H4, H5, ⟨%f6, H6⟩, ⟨%f9, HS0⟩, ⟨%f10, HS1⟩, HS2, HS3⟩
        isplitl [HS0 HS1 HS2 HS3 Hg]
        · isplitl [HS0 HS1 HS2 HS3]
          · iexists _; iexists _
            isplitl [HS0]
            · unfold owns; iexists _; isplitr; swap
              · iexact HS0
              · ipureintro; rw [z_C_eq]; subst ht; rfl
            isplitl [HS1]
            · unfold owns; iexists _; isplitr; swap
              · iexact HS1
              · ipureintro; rw [sx_C_eq]; subst ht; rfl
            isplitl [HS2]; · iexact HS2
            isplitl [HS3]; · iexact HS3
            ipureintro
            exact ⟨fun y _ => rfl, fun y _ => rfl⟩
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr; swap
        · iexact H6
        · ipureintro; rw [out0_C_eq, OutAt_hi m c t (by omega)]; subst ht; rfl
      · -- a later point of layer 1: every scratch buffer as found
        have hc0 : ¬cond0_0 (grid0.coords t) := fun h => h0 ((hcond0_0 t).mp h)
        have hc1 : ¬cond0_1 (grid0.coords t) := fun h => h44 ((hcond0_1 t).mp h)
        have hc2 : ¬cond0_2 (grid0.coords t) := fun h => h4 ((hcond0_2 t).mp h)
        have hc3 : ¬cond0_3 (grid0.coords t) := fun h => h4 ((hcond0_3 t).mp h)
        have hz : Zat m c t.val = Z1 m c := by unfold Zat; rw [if_neg h4]
        have hz1 : Zat m c (t.val - 1) = Z1 m c := by unfold Zat; rw [if_neg (by omega)]
        have hs : SXat m c t.val = SX1 m c := by unfold SXat; rw [if_neg h4]
        have hs1 : SXat m c (t.val - 1) = SX1 m c := by unfold SXat; rw [if_neg (by omega)]
        rw [PhiS_castSucc m c t, PhiS_pos m c _ _ h0]
        simp only [hz, hz1, hs, hs1]
        iintro ⟨⟨⟨%h, %dg, HS0, HS1, HS2, HS3, %hR⟩, Hg⟩, Ho, ⟨%e0, H0⟩, ⟨%e1, H1⟩, ⟨%e2, H2⟩, ⟨%e3, H3⟩, ⟨%e4, H4⟩, ⟨%e5, H5⟩, ⟨%e6, H6⟩⟩
        obtain ⟨rfl, rfl⟩ := Rows.eq_full m (show 3 ≤ t.val - 1 by omega) hR
        iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 hc2 hc3 (iblk m c 0 t) (iblk m c 1 t) (iblk m c 2 t) (iblk m c 3 t) (iblk m c 4 t) (iblk m c 5 t) (Z1 m c) (SX1 m c) (Hfull m c) (Dfull m c)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexact HS3
        iintro ⟨H0, H1, H2, H3, H4, H5, ⟨%f6, H6⟩, HS0, HS1, HS2, HS3⟩
        isplitl [HS0 HS1 HS2 HS3 Hg]
        · isplitl [HS0 HS1 HS2 HS3]
          · iexists _; iexists _
            isplitl [HS0]; · iexact HS0
            isplitl [HS1]; · iexact HS1
            isplitl [HS2]; · iexact HS2
            isplitl [HS3]; · iexact HS3
            ipureintro
            exact ⟨fun y _ => rfl, fun y _ => rfl⟩
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr; swap
        · iexact H6
        · ipureintro; rw [out0_D_eq, OutAt_hi m c t (by omega)]

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%h, %dg, HS0, HS1, HS2, HS3, -⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of @main terminates, with every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Track

end
-- ==== Proof.Spec.lean ====
/-
  The mathematics of the two programs, as functions on the extended reals, index by index.

  A two-layer mean-aggregating graph convolution over a dense adjacency a (4096 × 4096), features x (4096 × 256) and
  weights w (256 × 512, the left half multiplying the node's own features, the right half its neighbourhood mean).
  With deg i = (Σ_n a i n) + 1, one layer is, on the reference's side,
      out i j = Σ_{k < 512} [x i | (a · x) i / deg i]_k · w j k ,
  the neighbourhood mean formed first and then projected; and on the kernel's side
      out i j = (x · Waᵀ) i j + (a · (x · Wbᵀ)) i j · (1 / deg i) ,
  the projection formed first, the row scaling last.  The first layer is followed by max(·, 0).  Over the reals, with
  deg i ≠ 0, both are (x · Waᵀ) i j + (1 / deg i) Σ_n Σ_k a i n · x n k · w j (256 + k): the scaling by 1 / deg i moves
  across the finite sums.  On the extended reals that needs every entry finite, and the quotient by deg i needs deg i ≠ 0.
-/
import Idealize.ShloMosaic.PureOps.Ideal
import Idealize.ShloMosaic.Lib.ValueIdx

noncomputable section

namespace Cert.Spec

open Idealize.ShloMosaic

/-- The degree column: the row sum of the adjacency plus one. -/
def deg (a : Fin 4096 → Fin 4096 → EReal) (i : Fin 4096) : EReal := (∑ n : Fin 4096, a i n) + 1

/-- Features times the transpose of one 256-column half of the weights: the half starting at column `off`. -/
def proj (x : Fin 4096 → Fin 256 → EReal) (w : Fin 256 → Fin 512 → EReal) (off : ℕ) (hoff : off + 256 ≤ 512)
    (n : Fin 4096) (j : Fin 256) : EReal :=
  ∑ k : Fin 256, x n k * w j ⟨off + k.val, by have := k.isLt; omega⟩

/-- One layer as the kernel computes it: project first, aggregate, scale the row by the reciprocal degree. -/
def kLayer (a : Fin 4096 → Fin 4096 → EReal) (x : Fin 4096 → Fin 256 → EReal) (w : Fin 256 → Fin 512 → EReal)
    (i : Fin 4096) (j : Fin 256) : EReal :=
  proj x w 0 (by norm_num) i j + (∑ n : Fin 4096, a i n * proj x w 256 (by norm_num) n j) * Ideal.div 1 (deg a i)

/-- One layer as the reference computes it: aggregate, divide the row by the degree, join with the node's own
    features, project. -/
def rLayer (a : Fin 4096 → Fin 4096 → EReal) (x : Fin 4096 → Fin 256 → EReal) (w : Fin 256 → Fin 512 → EReal)
    (i : Fin 4096) (j : Fin 256) : EReal :=
  ∑ k : Fin 512, (if h : k.val < 256 then x i ⟨k.val, h⟩
      else Ideal.div (∑ n : Fin 4096, a i n * x n ⟨k.val - 256, by have := k.isLt; omega⟩) (deg a i)) * w j k

/-- The rectifier between the layers. -/
def relu (h : Fin 4096 → Fin 256 → EReal) : Fin 4096 → Fin 256 → EReal := fun n k => max (h n k) 0

/-- The kernel's result. -/
def kOut (a : Fin 4096 → Fin 4096 → EReal) (x : Fin 4096 → Fin 256 → EReal) (w0 w1 : Fin 256 → Fin 512 → EReal) :
    Fin 4096 → Fin 256 → EReal := kLayer a (relu (kLayer a x w0)) w1

/-- The reference's result. -/
def rOut (a : Fin 4096 → Fin 4096 → EReal) (x : Fin 4096 → Fin 256 → EReal) (w0 w1 : Fin 256 → Fin 512 → EReal) :
    Fin 4096 → Fin 256 → EReal := rLayer a (relu (rLayer a x w0)) w1

/-- A rank-2 array read as a function of its two coordinates. -/
abbrev cur {n0 n1 : Nat} (f : (⟨2, ![n0, n1]⟩ : Shape).Idx → EReal) : Fin n0 → Fin n1 → EReal :=
  fun p q => f (ValueIdx.ix2 p q)

end Cert.Spec

end
-- ==== Proof.KI.KIn.lean ====
/-
  The arguments' blocks as the region finds them, at the extended reals.  The adjacency's row block at a point is rows
  [1024 (t mod 4), +1024) of the adjacency; the features window is the whole feature array (its narrowing changes nothing);
  the four weight windows are the transposed halves of the two weight arrays: entry (k, j) of a window is entry
  (j, k) or (j, 256 + k) of the weight array.
-/
import proofs.«148510_g32856499814675_cont_sun_m_926_20_alg».proof.Proof.KI.State
import proofs.«148510_g32856499814675_cont_sun_m_926_20_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.KV

open Idealize.ShloMosaic Idealize.ShloMosaic.TcCoe Idealize.ShloMosaic.ValueIdx
open Idealize.SL Idealize.SL.Sem
open Cert.KernelIdeal Cert.KernelIdeal.Gen Cert.KernelIdeal.Track Cert.Spec

variable (m : (ℓ : Loc nD τ sig) → Buf (Elt Ideal) ℓ)

/-- The four argument arrays on core `c`, as functions of two coordinates. -/
abbrev aA (c : Dev nD) : Fin 4096 → Fin 4096 → EReal := cur (n0 := 4096) (n1 := 4096) (m ((c.tc : Thread nD τ).loc main_arg0))
abbrev xA (c : Dev nD) : Fin 4096 → Fin 256 → EReal := cur (n0 := 4096) (n1 := 256) (m ((c.tc : Thread nD τ).loc main_arg1))
abbrev w0A (c : Dev nD) : Fin 256 → Fin 512 → EReal := cur (n0 := 256) (n1 := 512) (m ((c.tc : Thread nD τ).loc main_arg2))
abbrev w1A (c : Dev nD) : Fin 256 → Fin 512 → EReal := cur (n0 := 256) (n1 := 512) (m ((c.tc : Thread nD τ).loc main_arg3))

/-! ## The index maps over the grid

A block's coordinate on an axis is its block index times the block's extent plus the coordinate inside the block.  The
adjacency's block index at point t is (t mod 4, 0); every other argument window has block index (0, 0) at every point. -/

theorem idx_facts0 : ∀ t : Fin cfg0.N, win0_0.index t (0 : Fin 2) = t.val % 4 ∧ win0_0.index t (1 : Fin 2) = 0 :=
  (by decide +kernel : ∀ t : Fin grid0.N, _)
theorem idx_facts1 : ∀ t : Fin cfg0.N, win0_1.index t (0 : Fin 2) = 0 ∧ win0_1.index t (1 : Fin 2) = 0 :=
  (by decide +kernel : ∀ t : Fin grid0.N, _)
theorem idx_facts2 : ∀ t : Fin cfg0.N, win0_2.index t (0 : Fin 2) = 0 ∧ win0_2.index t (1 : Fin 2) = 0 :=
  (by decide +kernel : ∀ t : Fin grid0.N, _)
theorem idx_facts3 : ∀ t : Fin cfg0.N, win0_3.index t (0 : Fin 2) = 0 ∧ win0_3.index t (1 : Fin 2) = 0 :=
  (by decide +kernel : ∀ t : Fin grid0.N, _)
theorem idx_facts4 : ∀ t : Fin cfg0.N, win0_4.index t (0 : Fin 2) = 0 ∧ win0_4.index t (1 : Fin 2) = 0 :=
  (by decide +kernel : ∀ t : Fin grid0.N, _)
theorem idx_facts5 : ∀ t : Fin cfg0.N, win0_5.index t (0 : Fin 2) = 0 ∧ win0_5.index t (1 : Fin 2) = 0 :=
  (by decide +kernel : ∀ t : Fin grid0.N, _)

/-! ## The windows' arrays when the region is entered

The adjacency is as launched.  The features' window array is the feature array narrowed, and a narrowing is the identity
on the extended reals.  Each weight window's array is a 256-column slice of a weight array, transposed, then narrowed:
its entry i is the weight array's entry (i 1, off + i 0). -/

/-- Reading the narrowed transpose of a 256-column slice: entry i of the result is entry (i 1, off + i 0) of the source. -/
theorem sliceT_apply (x : S256x512.Idx → EReal) (off : Fin 2 → Nat) (hs : S256x512.Slices off S256x256)
    (i : S256x256.Idx) (k : S256x512.Idx) (h0 : (k 0).val = off 0 + (i 1).val) (h1 : (k 1).val = off 1 + (i 0).val) :
    (truncf (F := Ideal) (s := S256x256) (φ := .f32) .bf16
      (transpose S256x256 [1, 0] (extractStridedSlice S256x256 off x hs) transposes_S256x256_S256x256_1_0)
      bitsLt_bf16_f32 : FVec Ideal S256x256 .bf16) i = x k := by
  rw [truncf_apply]
  refine (transpose_apply [1, 0] _ transposes_S256x256_S256x256_1_0 i
    (ix2 (⟨(i 1).val, (i 1).isLt⟩ : Fin 256) (⟨(i 0).val, (i 0).isLt⟩ : Fin 256)) (fun b => match b with
      | ⟨0, _⟩ => rfl
      | ⟨1, _⟩ => rfl)).trans ?_
  refine extractStridedSlice_apply off x hs
    (ix2 (⟨(i 1).val, (i 1).isLt⟩ : Fin 256) (⟨(i 0).val, (i 0).isLt⟩ : Fin 256)) k (fun a => ?_)
  match a with
  | ⟨0, _⟩ => exact h0
  | ⟨1, _⟩ => exact h1

/-- The features' window array is the feature array, entry by entry. -/
theorem V_main_v0 (c : Dev nD) (i : S4096x256.Idx) :
    @Eq EReal (V m c main_v0 i) (m ((c.tc : Thread nD τ).loc main_arg1) i) := by
  dsimp only [Gen.V, Gen.hostOps0]
  after_results
  rfl

/-- Window 2's array: columns [0, 256) of layer 0's weights, transposed. -/
theorem V_main_v3 (c : Dev nD) (i : S256x256.Idx) (k : S256x512.Idx) (h0 : (k 0).val = (i 1).val)
    (h1 : (k 1).val = 0 + (i 0).val) : @Eq EReal (V m c main_v3 i) (m ((c.tc : Thread nD τ).loc main_arg2) k) := by
  dsimp only [Gen.V, Gen.hostOps0]
  after_results
  exact sliceT_apply _ _ _ i k (by show (k 0).val = 0 + (i 1).val; omega) h1

/-- Window 3's array: columns [256, 512) of layer 0's weights, transposed. -/
theorem V_main_v6 (c : Dev nD) (i : S256x256.Idx) (k : S256x512.Idx) (h0 : (k 0).val = (i 1).val)
    (h1 : (k 1).val = 256 + (i 0).val) : @Eq EReal (V m c main_v6 i) (m ((c.tc : Thread nD τ).loc main_arg2) k) := by
  dsimp only [Gen.V, Gen.hostOps0]
  after_results
  exact sliceT_apply _ _ _ i k (by show (k 0).val = 0 + (i 1).val; omega) h1

/-- Window 4's array: columns [0, 256) of layer 1's weights, transposed. -/
theorem V_main_v9 (c : Dev nD) (i : S256x256.Idx) (k : S256x512.Idx) (h0 : (k 0).val = (i 1).val)
    (h1 : (k 1).val = 0 + (i 0).val) : @Eq EReal (V m c main_v9 i) (m ((c.tc : Thread nD τ).loc main_arg3) k) := by
  dsimp only [Gen.V, Gen.hostOps0]
  after_results
  exact sliceT_apply _ _ _ i k (by show (k 0).val = 0 + (i 1).val; omega) h1

/-- Window 5's array: columns [256, 512) of layer 1's weights, transposed. -/
theorem V_main_v12 (c : Dev nD) (i : S256x256.Idx) (k : S256x512.Idx) (h0 : (k 0).val = (i 1).val)
    (h1 : (k 1).val = 256 + (i 0).val) : @Eq EReal (V m c main_v12 i) (m ((c.tc : Thread nD τ).loc main_arg3) k) := by
  dsimp only [Gen.V, Gen.hostOps0]
  after_results
  exact sliceT_apply _ _ _ i k (by show (k 0).val = 0 + (i 1).val; omega) h1

/-! ## The blocks -/

/-- Row `p` of the adjacency's block at point `t` is row 1024 (t mod 4) + p of the adjacency. -/
theorem adjB_apply (c : Dev nD) (t : Fin cfg0.N) (p : Fin 1024) (n : Fin 4096) :
    adjB m c t (ix2 p n) = aA m c ⟨1024 * (t.val % 4) + p.val, by have := p.isLt; omega⟩ n := by
  show ((cfg0.win 0).blk t).view.read (Elt Ideal) (V m c main_arg0) (ix2 p n) = _
  rw [View.read_apply, V_main_arg0]
  show m ((c.tc : Thread nD τ).loc main_arg0) (((cfg0.win 0).blk t).view.emb (ix2 p n))
    = m ((c.tc : Thread nD τ).loc main_arg0) (ix2 ⟨1024 * (t.val % 4) + p.val, by have := p.isLt; omega⟩ n)
  obtain ⟨e0, e1⟩ := idx_facts0 t
  refine congrArg _ (funext fun a => Fin.ext ?_)
  match a with
  | ⟨0, _⟩ => show win0_0.index t (0 : Fin 2) * 1024 + 1 * p.val = 1024 * (t.val % 4) + p.val; omega
  | ⟨1, _⟩ => show win0_0.index t (1 : Fin 2) * 4096 + 1 * n.val = n.val; omega

/-- The features window is the feature array. -/
theorem xin_apply (c : Dev nD) (t : Fin cfg0.N) (n : Fin 4096) (k : Fin 256) : xin m c t (ix2 n k) = xA m c n k := by
  show ((cfg0.win 1).blk t).view.read (Elt Ideal) (V m c main_v0) (ix2 n k) = _
  rw [View.read_apply]
  refine (V_main_v0 m c _).trans ?_
  show m ((c.tc : Thread nD τ).loc main_arg1) (((cfg0.win 1).blk t).view.emb (ix2 n k))
    = m ((c.tc : Thread nD τ).loc main_arg1) (ix2 n k)
  obtain ⟨e0, e1⟩ := idx_facts1 t
  refine congrArg _ (funext fun a => Fin.ext ?_)
  match a with
  | ⟨0, _⟩ => show win0_1.index t (0 : Fin 2) * 4096 + 1 * n.val = n.val; omega
  | ⟨1, _⟩ => show win0_1.index t (1 : Fin 2) * 256 + 1 * k.val = k.val; omega

/-- The self half of layer 0's weights, transposed. -/
theorem wa0_apply (c : Dev nD) (t : Fin cfg0.N) (k j : Fin 256) :
    wa0 m c t (ix2 k j) = w0A m c j ⟨0 + k.val, by have := k.isLt; omega⟩ := by
  show ((cfg0.win 2).blk t).view.read (Elt Ideal) (V m c main_v3) (ix2 k j) = _
  rw [View.read_apply]
  obtain ⟨e0, e1⟩ := idx_facts2 t
  refine V_main_v3 m c _ (ix2 j (⟨0 + k.val, by have := k.isLt; omega⟩ : Fin 512)) ?_ ?_
  · show j.val = win0_2.index t (1 : Fin 2) * 256 + 1 * j.val; omega
  · show 0 + k.val = 0 + (win0_2.index t (0 : Fin 2) * 256 + 1 * k.val); omega

/-- The neighbour half of layer 0's weights, transposed. -/
theorem wb0_apply (c : Dev nD) (t : Fin cfg0.N) (k j : Fin 256) :
    wb0 m c t (ix2 k j) = w0A m c j ⟨256 + k.val, by have := k.isLt; omega⟩ := by
  show ((cfg0.win 3).blk t).view.read (Elt Ideal) (V m c main_v6) (ix2 k j) = _
  rw [View.read_apply]
  obtain ⟨e0, e1⟩ := idx_facts3 t
  refine V_main_v6 m c _ (ix2 j (⟨256 + k.val, by have := k.isLt; omega⟩ : Fin 512)) ?_ ?_
  · show j.val = win0_3.index t (1 : Fin 2) * 256 + 1 * j.val; omega
  · show 256 + k.val = 256 + (win0_3.index t (0 : Fin 2) * 256 + 1 * k.val); omega

/-- The self half of layer 1's weights, transposed. -/
theorem wa1_apply (c : Dev nD) (t : Fin cfg0.N) (k j : Fin 256) :
    wa1 m c t (ix2 k j) = w1A m c j ⟨0 + k.val, by have := k.isLt; omega⟩ := by
  show ((cfg0.win 4).blk t).view.read (Elt Ideal) (V m c main_v9) (ix2 k j) = _
  rw [View.read_apply]
  obtain ⟨e0, e1⟩ := idx_facts4 t
  refine V_main_v9 m c _ (ix2 j (⟨0 + k.val, by have := k.isLt; omega⟩ : Fin 512)) ?_ ?_
  · show j.val = win0_4.index t (1 : Fin 2) * 256 + 1 * j.val; omega
  · show 0 + k.val = 0 + (win0_4.index t (0 : Fin 2) * 256 + 1 * k.val); omega

/-- The neighbour half of layer 1's weights, transposed. -/
theorem wb1_apply (c : Dev nD) (t : Fin cfg0.N) (k j : Fin 256) :
    wb1 m c t (ix2 k j) = w1A m c j ⟨256 + k.val, by have := k.isLt; omega⟩ := by
  show ((cfg0.win 5).blk t).view.read (Elt Ideal) (V m c main_v12) (ix2 k j) = _
  rw [View.read_apply]
  obtain ⟨e0, e1⟩ := idx_facts5 t
  refine V_main_v12 m c _ (ix2 j (⟨256 + k.val, by have := k.isLt; omega⟩ : Fin 512)) ?_ ?_
  · show j.val = win0_5.index t (1 : Fin 2) * 256 + 1 * j.val; omega
  · show 256 + k.val = 256 + (win0_5.index t (0 : Fin 2) * 256 + 1 * k.val); omega

end Cert.KernelIdeal.KV

end
-- ==== Proof.KI.PayIdeal.lean ====
/-
  The body's seven payloads at the extended reals, read at an index: the four projections as sums over the 256
  contracted columns, the degree block as row sums plus one, the output block as
  sx + (a · z) · (1 / deg) (rectified on layer 0), and the narrowing as the identity.
-/
import proofs.«148510_g32856499814675_cont_sun_m_926_20_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.PayIdeal

open Idealize.ShloMosaic Idealize.ShloMosaic.ValueIdx Cert.KernelIdeal Cert.KernelIdeal.Gen

/-! ## The projection's matrix product: [4096, 256] · [256, 256], contracting the left's columns with the right's rows -/

theorem lhs_proj_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_proj_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_proj_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_proj_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The projection's product into the zero splat, at row `n` and column `j`: the sum over the 256 contracted columns. -/
theorem matmul_proj_apply (x : FVec Ideal S4096x256 .bf16) (w : FVec Ideal S256x256 .bf16) (n : Fin 4096) (j : Fin 256) :
    matmul dot_S4096x256_S256x256_S4096x256_1_0_0_1_n_n none x w (constant (F := Ideal) S4096x256 .f32 0x00000000#32) (ix2 n j)
      = ∑ k : Fin 256, x (ix2 n k) * w (ix2 k j) := by
  show FloatOps.matmul dot_S4096x256_S256x256_S4096x256_1_0_0_1_n_n none x w (constant (F := Ideal) S4096x256 .f32 0x00000000#32) (ix2 n j) = _
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 n j) ((contrEquiv1 dot_S4096x256_S256x256_S4096x256_1_0_0_1_n_n 256 rfl rfl).symm k) = ix2 n k := funext fun a => Fin.ext (by
    match a with
    | ⟨0, _⟩ => exact lhs_proj_0 _ _
    | ⟨1, _⟩ => exact (lhs_proj_1 _ _).trans hk)
  have er : dot_S4096x256_S256x256_S4096x256_1_0_0_1_n_n.rhsIdx (ix2 n j) ((contrEquiv1 dot_S4096x256_S256x256_S4096x256_1_0_0_1_n_n 256 rfl rfl).symm k) = ix2 k j := funext fun a => Fin.ext (by
    match a with
    | ⟨0, _⟩ => exact (rhs_proj_0 _ _).trans hk
    | ⟨1, _⟩ => exact rhs_proj_1 _ _)
  rw [el, er]

/-! ## The degree block: a row sum, cast to a column, plus one -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the 4096 columns, at row `p`. -/
theorem rowsum_apply (a : FVec Ideal S1024x4096 .f32) (h : S1024x4096.Reduces [1] S1024) (hφ : FKind.Formats .f32)
    (hacc : (0x00000000#32 : BitVec 32) = 0x00000000#32) (p : Fin 1024) :
    multiReduction (F := Ideal) .add [1] S1024 a 0x00000000#32 h hφ hacc (ix1 p) = ∑ n : Fin 4096, a (ix2 p n) := by
  refine (Ideal.multiReduction_add_single a 0x00000000#32 h hφ hacc (ix1 p)).trans ?_
  refine Finset.sum_congr rfl fun k _ => congrArg a ?_
  funext c
  apply Fin.ext
  match c with
  | ⟨0, _⟩ => rfl
  | ⟨1, _⟩ => rfl

/-! ## The aggregation's matrix product: [1024, 4096] · [4096, 256], contracting the left's columns with the right's rows -/

theorem lhs_agg_0 (i : S1024x256.Idx) (q : dot_S1024x4096_S4096x256_S1024x256_1_0_0_1_n_n.contr.Idx) :
    (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
  rfl
theorem lhs_agg_1 (i : S1024x256.Idx) (q : dot_S1024x4096_S4096x256_S1024x256_1_0_0_1_n_n.contr.Idx) :
    (dot_S1024x4096_S4096x256_S1024x256_1_0_0_1_n_n.lhsIdx i q 1).val = (q ⟨0, by decide⟩).val :=
  dot_S1024x4096_S4096x256_S1024x256_1_0_0_1_n_n.lhsIdx_val_of_single rfl i q
theorem rhs_agg_0 (i : S1024x256.Idx) (q : dot_S1024x4096_S4096x256_S1024x256_1_0_0_1_n_n.contr.Idx) :
    (dot_S1024x4096_S4096x256_S1024x256_1_0_0_1_n_n.rhsIdx i q 0).val = (q ⟨0, by decide⟩).val :=
  dot_S1024x4096_S4096x256_S1024x256_1_0_0_1_n_n.rhsIdx_val_of_single rfl i q
theorem rhs_agg_1 (i : S1024x256.Idx) (q : dot_S1024x4096_S4096x256_S1024x256_1_0_0_1_n_n.contr.Idx) :
    (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
  rfl

/-- The aggregation's product into the zero splat, at row `p` and column `q`: the sum over the 4096 contracted nodes. -/
theorem matmul_agg_apply (a : FVec Ideal S1024x4096 .bf16) (z : FVec Ideal S4096x256 .bf16) (p : Fin 1024) (q : Fin 256) :
    matmul dot_S1024x4096_S4096x256_S1024x256_1_0_0_1_n_n none a z (constant (F := Ideal) S1024x256 .f32 0x00000000#32) (ix2 p q)
      = ∑ n : Fin 4096, a (ix2 p n) * z (ix2 n q) := by
  show FloatOps.matmul dot_S1024x4096_S4096x256_S1024x256_1_0_0_1_n_n none a z (constant (F := Ideal) S1024x256 .f32 0x00000000#32) (ix2 p q) = _
  rw [Ideal.matmul_constant_zero_apply, ← Equiv.sum_comp (contrEquiv1 dot_S1024x4096_S4096x256_S1024x256_1_0_0_1_n_n 4096 rfl rfl).symm]
  refine Finset.sum_congr rfl fun k _ => ?_
  have hk := contrEquiv1_symm_val dot_S1024x4096_S4096x256_S1024x256_1_0_0_1_n_n 4096 rfl rfl k
  have el : dot_S1024x4096_S4096x256_S1024x256_1_0_0_1_n_n.lhsIdx (ix2 p q) ((contrEquiv1 dot_S1024x4096_S4096x256_S1024x256_1_0_0_1_n_n 4096 rfl rfl).symm k) = ix2 p k := funext fun c => Fin.ext (by
    match c with
    | ⟨0, _⟩ => exact lhs_agg_0 _ _
    | ⟨1, _⟩ => exact (lhs_agg_1 _ _).trans hk)
  have er : dot_S1024x4096_S4096x256_S1024x256_1_0_0_1_n_n.rhsIdx (ix2 p q) ((contrEquiv1 dot_S1024x4096_S4096x256_S1024x256_1_0_0_1_n_n 4096 rfl rfl).symm k) = ix2 k q := funext fun c => Fin.ext (by
    match c with
    | ⟨0, _⟩ => exact (rhs_agg_0 _ _).trans hk
    | ⟨1, _⟩ => exact rhs_agg_1 _ _)
  rw [el, er]

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The unrectified output at row `p`, column `q`: the node's own projection plus the aggregate times the reciprocal degree. -/
theorem pre_apply (a : FVec Ideal S1024x4096 .f32) (z : FVec Ideal S4096x256 .bf16) (d : FVec Ideal S1024x1 .f32)
    (s : FVec Ideal S1024x256 .bf16) (h1 : FTy.bits .bf16 < FTy.bits .f32) (hb : S1024x1.Broadcasts S1024x256)
    (p : Fin 1024) (q : Fin 256) :
    addf (extf .f32 s h1)
        (mulf (matmul dot_S1024x4096_S4096x256_S1024x256_1_0_0_1_n_n none (truncf .bf16 a h1) z (constant (F := Ideal) S1024x256 .f32 0x00000000#32))
          (broadcastTo S1024x256 (divf (broadcast S1024x1 (FloatOps.ofBits (F := Ideal) .f32 0x3F800000#32)) d) hb)) (ix2 p q)
      = s (ix2 p q) + (∑ n : Fin 4096, a (ix2 p n) * z (ix2 n q)) * Ideal.div 1 (d (ix2 p (0 : Fin 1))) := by
  rw [addf_apply, extf_apply, mulf_apply, broadcastTo_a1_ab_apply, divf_apply, broadcast_apply]
  exact congrArg₂ (· + ·) rfl (congrArg₂ (· * ·) (matmul_agg_apply (truncf .bf16 a h1) z p q)
    (congrArg (Ideal.div · (d (ix2 p (0 : Fin 1)))) Ideal.ofBits_one_f32))

/-- z of layer 0 at row `n`, column `j`: the features' row against the weight half's column. -/
theorem pay2_apply (x : Vec Ideal S4096x256 .bf16) (w : Vec Ideal S256x256 .bf16) (n : Fin 4096) (j : Fin 256) :
    k0_pay2 (F := Ideal) x w (ix2 n j) = ∑ k : Fin 256, x (ix2 n k) * w (ix2 k j) := by
  unfold k0_pay2
  rw [shapeCast_self, shapeCast_self, shapeCast_self, truncf_apply]
  exact matmul_proj_apply x w n j

theorem pay3_apply (x : Vec Ideal S4096x256 .bf16) (w : Vec Ideal S256x256 .bf16) (n : Fin 4096) (j : Fin 256) :
    k0_pay3 (F := Ideal) x w (ix2 n j) = ∑ k : Fin 256, x (ix2 n k) * w (ix2 k j) := by
  unfold k0_pay3
  rw [shapeCast_self, shapeCast_self, shapeCast_self, truncf_apply]
  exact matmul_proj_apply x w n j

theorem pay4_apply (x : Vec Ideal S4096x256 .bf16) (w : Vec Ideal S256x256 .bf16) (n : Fin 4096) (j : Fin 256) :
    k0_pay4 (F := Ideal) x w (ix2 n j) = ∑ k : Fin 256, x (ix2 n k) * w (ix2 k j) := by
  unfold k0_pay4
  rw [shapeCast_self, shapeCast_self, truncf_apply]
  exact matmul_proj_apply x w n j

theorem pay5_apply (x : Vec Ideal S4096x256 .bf16) (w : Vec Ideal S256x256 .bf16) (n : Fin 4096) (j : Fin 256) :
    k0_pay5 (F := Ideal) x w (ix2 n j) = ∑ k : Fin 256, x (ix2 n k) * w (ix2 k j) := by
  unfold k0_pay5
  rw [shapeCast_self, shapeCast_self, truncf_apply]
  exact matmul_proj_apply x w n j

/-- The degree block at row `p`: the adjacency block's row sum plus one. -/
theorem pay6_apply (a : Vec Ideal S1024x4096 .f32) (p : Fin 1024) (q : Fin 1) :
    k0_pay6 (F := Ideal) a (ix2 p q) = (∑ n : Fin 4096, a (ix2 p n)) + 1 := by
  unfold k0_pay6
  rw [shapeCast_self, addf_apply, broadcast_apply]
  exact congrArg₂ (· + ·) ((shapeCast_a_a1_apply _ _ p q).trans (rowsum_apply a _ _ _ p)) Ideal.ofBits_one_f32

/-- The output block at row `p`, column `q`: sx + (a · z) · (1 / deg), rectified on layer 0 (first grid coordinate 0). -/
theorem pay7_apply (i : grid0.Coords) (a : Vec Ideal S1024x4096 .f32) (z : Vec Ideal S4096x256 .bf16)
    (d : Vec Ideal S1024x1 .f32) (s : Vec Ideal S1024x256 .bf16) (p : Fin 1024) (q : Fin 256) :
    k0_pay7 (F := Ideal) i a z d s (ix2 p q)
      = if (i 0).val = 0 then
          max (s (ix2 p q) + (∑ n : Fin 4096, a (ix2 p n) * z (ix2 n q)) * Ideal.div 1 (d (ix2 p (0 : Fin 1)))) 0
        else s (ix2 p q) + (∑ n : Fin 4096, a (ix2 p n) * z (ix2 n q)) * Ideal.div 1 (d (ix2 p (0 : Fin 1))) := by
  unfold k0_pay7
  refine (congrFun (select_eq0 (i 0).val (i 0).isLt _ _) (ix2 p q)).trans ?_
  by_cases h0 : (i 0).val = 0
  · rw [if_pos h0, if_pos h0, maximumf_apply, broadcast_apply]
    exact congrArg₂ max (pre_apply a z d s _ _ p q) Ideal.ofBits_zero_f32
  · rw [if_neg h0, if_neg h0]
    exact pre_apply a z d s _ _ p q

/-- The narrowing changes nothing at the extended reals. -/
theorem pay1_apply (v : FVec Ideal S1024x256 .f32) (y : S1024x256.Idx) : k0_pay1 (F := Ideal) v y = v y := by
  unfold k0_pay1
  rw [shapeCast_self, truncf_apply]

end Cert.KernelIdeal.PayIdeal

end
-- ==== Proof.KI.KVal.lean ====
/-
  The scratch buffers' and the output block's named contents at the extended reals are the kernel-side layer functions
  of the arguments: z and sx the two projections, the degree block the degrees, the layer-0 output block the rectified
  first layer on the block's rows, the hidden activations the rectified first layer, the layer-1 output block the second
  layer on the block's rows.
-/
import proofs.«148510_g32856499814675_cont_sun_m_926_20_alg».proof.Proof.KI.KIn
import proofs.«148510_g32856499814675_cont_sun_m_926_20_alg».proof.Proof.KI.PayIdeal
import proofs.«148510_g32856499814675_cont_sun_m_926_20_alg».proof.Proof.KI.RowsStep

set_option maxRecDepth 16384

noncomputable section

namespace Cert.KernelIdeal.KV

open Idealize.ShloMosaic Idealize.ShloMosaic.TcCoe Idealize.ShloMosaic.ValueIdx
open Idealize.SL Idealize.SL.Sem
open Cert.KernelIdeal Cert.KernelIdeal.Gen Cert.KernelIdeal.Track Cert.Spec

variable (m : (ℓ : Loc nD τ sig) → Buf (Elt Ideal) ℓ)

/-- The rectified first layer, kernel side. -/
abbrev H1 (c : Dev nD) : Fin 4096 → Fin 256 → EReal := relu (kLayer (aA m c) (xA m c) (w0A m c))

/-! ## The grid's points: the layer coordinate and the row offsets, in closed form -/

/-- At the points of layer 0 the first grid coordinate is 0. -/
theorem coord0_lo : ∀ t : Fin cfg0.N, t.val < 4 → ((grid0.coords t) 0).val = 0 :=
  (by decide +kernel : ∀ t : Fin grid0.N, t.val < 4 → ((grid0.coords t) 0).val = 0)
/-- At the points of layer 1 it is not. -/
theorem coord0_hi : ∀ t : Fin cfg0.N, 4 ≤ t.val → ((grid0.coords t) 0).val ≠ 0 :=
  (by decide +kernel : ∀ t : Fin grid0.N, 4 ≤ t.val → ((grid0.coords t) 0).val ≠ 0)
/-- The row block of sx the body reads at point `t` starts at row 1024 (t mod 4), column 0. -/
theorem off3_eq : ∀ t : Fin cfg0.N,
    k0_off3 (grid0.coords t) 0 = 1024 * (t.val % 4) ∧ k0_off3 (grid0.coords t) 1 = 0 :=
  (by decide +kernel : ∀ t : Fin grid0.N,
    k0_off3 (grid0.coords t) 0 = 1024 * (t.val % 4) ∧ k0_off3 (grid0.coords t) 1 = 0)
/-- The row block of the degree column the body reads at point `t` starts at row 1024 (t mod 4), column 0. -/
theorem off2_eq : ∀ t : Fin cfg0.N,
    k0_off2 (grid0.coords t) 0 = 1024 * (t.val % 4) ∧ k0_off2 (grid0.coords t) 1 = 0 :=
  (by decide +kernel : ∀ t : Fin grid0.N,
    k0_off2 (grid0.coords t) 0 = 1024 * (t.val % 4) ∧ k0_off2 (grid0.coords t) 1 = 0)

/-! ## A row block read at a row and a column -/

/-- Row `p`, column `q` of the point's row block of a 4096-row projection is row `r = 1024 (t mod 4) + p` of it. -/
theorem sxBlk_apply (sx : Vec Ideal S4096x256 .bf16) (t : Fin cfg0.N) (p : Fin 1024) (q : Fin 256) (r : Fin 4096)
    (hr : r.val = 1024 * (t.val % 4) + p.val) : sxBlk sx (grid0.coords t) (ix2 p q) = sx (ix2 r q) := by
  obtain ⟨h0, h1⟩ := off3_eq t
  show sx _ = sx _
  refine congrArg sx (funext fun a => Fin.ext ?_)
  match a with
  | ⟨0, _⟩ => show k0_off3 (grid0.coords t) 0 + 1 * p.val = r.val; omega
  | ⟨1, _⟩ => show k0_off3 (grid0.coords t) 1 + 1 * q.val = q.val; omega

/-- Row `p` of the point's row block of the degree column is row `r = 1024 (t mod 4) + p` of it. -/
theorem dgBlk_apply (dg : Vec Ideal S4096x1 .f32) (t : Fin cfg0.N) (p : Fin 1024) (q : Fin 1) (r : Fin 4096)
    (hr : r.val = 1024 * (t.val % 4) + p.val) : dgBlk dg (grid0.coords t) (ix2 p q) = dg (ix2 r q) := by
  obtain ⟨h0, h1⟩ := off2_eq t
  show dg _ = dg _
  refine congrArg dg (funext fun a => Fin.ext ?_)
  match a with
  | ⟨0, _⟩ => show k0_off2 (grid0.coords t) 0 + 1 * p.val = r.val; omega
  | ⟨1, _⟩ => show k0_off2 (grid0.coords t) 1 + 1 * q.val = q.val; omega

/-- Row `p` of the adjacency's block at point `t` is row `r = 1024 (t mod 4) + p` of the adjacency. -/
theorem adjB_row (c : Dev nD) (t : Fin cfg0.N) (p : Fin 1024) (n r : Fin 4096)
    (hr : r.val = 1024 * (t.val % 4) + p.val) : adjB m c t (ix2 p n) = aA m c r n := by
  rw [adjB_apply]
  exact congrArg (fun r' => aA m c r' n) (Fin.ext hr.symm)

/-- The degree block computed at point `t`, at row `p`: the degree of row `r = 1024 (t mod 4) + p`. -/
theorem DB_row (c : Dev nD) (t : Fin cfg0.N) (p : Fin 1024) (q : Fin 1) (r : Fin 4096)
    (hr : r.val = 1024 * (t.val % 4) + p.val) : k0_pay6 (adjB m c t) (ix2 p q) = deg (aA m c) r := by
  rw [PayIdeal.pay6_apply]
  unfold deg
  exact congrArg (· + 1) (Finset.sum_congr rfl fun n _ => adjB_row m c t p n r hr)

theorem Z0_apply (c : Dev nD) (n : Fin 4096) (j : Fin 256) :
    Z0 m c (ix2 n j) = proj (xA m c) (w0A m c) 256 (by omega) n j := by
  unfold Z0
  rw [PayIdeal.pay2_apply]
  unfold proj
  exact Finset.sum_congr rfl fun k _ => by rw [xin_apply, wb0_apply]

theorem SX0_apply (c : Dev nD) (n : Fin 4096) (j : Fin 256) :
    SX0 m c (ix2 n j) = proj (xA m c) (w0A m c) 0 (by omega) n j := by
  unfold SX0
  rw [PayIdeal.pay3_apply]
  unfold proj
  exact Finset.sum_congr rfl fun k _ => by rw [xin_apply, wa0_apply]

theorem DB_apply (c : Dev nD) (b : Fin 4) (p : Fin 1024) (q : Fin 1) :
    DB m c b (ix2 p q) = deg (aA m c) ⟨1024 * b.val + p.val, by have := p.isLt; have := b.isLt; omega⟩ := by
  unfold DB
  exact DB_row m c (pt b.val (by have := b.isLt; omega)) p q _
    (by show 1024 * b.val + p.val = 1024 * (b.val % 4) + p.val; have := b.isLt; omega)

/-- The layer-0 output block computed at point `t`, at row `p` and column `q`: the rectified first layer at row
    `r = 1024 (t mod 4) + p`. -/
theorem Out0_row (c : Dev nD) (t : Fin cfg0.N) (ht : t.val < 4) (p : Fin 1024) (q : Fin 256) (r : Fin 4096)
    (hr : r.val = 1024 * (t.val % 4) + p.val) :
    k0_pay7 (grid0.coords t) (adjB m c t) (Z0 m c) (k0_pay6 (adjB m c t)) (sxBlk (SX0 m c) (grid0.coords t)) (ix2 p q)
      = H1 m c r q := by
  have hsum : ∑ n : Fin 4096, adjB m c t (ix2 p n) * Z0 m c (ix2 n q)
      = ∑ n : Fin 4096, aA m c r n * proj (xA m c) (w0A m c) 256 (by omega) n q :=
    Finset.sum_congr rfl fun n _ => by rw [adjB_row m c t p n r hr, Z0_apply]
  rw [PayIdeal.pay7_apply, if_pos (coord0_lo t ht), sxBlk_apply (SX0 m c) t p q r hr, SX0_apply,
    DB_row m c t p 0 r hr, hsum]
  rfl

theorem Out0_apply (c : Dev nD) (b : Fin 4) (p : Fin 1024) (q : Fin 256) :
    Out0 m c b (ix2 p q) = H1 m c ⟨1024 * b.val + p.val, by have := p.isLt; have := b.isLt; omega⟩ q := by
  exact Out0_row m c (pt b.val (by have := b.isLt; omega)) b.isLt p q _
    (by show 1024 * b.val + p.val = 1024 * (b.val % 4) + p.val; have := b.isLt; omega)

theorem Hfull_apply (c : Dev nD) (r : Fin 4096) (q : Fin 256) : Hfull m c (ix2 r q) = H1 m c r q := by
  have hr := r.isLt
  unfold Hfull HB
  rw [PayIdeal.pay1_apply]
  exact Out0_row m c (pt (r.val / 1024) (by omega)) (by show r.val / 1024 < 4; omega)
    ⟨r.val % 1024, by omega⟩ ⟨q.val, q.isLt⟩ r (by show r.val = 1024 * (r.val / 1024 % 4) + r.val % 1024; omega)

theorem Dfull_apply (c : Dev nD) (r : Fin 4096) (q : Fin 1) : Dfull m c (ix2 r q) = deg (aA m c) r := by
  have hr := r.isLt
  unfold Dfull DB
  exact DB_row m c (pt (r.val / 1024) (by omega)) ⟨r.val % 1024, by omega⟩ ⟨q.val, q.isLt⟩ r
    (by show r.val = 1024 * (r.val / 1024 % 4) + r.val % 1024; omega)

theorem Z1_apply (c : Dev nD) (n : Fin 4096) (j : Fin 256) :
    Z1 m c (ix2 n j) = proj (H1 m c) (w1A m c) 256 (by omega) n j := by
  unfold Z1
  rw [PayIdeal.pay4_apply]
  unfold proj
  exact Finset.sum_congr rfl fun k _ => by rw [Hfull_apply, wb1_apply]

theorem SX1_apply (c : Dev nD) (n : Fin 4096) (j : Fin 256) :
    SX1 m c (ix2 n j) = proj (H1 m c) (w1A m c) 0 (by omega) n j := by
  unfold SX1
  rw [PayIdeal.pay5_apply]
  unfold proj
  exact Finset.sum_congr rfl fun k _ => by rw [Hfull_apply, wa1_apply]

/-- The layer-1 output block computed at point `t`, at row `p` and column `q`: the second layer at row
    `r = 1024 (t mod 4) + p`. -/
theorem Out1_row (c : Dev nD) (t : Fin cfg0.N) (ht : 4 ≤ t.val) (p : Fin 1024) (q : Fin 256) (r : Fin 4096)
    (hr : r.val = 1024 * (t.val % 4) + p.val) :
    k0_pay7 (grid0.coords t) (adjB m c t) (Z1 m c) (dgBlk (Dfull m c) (grid0.coords t))
        (sxBlk (SX1 m c) (grid0.coords t)) (ix2 p q)
      = kOut (aA m c) (xA m c) (w0A m c) (w1A m c) r q := by
  have hsum : ∑ n : Fin 4096, adjB m c t (ix2 p n) * Z1 m c (ix2 n q)
      = ∑ n : Fin 4096, aA m c r n * proj (H1 m c) (w1A m c) 256 (by omega) n q :=
    Finset.sum_congr rfl fun n _ => by rw [adjB_row m c t p n r hr, Z1_apply]
  rw [PayIdeal.pay7_apply, if_neg (coord0_hi t ht), sxBlk_apply (SX1 m c) t p q r hr, SX1_apply,
    dgBlk_apply (Dfull m c) t p 0 r hr, Dfull_apply, hsum]
  rfl

/-- The layer-1 output block at row block `b`: the second layer on rows [1024 b, +1024). -/
theorem Out1_apply (c : Dev nD) (b : Fin 4) (p : Fin 1024) (q : Fin 256) :
    Out1 m c b (ix2 p q)
      = kOut (aA m c) (xA m c) (w0A m c) (w1A m c) ⟨1024 * b.val + p.val, by have := p.isLt; have := b.isLt; omega⟩ q := by
  unfold Out1
  exact Out1_row m c (pt (4 + b.val) (by have := b.isLt; omega)) (by show 4 ≤ 4 + b.val; omega) p q _
    (by show 1024 * b.val + p.val = 1024 * ((4 + b.val) % 4) + p.val; have := b.isLt; omega)

end Cert.KernelIdeal.KV

end
-- ==== Proof.KI.KFinal.lean ====
/-
  From the blocks to the whole array.  The output window's block index is l · i: during layer 0 every point writes into
  block 0 of the staging pair and nothing is written back; the four points of layer 1 write back row blocks 0 to 3, each
  the second layer on its rows.  So after the run the result array is the kernel-side two-layer function of the arguments.
-/
import proofs.«148510_g32856499814675_cont_sun_m_926_20_alg».proof.Proof.KI.Body
import proofs.«148510_g32856499814675_cont_sun_m_926_20_alg».proof.Proof.KI.KVal

set_option maxRecDepth 16384

noncomputable section

namespace Cert.KernelIdeal.KV

open Idealize.ShloMosaic Idealize.ShloMosaic.TcCoe Idealize.ShloMosaic.ValueIdx
open Idealize.SL Idealize.SL.Sem
open Cert.KernelIdeal Cert.KernelIdeal.Gen Cert.KernelIdeal.Track Cert.Spec

variable (m : (ℓ : Loc nD τ sig) → Buf (Elt Ideal) ℓ)

variable (ρ : Dev nD → PrngReg)

/-- The kernel-side two-layer function of the arguments, as the result array. -/
def G (c : Dev nD) : S4096x256.Idx → EReal := fun i =>
  kOut (aA m c) (xA m c) (w0A m c) (w1A m c) ⟨(i 0).val, (i 0).isLt⟩ ⟨(i 1).val, (i 1).isLt⟩

/-- The output window over the grid, decided: it is written back exactly at the four points of layer 1, and there its
    block index is (t − 4, 0). -/
theorem out_points : ∀ t : Fin cfg0.N, ((cfg0.win 6).flush t = true ↔ 4 ≤ t.val)
    ∧ (4 ≤ t.val → win0_6.index t (0 : Fin 2) = t.val - 4 ∧ win0_6.index t (1 : Fin 2) = 0) :=
  (by decide +kernel : ∀ t : Fin grid0.N, (win0_6.flush t = true ↔ 4 ≤ t.val)
    ∧ (4 ≤ t.val → win0_6.index t (0 : Fin 2) = t.val - 4 ∧ win0_6.index t (1 : Fin 2) = 0))

/-- An index of the result array is in point `t`'s block iff each coordinate is in the block's range on its axis. -/
theorem mem_out_blk (t : Fin cfg0.N) (i : S4096x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v13).slice (win0_6.rect t)).set ↔ _
  rw [View.set_slice_whole, Rect.mem_set_unit]
  exact Iff.rfl

/-- What a point of layer 1 writes back is its block of the kernel-side two-layer function. -/
theorem flushed_out_eq (c : Dev nD) (t : Fin cfg0.N) (hf : (cfg0.win 6).flush t = true) :
    (dats (F := Ideal) m 0 c).flushed 6 t = ((cfg0.win 6).blk t).view.read (Elt Ideal) (G m c) := by
  show (cfg0.win 6).cut (grid0.coords t) ((dats m 0 c).after 6 t) = _
  rw [after0_6]
  obtain ⟨hfl, hidx⟩ := out_points t
  have h4 : 4 ≤ t.val := hfl.mp hf
  obtain ⟨e0, e1⟩ := hidx h4
  have h8 : t.val < 8 := lt_of_lt_of_eq t.isLt N_0
  unfold OutAt
  rw [dif_neg (by omega)]
  funext j
  have hj0 : (j 0).val < 1024 := (j 0).isLt
  have hj1 : (j 1).val < 256 := (j 1).isLt
  have hx : (cfg0.win 6).xinj (grid0.coords t) j = ix2 (⟨(j 0).val, hj0⟩ : Fin 1024) (⟨(j 1).val, hj1⟩ : Fin 256) :=
    funext fun a => by
      match a with
      | ⟨0, _⟩ => rfl
      | ⟨1, _⟩ => rfl
  show Out1 m c ⟨t.val - 4, _⟩ ((cfg0.win 6).xinj (grid0.coords t) j) = G m c (((cfg0.win 6).blk t).view.emb j)
  rw [hx, Out1_apply]
  have r0 : (((cfg0.win 6).blk t).view.emb j 0).val = 1024 * (t.val - 4) + (j 0).val := by
    show win0_6.index t (0 : Fin 2) * 1024 + 1 * (j 0).val = _
    omega
  have r1 : (((cfg0.win 6).blk t).view.emb j 1).val = (j 1).val := by
    show win0_6.index t (1 : Fin 2) * 256 + 1 * (j 1).val = _
    omega
  unfold G
  exact congrArg₂ (kOut (aA m c) (xA m c) (w0A m c) (w1A m c)) (Fin.ext r0.symm) (Fin.ext r1.symm)

/-- Every index of the result array lies in the block of a point of layer 1: row r in that of point 4 + r / 1024. -/
theorem out_cover (i : S4096x256.Idx) :
    ∃ t : Fin cfg0.N, (cfg0.win 6).flush t = true ∧ i ∈ ((cfg0.win 6).blk t).view.set := by
  have hi0 : (i 0).val < 4096 := (i 0).isLt
  have hi1 : (i 1).val < 256 := (i 1).isLt
  obtain ⟨t, ht⟩ : ∃ t : Fin cfg0.N, t.val = 4 + (i 0).val / 1024 :=
    ⟨⟨4 + (i 0).val / 1024, lt_of_lt_of_eq (show 4 + (i 0).val / 1024 < 8 by omega) N_0.symm⟩, rfl⟩
  obtain ⟨hfl, hidx⟩ := out_points t
  have h4 : 4 ≤ t.val := by omega
  obtain ⟨e0, e1⟩ := hidx h4
  refine ⟨t, hfl.mpr h4, ?_⟩
  rw [mem_out_blk]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 256 ≤ (i 1).val ∧ (i 1).val < win0_6.index t (1 : Fin 2) * 256 + 256
    omega

/-- The result array after the run. -/
theorem final6 (c : Dev nD) : (dats (F := Ideal) m 0 c).arrAt 6 cfg0.N = G m c := by
  exact (dats m 0 c).arrAt_eq_of_cover 6 (G m c) (flushed_out_eq m c) out_cover

/-- The run, read: the result array at the kernel-side function of the arguments, the arguments unchanged. -/
theorem run_value : θ_run defs (onTc (τ := τ) (main (F := Ideal))) ⟨m, fun _ => 0, ρ⟩ fun r => ∀ c : Dev nD,
      r.2.mem ((c.tc : Thread nD τ).loc main_v13) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c => ⟨((h c).1 6).trans (final6 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.KV

end
-- ==== Proof.RefValue.lean ====
/-
  The reference program's result, element by element, is the reference-side layer function of the arguments.
-/
import proofs.«148510_g32856499814675_cont_sun_m_926_20_alg».proof.Defs
import proofs.«148510_g32856499814675_cont_sun_m_926_20_alg».proof.Proof.Gen.ReferenceIdeal.Read
import proofs.«148510_g32856499814675_cont_sun_m_926_20_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal

section Stages

open Cert.ReferenceIdeal.Read

/-- An f32 array of shape `s` at the ideal instance: a function from the shape's indices to the extended reals. -/
abbrev Arr (s : Shape) : Type := (⟨s, .f32⟩ : BufTy).Contents (Elt Ideal)

/-! ## The composed index functions at coordinate-built indices -/

/-- The row sum's operand index: row `p`, column `n` (the column of the broadcast degree does not matter). -/
theorem idx_deg (p : Fin 4096) (k : Fin 256) (n : Fin 4096) :
    idx_main_v0 (idx_main_v1 (idx_main_v5 (ix2 p k))) n = ix2 p n :=
  funext fun d => Fin.ext (by
    match d with
    | ⟨0, _⟩ => show p.val * 1 + 0 = p.val; omega
    | ⟨1, _⟩ => rfl)

/-- The aggregation's left index: row `p` of the adjacency, column `n`. -/
theorem lidx_agg (p : Fin 4096) (j : Fin 256) (n : Fin 4096) : lidx_main_v4 (ix2 p j) n = ix2 p n :=
  funext fun d => Fin.ext (by match d with | ⟨0, _⟩ => rfl | ⟨1, _⟩ => rfl)

/-- The aggregation's right index: row `n` of the features, column `j`. -/
theorem ridx_agg (p : Fin 4096) (j : Fin 256) (n : Fin 4096) : ridx_main_v4 (ix2 p j) n = ix2 n j :=
  funext fun d => Fin.ext (by match d with | ⟨0, _⟩ => rfl | ⟨1, _⟩ => rfl)

/-- The projection's left index: row `p` of the joined array, column `k`. -/
theorem lidx_proj (p : Fin 4096) (q : Fin 256) (k : Fin 512) : lidx_main_v9 (ix2 p q) k = ix2 p k :=
  funext fun d => Fin.ext (by match d with | ⟨0, _⟩ => rfl | ⟨1, _⟩ => rfl)

/-- The projection's right index, through the transpose: row `q` of the weights, column `k`. -/
theorem ridx_proj (p : Fin 4096) (q : Fin 256) (k : Fin 512) : idx_main_v8 (ridx_main_v9 (ix2 p q) k) = ix2 q k :=
  funext fun d => Fin.ext (by match d with | ⟨0, _⟩ => rfl | ⟨1, _⟩ => rfl)

/-! ## One layer, stage by stage -/

/-- The broadcast degree column at row `p` (any column): the row sum of the adjacency plus one. -/
theorem deg_stage (a : Arr S4096x4096) (p : Fin 4096) (k : Fin 256) :
    val_main_v5 (F := Ideal) a (ix2 p k) = Cert.Spec.deg (Cert.Spec.cur a) p := by
  rw [val_main_v5_apply, val_main_v3_apply, val_main_v1_apply, val_main_v0_apply, val_main_v2_apply,
    val_main_cst_0_apply, val_main_cst_apply, Ideal.addf_def, Ideal.ofBits_def, Ideal.ofBits_def,
    Ideal.ofBits_zero_f32, Ideal.ofBits_one_f32, zero_add]
  unfold Cert.Spec.deg
  refine congrArg (· + 1) (Finset.sum_congr rfl fun n _ => ?_)
  rw [idx_deg]

/-- The aggregation `a · h` at row `p`, column `j`. -/
theorem agg_stage (a : Arr S4096x4096) (h : Arr S4096x256) (p : Fin 4096) (j : Fin 256) :
    val_main_v4 (F := Ideal) a h (ix2 p j)
      = ∑ n : Fin 4096, Cert.Spec.cur a p n * Cert.Spec.cur h n j := by
  rw [val_main_v4_apply]
  refine Finset.sum_congr rfl fun n _ => ?_
  rw [lidx_agg, ridx_agg]

/-- The neighbourhood mean: the aggregation divided by the degree. -/
theorem quot_stage (a : Arr S4096x4096) (h : Arr S4096x256) (p : Fin 4096) (j : Fin 256) :
    val_main_v6 (F := Ideal) a h (ix2 p j)
      = Ideal.div (∑ n : Fin 4096, Cert.Spec.cur a p n * Cert.Spec.cur h n j) (Cert.Spec.deg (Cert.Spec.cur a) p) := by
  rw [val_main_v6_apply, Ideal.hostDivf_def, agg_stage, deg_stage]

/-- The joined array at row `p`, column `k`: the node's own features on the first 256 columns, the neighbourhood
    mean on the last 256. -/
theorem concat_stage (a : Arr S4096x4096) (h : Arr S4096x256) (p : Fin 4096) (k : Fin 512) :
    val_main_v7 (F := Ideal) a h (ix2 p k)
      = if hk : k.val < 256 then h (ix2 p ⟨k.val, hk⟩)
        else val_main_v6 (F := Ideal) a h (ix2 p ⟨k.val - 256, by have := k.isLt; omega⟩) := by
  unfold val_main_v7
  by_cases hk : k.val < 256
  · rw [dif_pos hk]
    exact concatenate_pair_apply_left _ h (val_main_v6 (F := Ideal) a h) _ (ix2 p k) rfl (ix2 p ⟨k.val, hk⟩)
      (fun b => by match b with | ⟨0, _⟩ => rfl | ⟨1, _⟩ => rfl)
  · rw [dif_neg hk]
    exact concatenate_pair_apply_right _ h (val_main_v6 (F := Ideal) a h) _ (ix2 p k) rfl rfl
      (ix2 p ⟨k.val - 256, by have := k.isLt; omega⟩)
      (fun b hb => by
        match b with
        | ⟨0, _⟩ => rfl
        | ⟨1, _⟩ => exact absurd rfl hb)
      (by show k.val - 256 + 256 = k.val; omega)

/-- One layer of the reference's run over features `h` and weights `w`: the joined array projected. -/
theorem layer_stage (a : Arr S4096x4096) (h : Arr S4096x256) (w : Arr S256x512) (p : Fin 4096) (q : Fin 256) :
    val_main_v9 (F := Ideal) a h w (ix2 p q)
      = Cert.Spec.rLayer (Cert.Spec.cur a) (Cert.Spec.cur h) (Cert.Spec.cur w) p q := by
  rw [val_main_v9_apply]
  unfold Cert.Spec.rLayer
  refine Finset.sum_congr rfl fun k _ => ?_
  rw [lidx_proj, val_main_v8_apply, ridx_proj, concat_stage]
  by_cases hk : k.val < 256
  · rw [dif_pos hk, dif_pos hk]
  · rw [dif_neg hk, dif_neg hk, quot_stage]

/-! ## The two layers -/

/-- The first layer followed by the rectifier. -/
theorem layer0 (a : Arr S4096x4096) (x : Arr S4096x256) (w0 : Arr S256x512) (p : Fin 4096) (q : Fin 256) :
    val_main_v10 (F := Ideal) a x w0 (ix2 p q)
      = Cert.Spec.relu (Cert.Spec.rLayer (Cert.Spec.cur a) (Cert.Spec.cur x) (Cert.Spec.cur w0)) p q := by
  show _ = max (Cert.Spec.rLayer (Cert.Spec.cur a) (Cert.Spec.cur x) (Cert.Spec.cur w0) p q) 0
  rw [val_main_v10_apply, val_main_call0_v0_apply, val_main_call0_cst_apply, Ideal.maximumf_def, Ideal.ofBits_def,
    Ideal.ofBits_zero_f32, layer_stage]

/-- The rectified first layer as a function of its two coordinates. -/
theorem cur_layer0 (a : Arr S4096x4096) (x : Arr S4096x256) (w0 : Arr S256x512) :
    Cert.Spec.cur (val_main_v10 (F := Ideal) a x w0)
      = Cert.Spec.relu (Cert.Spec.rLayer (Cert.Spec.cur a) (Cert.Spec.cur x) (Cert.Spec.cur w0)) :=
  funext fun p => funext fun q => layer0 a x w0 p q

/-- The second layer's stages are the first layer's over the rectified first layer as features: the same operations
    on the same operands, stage for stage. -/
theorem second_layer_eq (a : Arr S4096x4096) (x : Arr S4096x256) (w0 w1 : Arr S256x512) :
    val_main_v20 (F := Ideal) a x w0 w1 = val_main_v9 (F := Ideal) a (val_main_v10 (F := Ideal) a x w0) w1 := rfl

end Stages

/-- The last stage of the reference's run (the second layer's projection), at row `p` and column `q`, is the
    reference-side two-layer function of the four arguments. -/
theorem ref_value (a : (⟨S4096x4096, .f32⟩ : BufTy).Contents (Elt Ideal)) (x : (⟨S4096x256, .f32⟩ : BufTy).Contents (Elt Ideal))
    (w0 w1 : (⟨S256x512, .f32⟩ : BufTy).Contents (Elt Ideal)) (p : Fin 4096) (q : Fin 256) :
    Cert.ReferenceIdeal.Read.val_main_v20 (F := Ideal) a x w0 w1 (ix2 p q)
      = Cert.Spec.rOut (Cert.Spec.cur a) (Cert.Spec.cur x) (Cert.Spec.cur w0) (Cert.Spec.cur w1) p q := by
  unfold Cert.Spec.rOut
  rw [second_layer_eq, layer_stage, cur_layer0]

end Cert.ReferenceIdeal.RefValue

end
-- ==== Proof.SpecLaw.lean ====
/-
  The two layers agree on finite entries with non-zero degrees: the algebraic law that joins the two programs.
-/
import proofs.«148510_g32856499814675_cont_sun_m_926_20_alg».proof.Proof.Spec
import Mathlib.Algebra.BigOperators.Fin
import Mathlib.Tactic.Ring
import Mathlib.Tactic.FieldSimp

noncomputable section

namespace Cert.Spec

open Idealize.ShloMosaic

/-- A finite sum of coerced reals is the coercion of the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum over 512 indices is the sum over the lower 256 plus the sum over the upper 256. -/
theorem sum_fin512 {M : Type*} [AddCommMonoid M] (f : Fin 512 → M) :
    ∑ k : Fin 512, f k
      = (∑ k : Fin 256, f ⟨k.val, by have := k.isLt; omega⟩)
        + ∑ k : Fin 256, f ⟨256 + k.val, by have := k.isLt; omega⟩ := by
  have h := Fin.sum_univ_add (a := 256) (b := 256) f
  exact h

/-- One layer over the reals: the node's own projection plus the projected neighbourhood sum scaled by the
    reciprocal degree. -/
def layerR (ar : Fin 4096 → Fin 4096 → ℝ) (xr : Fin 4096 → Fin 256 → ℝ) (wr : Fin 256 → Fin 512 → ℝ)
    (i : Fin 4096) (j : Fin 256) : ℝ :=
  (∑ k : Fin 256, xr i k * wr j ⟨k.val, by have := k.isLt; omega⟩)
    + (∑ n : Fin 4096, ar i n * ∑ k : Fin 256, xr n k * wr j ⟨256 + k.val, by have := k.isLt; omega⟩)
      * (1 / ((∑ n : Fin 4096, ar i n) + 1))

/-- The degree of a real adjacency is the coercion of the real row sum plus one. -/
theorem deg_coe (ar : Fin 4096 → Fin 4096 → ℝ) (i : Fin 4096) :
    deg (fun i n => (ar i n : EReal)) i = (((∑ n : Fin 4096, ar i n) + 1 : ℝ) : EReal) := by
  show (∑ n : Fin 4096, (ar i n : EReal)) + 1 = _
  rw [coe_sum, EReal.coe_add, EReal.coe_one]

/-- The kernel's layer on real data is the coercion of the real layer. -/
theorem kLayer_coe (ar : Fin 4096 → Fin 4096 → ℝ) (xr : Fin 4096 → Fin 256 → ℝ) (wr : Fin 256 → Fin 512 → ℝ)
    (i : Fin 4096) (j : Fin 256) (hd : (∑ n : Fin 4096, ar i n) + 1 ≠ 0) :
    kLayer (fun i n => (ar i n : EReal)) (fun n k => (xr n k : EReal)) (fun j k => (wr j k : EReal)) i j
      = (layerR ar xr wr i j : EReal) := by
  unfold kLayer
  rw [deg_coe, Ideal.div_coe hd, one_mul]
  unfold proj layerR
  simp only [← EReal.coe_mul, coe_sum, ← EReal.coe_add, Nat.zero_add]

/-- Scaling by a constant moves across the double sum: the projected aggregate, scaled, is the aggregate of
    the scaled projections. -/
theorem agg_swap (ar : Fin 4096 → ℝ) (xr : Fin 4096 → Fin 256 → ℝ) (wv : Fin 256 → ℝ) (c : ℝ) :
    (∑ k : Fin 256, ((∑ n : Fin 4096, ar n * xr n k) * c) * wv k)
      = (∑ n : Fin 4096, ar n * ∑ k : Fin 256, xr n k * wv k) * c := by
  simp only [Finset.mul_sum, Finset.sum_mul]
  rw [Finset.sum_comm]
  refine Finset.sum_congr rfl (fun n _ => Finset.sum_congr rfl (fun k _ => ?_))
  ring

/-- The reference's layer on real data is the coercion of the real layer. -/
theorem rLayer_coe (ar : Fin 4096 → Fin 4096 → ℝ) (xr : Fin 4096 → Fin 256 → ℝ) (wr : Fin 256 → Fin 512 → ℝ)
    (i : Fin 4096) (j : Fin 256) (hd : (∑ n : Fin 4096, ar i n) + 1 ≠ 0) :
    rLayer (fun i n => (ar i n : EReal)) (fun n k => (xr n k : EReal)) (fun j k => (wr j k : EReal)) i j
      = (layerR ar xr wr i j : EReal) := by
  unfold rLayer
  rw [sum_fin512, deg_coe]
  have h1 : ∀ k : Fin 256, ((⟨k.val, by have := k.isLt; omega⟩ : Fin 512) : Fin 512).val < 256 := fun k => k.isLt
  have h2 : ∀ k : Fin 256, ¬ ((⟨256 + k.val, by have := k.isLt; omega⟩ : Fin 512) : Fin 512).val < 256 :=
    fun k => by simp
  simp only [dif_pos (h1 _), dif_neg (h2 _)]
  simp only [Nat.add_sub_cancel_left, Fin.eta, Ideal.div_coe hd, ← EReal.coe_mul, coe_sum, ← EReal.coe_add]
  unfold layerR
  rw [agg_swap (ar i) xr (fun k => wr j ⟨256 + k.val, by have := k.isLt; omega⟩) (1 / ((∑ n : Fin 4096, ar i n) + 1))]

/-- The rectifier of coerced reals is the coercion of the real rectifier. -/
theorem relu_coe (hr : Fin 4096 → Fin 256 → ℝ) :
    relu (fun n k => (hr n k : EReal)) = fun n k => ((max (hr n k) 0 : ℝ) : EReal) := by
  funext n k
  show max (hr n k : EReal) 0 = _
  rw [← EReal.coe_zero]
  exact (EReal.coe_strictMono.monotone.map_max).symm

/-- On finite entries, wherever no degree vanishes, projecting before aggregating and scaling last gives what
    aggregating, dividing, joining and projecting gives — in both layers, the rectifier between them keeping entries
    finite. -/
theorem kOut_eq_rOut (a : Fin 4096 → Fin 4096 → EReal) (x : Fin 4096 → Fin 256 → EReal) (w0 w1 : Fin 256 → Fin 512 → EReal)
    (ha : ∀ i n, ∃ r : ℝ, a i n = (r : EReal)) (hx : ∀ n k, ∃ r : ℝ, x n k = (r : EReal))
    (hw0 : ∀ j k, ∃ r : ℝ, w0 j k = (r : EReal)) (hw1 : ∀ j k, ∃ r : ℝ, w1 j k = (r : EReal))
    (hdeg : ∀ i, deg a i ≠ 0) : kOut a x w0 w1 = rOut a x w0 w1 := by
  -- every entry is a coerced real
  choose ar har using ha
  choose xr hxr using hx
  choose w0r hw0r using hw0
  choose w1r hw1r using hw1
  obtain rfl : a = fun i n => (ar i n : EReal) := funext fun i => funext fun n => har i n
  obtain rfl : x = fun n k => (xr n k : EReal) := funext fun n => funext fun k => hxr n k
  obtain rfl : w0 = fun j k => (w0r j k : EReal) := funext fun j => funext fun k => hw0r j k
  obtain rfl : w1 = fun j k => (w1r j k : EReal) := funext fun j => funext fun k => hw1r j k
  -- the real degrees do not vanish
  have hd : ∀ i, (∑ n : Fin 4096, ar i n) + 1 ≠ 0 := by
    intro i h
    apply hdeg i
    rw [deg_coe, h, EReal.coe_zero]
  -- the first layer, on either side, is the coercion of the same real layer
  have hk1 : kLayer (fun i n => (ar i n : EReal)) (fun n k => (xr n k : EReal)) (fun j k => (w0r j k : EReal))
      = fun i j => (layerR ar xr w0r i j : EReal) :=
    funext fun i => funext fun j => kLayer_coe ar xr w0r i j (hd i)
  have hr1 : rLayer (fun i n => (ar i n : EReal)) (fun n k => (xr n k : EReal)) (fun j k => (w0r j k : EReal))
      = fun i j => (layerR ar xr w0r i j : EReal) :=
    funext fun i => funext fun j => rLayer_coe ar xr w0r i j (hd i)
  unfold kOut rOut
  rw [hk1, hr1, relu_coe]
  -- and so is the second, on the rectified real features
  funext i j
  rw [kLayer_coe _ _ _ _ _ (hd i), rLayer_coe _ _ _ _ _ (hd i)]

end Cert.Spec

end
-- ==== Proof.PreDecode.lean ====
/-
  What the precondition says of the arguments at the extended reals: every entry of every argument is a real number,
  and no row of the adjacency sums to minus one (no degree vanishes).
-/
import proofs.«148510_g32856499814675_cont_sun_m_926_20_alg».proof.Proof.Gen.Pre_finite_inputs
import proofs.«148510_g32856499814675_cont_sun_m_926_20_alg».proof.Proof.Spec
import Idealize.ShloMosaic.Lib.ReduceAll
import Idealize.ShloMosaic.Lib.IdealHost
import Idealize.ShloMosaic.PureOps.Ideal.Laws

noncomputable section

namespace Cert.PreDecode

open Idealize.ShloMosaic

/-- The f32 pattern `0x7F800000` is plus infinity. -/
theorem ofBits_inf_f32 : Ideal.ofBits .f32 0x7F800000#32 = ⊤ := by simp [Ideal.ofBits, Ideal.ieee]

/-- An extended real whose absolute value `max v (-v)` is below plus infinity is a real: at either infinity the
    absolute value is plus infinity itself. -/
theorem real_of_abs_lt_top (v : EReal) (h : max v (-v) < ⊤) : ∃ r : ℝ, v = (r : EReal) := by
  induction v using EReal.rec with
  | bot => simp at h
  | top => simp at h
  | coe r => exact ⟨r, rfl⟩

/-- A comparison for "less than" that came out one: the left side is below the right. -/
theorem lt_of_cmp_olt {u v : EReal} (h : Ideal.cmp .olt u v = 1#1) : u < v := by
  unfold Ideal.cmp at h
  by_contra hn
  simp [hn] at h

/-- A comparison for "not equal" that came out one: the two sides differ. -/
theorem ne_of_cmp_une {u v : EReal} (h : Ideal.cmp .une u v = 1#1) : u ≠ v := by
  unfold Ideal.cmp at h
  intro hn
  simp [hn] at h

/-- The rank-0 shape has one index. -/
local instance : Subsingleton (⟨0, ![]⟩ : Shape).Idx := ⟨fun a b => funext fun d => d.elim0⟩

/-- `all(|a| < +inf)` read back: the conjunction over every index is one, so each comparison is one, and the
    comparison at an index says that the absolute value of the entry is below plus infinity. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hr h0 ValueIdx.ix0 = 1#1) (i : s.Idx) : ∃ r : ℝ, a i = (r : EReal) := by
  have e1 := Host.reduce_andi_all _ _ hr h0 _ e i
  change Ideal.cmp .olt (max (a i) (-(a i))) (Ideal.ofBits .f32 0x7F800000#32) = 1#1 at e1
  rw [ofBits_inf_f32] at e1
  exact real_of_abs_lt_top (a i) (lt_of_cmp_olt e1)

variable [Cert.Pre_finite_inputs.Facts]
open Cert.Pre_finite_inputs Cert.Pre_finite_inputs.Facts

/-- `all((Σ_n a i n) + 1 ≠ 0)` read back at a row: the host's sum along the second axis from the initial value zero
    is the row sum, the two literals are one and zero, and the comparison at the row says the degree is not zero. -/
theorem deg_ne_zero_of_all (a : FVec Ideal S4096x4096 .f32)
    (e : Host.reduce IntOp.andi
        (cmpf .une
          (addf (Host.reduceAdd a (constant S_ .f32 0x00000000#32) reducesTo_S4096x4096_S4096_d1 h_S_)
            (broadcastInDim S4096 ![] bcast_S_S4096 (constant S_ .f32 0x3F800000#32)))
          (broadcastInDim S4096 ![] bcast_S_S4096 (constant S_ .f32 0x00000000#32)))
        (constantI S_ 1 1#1) reducesTo_S4096_S_d0 h_S_ ValueIdx.ix0 = 1#1) (i : Fin 4096) :
    Cert.Spec.deg (Cert.Spec.cur a) i ≠ 0 := by
  have e1 := Host.reduce_andi_all _ _ reducesTo_S4096_S_d0 h_S_ _ e (ValueIdx.ix1 i)
  change Ideal.cmp .une
    (Ideal.hostReduceAdd reducesTo_S4096x4096_S4096_d1 a (Ideal.ofBits .f32 0x00000000#32) (ValueIdx.ix1 i)
      + Ideal.ofBits .f32 0x3F800000#32) (Ideal.ofBits .f32 0x00000000#32) = 1#1 at e1
  rw [Ideal.hostReduceAdd_single reducesTo_S4096x4096_S4096_d1 (by decide), Ideal.ofBits_zero_f32, Ideal.ofBits_one_f32,
    zero_add] at e1
  have hsum : (∑ k : Fin 4096, a (Shape.Reduces.lift (s := S4096x4096) (t := S4096) (a := 1) (by decide) (ValueIdx.ix1 i) k))
      = ∑ n : Fin 4096, Cert.Spec.cur a i n :=
    Finset.sum_congr rfl fun k _ =>
      congrArg a (funext fun d => Fin.ext (by match d with | ⟨0, _⟩ => rfl | ⟨1, _⟩ => rfl))
  unfold Cert.Spec.deg
  rw [← hsum]
  exact ne_of_cmp_une e1

/-- The printed precondition, all ones at the extended reals, gives finiteness of the four arguments and non-zero degrees. -/
theorem decode (a : FVec Ideal Cert.Pre_finite_inputs.S4096x4096 .f32) (x : FVec Ideal Cert.Pre_finite_inputs.S4096x256 .f32)
    (w0 w1 : FVec Ideal Cert.Pre_finite_inputs.S256x512 .f32)
    (h : Cert.Pre_finite_inputs.fn (F := Ideal) a x w0 w1 = fun _ => 1#1) :
    (∀ i n, ∃ r : ℝ, Cert.Spec.cur a i n = (r : EReal)) ∧ (∀ n k, ∃ r : ℝ, Cert.Spec.cur x n k = (r : EReal))
      ∧ (∀ j k, ∃ r : ℝ, Cert.Spec.cur w0 j k = (r : EReal)) ∧ (∀ j k, ∃ r : ℝ, Cert.Spec.cur w1 j k = (r : EReal))
      ∧ (∀ i, Cert.Spec.deg (Cert.Spec.cur a) i ≠ 0) := by
  have h0 := congrFun h ValueIdx.ix0
  dsimp only [Cert.Pre_finite_inputs.fn, Cert.Pre_finite_inputs.fn_part1] at h0
  simp only [andi, IntOp.andi_eq_one] at h0
  obtain ⟨⟨⟨⟨e1, e2⟩, e3⟩, e4⟩, e5⟩ := h0
  exact ⟨fun i n => real_of_all a _ _ _ e1 (ValueIdx.ix2 i n), fun n k => real_of_all x _ _ _ e2 (ValueIdx.ix2 n k),
    fun j k => real_of_all w0 _ _ _ e3 (ValueIdx.ix2 j k), fun j k => real_of_all w1 _ _ _ e4 (ValueIdx.ix2 j k),
    fun i => deg_ne_zero_of_all a e5 i⟩

end Cert.PreDecode

end
-- ==== Proof.lean ====
/-
  The certificate of the fused two-layer graph convolution against its reference, over the extended reals.

  The kernel runs one grid of 2 × 4 points; layer l at row block i computes sx_blk + (a_blk · z) · (1 / deg_blk) with
  z = x · Wbᵀ and sx = x · Waᵀ projected once per layer and kept, with the degree column and the hidden activations, in
  scratch across the points.  The reference forms the neighbourhood mean (a · x) / deg first, joins it to x, and projects.
  Over finite entries with no vanishing degree the row scaling by 1 / deg moves across the finite sums, so both are one
  function of the arguments (Spec.lean, SpecLaw.lean).  The precondition says exactly that: every entry finite, every
  row sum of the adjacency different from minus one — where the reference's own quotient is defined (PreDecode.lean).

  The frames: both kernel programs by the tracked frame run (K/Body.lean at the word level, KI/Body.lean at the extended
  reals: the invariant names what the scratch buffers hold between points); the reference by its run.  The values: the
  kernel's result array read off the frame run block by block (KI/KFinal.lean over KI/KVal.lean), the reference's off its
  run stage by stage (RefValue.lean).  The idealization rewrote nothing, so there is nothing to preserve.
-/
import proofs.«148510_g32856499814675_cont_sun_m_926_20_alg».proof.Defs
import proofs.«148510_g32856499814675_cont_sun_m_926_20_alg».proof.Proof.K.Body
import proofs.«148510_g32856499814675_cont_sun_m_926_20_alg».proof.Proof.KI.KFinal
import proofs.«148510_g32856499814675_cont_sun_m_926_20_alg».proof.Proof.RefValue
import proofs.«148510_g32856499814675_cont_sun_m_926_20_alg».proof.Proof.SpecLaw
import proofs.«148510_g32856499814675_cont_sun_m_926_20_alg».proof.Proof.PreDecode

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Track.frame m ρ

/-- So does the kernel read at the extended reals. -/
theorem frame_ki : Cert.frame_KernelIdeal := fun m ρ _ => Cert.KernelIdeal.Track.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, finite and with no vanishing degree, the kernel's result array — the
    kernel-side two-layer function — is the reference's last stage — the reference-side one: the two are one function
    there. -/
theorem algebraic : Cert.algebraic_KernelIdeal_ReferenceIdeal := by
  intro m ρ m' ρ' hpre hagree
  refine ⟨fun c => Cert.KernelIdeal.KV.G m c, Cert.KernelIdeal.KV.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  obtain ⟨ha, hx, hw0, hw1, hdeg⟩ := Cert.PreDecode.decode _ _ _ _ (hpre c)
  funext i
  obtain ⟨p, q, rfl⟩ : ∃ (p : Fin 4096) (q : Fin 256), i = ValueIdx.ix2 p q := ⟨i 0, i 1, ValueIdx.eq_ix2 i⟩
  refine (Cert.ReferenceIdeal.RefValue.ref_value _ _ _ _ p q).trans ?_
  exact (congrFun (congrFun (Cert.Spec.kOut_eq_rOut _ _ _ _ ha hx hw0 hw1 hdeg) p) q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
